-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : IVec S1x1600000 32 := (extractStridedSlice S1x1600000 ![0, 0] · slices_S2x1600000_S1x1600000_0_0) main_arg1
  let main_v20 : IVec S1600000 32 := shapeCast S1600000 main_v19 shapeCasts_S1x1600000_S1600000
  let main_c_6 : IVec S_ 32 := constantI S_ 32 4294867296#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![0, 0] · slices_S2x1600000_S1x1600000_0_0) main_arg1
  let main_v24 : IVec S1600000 32 := shapeCast S1600000 main_v23 shapeCasts_S1x1600000_S1600000
  let main_c_7 : IVec S_ 32 := constantI S_ 32 100000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  main_v29

def fn {F : FTy → Type} [FloatOps F] (main_arg0 : FVec F S100000x64 .f32) (main_arg1 : IVec S2x1600000 32) (main_arg2 : FVec F S5x64x64 .f32) (main_arg3 : FVec F S5x64x64 .f32) (main_arg4 : FVec F S5x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg2
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64x64 .f32 := Host.absf main_arg3
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S5x64 .f32 := Host.absf main_arg4
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg1 main_v13 main_v16
-- ==== Kernel.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩

abbrev nBuf : Space → Nat
  | .hbm => 207
  | .vmem => 55
  | .smem => 0
  | _ => 0

abbrev hbmTy0_0 (i : Nat) : BufTy := match i % 128 with
  | 0 => ⟨S100000x64, .f32⟩
  | 1 => ⟨S2x1600000, .i32⟩
  | 2 => ⟨S5x64x64, .f32⟩
  | 3 => ⟨S5x64x64, .f32⟩
  | 4 => ⟨S5x64, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x64, .f32⟩
  | 41 => ⟨S1600000x64, .i1⟩
  | 42 => ⟨S_, .f32⟩
  | 43 => ⟨S1600000x64, .f32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x64, .f32⟩
  | 50 => ⟨S100000x64, .f32⟩
  | 51 => ⟨S1x64x64, .f32⟩
  | 52 => ⟨S64x64, .f32⟩
  | 53 => ⟨S1x64x64, .f32⟩
  | 54 => ⟨S64x64, .f32⟩
  | 55 => ⟨S1x64, .f32⟩
  | 56 => ⟨S64, .f32⟩
  | 57 => ⟨S1x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1, .i32⟩
  | 68 => ⟨S_, .i32⟩
  | 69 => ⟨S1600000x1, .i32⟩
  | 70 => ⟨S1600000x1, .i1⟩
  | 71 => ⟨S1x1, .i32⟩
  | 72 => ⟨S1600000x1, .i32⟩
  | 73 => ⟨S1600000x1, .i1⟩
  | 74 => ⟨S1600000x1, .i1⟩
  | 75 => ⟨S_, .i1⟩
  | 76 => ⟨S1600000, .i1⟩
  | 77 => ⟨S1600000x64, .f32⟩
  | 78 => ⟨S1600000x64, .i1⟩
  | 79 => ⟨S_, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S100000x64, .f32⟩
  | 87 => ⟨S100000x64, .f32⟩
  | 88 => ⟨S1x64x64, .f32⟩
  | 89 => ⟨S64x64, .f32⟩
  | 90 => ⟨S1x64x64, .f32⟩
  | 91 => ⟨S64x64, .f32⟩
  | 92 => ⟨S1x64, .f32⟩
  | 93 => ⟨S64, .f32⟩
  | 94 => ⟨S1x64, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1, .i32⟩
  | 105 => ⟨S_, .i32⟩
  | 106 => ⟨S1600000x1, .i32⟩
  | 107 => ⟨S1600000x1, .i1⟩
  | 108 => ⟨S1x1, .i32⟩
  | 109 => ⟨S1600000x1, .i32⟩
  | 110 => ⟨S1600000x1, .i1⟩
  | 111 => ⟨S1600000x1, .i1⟩
  | 112 => ⟨S_, .i1⟩
  | 113 => ⟨S1600000, .i1⟩
  | 114 => ⟨S1600000x64, .f32⟩
  | 115 => ⟨S1600000x64, .i1⟩
  | 116 => ⟨S_, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x64, .f32⟩
  | 124 => ⟨S100000x64, .f32⟩
  | 125 => ⟨S1x64x64, .f32⟩
  | 126 => ⟨S64x64, .f32⟩
  | 127 => ⟨S1x64x64, .f32⟩
  | _ => ⟨S100000x64, .f32⟩

abbrev hbmTy0_1 (i : Nat) : BufTy := match i % 128 with
  | 0 => ⟨S64x64, .f32⟩
  | 1 => ⟨S1x64, .f32⟩
  | 2 => ⟨S64, .f32⟩
  | 3 => ⟨S1x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1, .i32⟩
  | 14 => ⟨S_, .i32⟩
  | 15 => ⟨S1600000x1, .i32⟩
  | 16 => ⟨S1600000x1, .i1⟩
  | 17 => ⟨S1x1, .i32⟩
  | 18 => ⟨S1600000x1, .i32⟩
  | 19 => ⟨S1600000x1, .i1⟩
  | 20 => ⟨S1600000x1, .i1⟩
  | 21 => ⟨S_, .i1⟩
  | 22 => ⟨S1600000, .i1⟩
  | 23 => ⟨S1600000x64, .f32⟩
  | 24 => ⟨S1600000x64, .i1⟩
  | 25 => ⟨S_, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S100000x64, .f32⟩
  | 34 => ⟨S1x64x64, .f32⟩
  | 35 => ⟨S64x64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S100000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1, .i32⟩
  | 51 => ⟨S_, .i32⟩
  | 52 => ⟨S1600000x1, .i32⟩
  | 53 => ⟨S1600000x1, .i1⟩
  | 54 => ⟨S1x1, .i32⟩
  | 55 => ⟨S1600000x1, .i32⟩
  | 56 => ⟨S1600000x1, .i1⟩
  | 57 => ⟨S1600000x1, .i1⟩
  | 58 => ⟨S_, .i1⟩
  | 59 => ⟨S1600000, .i1⟩
  | 60 => ⟨S1600000x64, .f32⟩
  | 61 => ⟨S1600000x64, .i1⟩
  | 62 => ⟨S_, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .f32⟩
  | 71 => ⟨S1x64x64, .f32⟩
  | 72 => ⟨S64x64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S2000x64, .f32⟩
  | .local _ .vmem, ⟨54, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v27 : Ref sig .tc := ⟨.hbm, 81, rfl⟩
abbrev main_cst_4 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v41 : Ref sig .tc := ⟨.hbm, 118, rfl⟩
abbrev main_cst_5 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_v14 : Ref sig .tc := ⟨.hbm, 152, rfl⟩
abbrev main_call3_cst : Ref sig .tc := ⟨.hbm, 153, rfl⟩
abbrev main_call3_v15 : Ref sig .tc := ⟨.hbm, 154, rfl⟩
abbrev main_v55 : Ref sig .tc := ⟨.hbm, 155, rfl⟩
abbrev main_cst_6 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v69 : Ref sig .tc := ⟨.hbm, 192, rfl⟩
abbrev main_cst_7 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S2x1600000, .i32⟩
  | 2 => ⟨S5x64x64, .f32⟩
  | 3 => ⟨S5x64x64, .f32⟩
  | 4 => ⟨S5x64, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000x64, .f32⟩
  | 66 => ⟨S100000x64, .f32⟩
  | 67 => ⟨S1x64x64, .f32⟩
  | 68 => ⟨S64x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1x64, .f32⟩
  | 5 => ⟨S64, .f32⟩
  | 6 => ⟨S1x64, .f32⟩
  | 7 => ⟨S100000x64, .f32⟩
  | 8 => ⟨S100000x64, .f32⟩
  | 9 => ⟨S1x64x64, .f32⟩
  | 10 => ⟨S64x64, .f32⟩
  | 11 => ⟨S100000x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call1_cst : Ref sig .tc := ⟨.hbm, 80, rfl⟩
abbrev main_call1_v0 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call2_cst : Ref sig .tc := ⟨.hbm, 111, rfl⟩
abbrev main_call2_v0 : Ref sig .tc := ⟨.hbm, 112, rfl⟩
abbrev main_v89 : Ref sig .tc := ⟨.hbm, 113, rfl⟩
abbrev main_c_11 : Ref sig .tc := ⟨.hbm, 114, rfl⟩
abbrev main_v90 : Ref sig .tc := ⟨.hbm, 115, rfl⟩
abbrev main_v91 : Ref sig .tc := ⟨.hbm, 116, rfl⟩
abbrev main_c_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_call3_cst : Ref sig .tc := ⟨.hbm, 142, rfl⟩
abbrev main_call3_v0 : Ref sig .tc := ⟨.hbm, 143, rfl⟩
abbrev main_v115 : Ref sig .tc := ⟨.hbm, 144, rfl⟩
abbrev main_c_14 : Ref sig .tc := ⟨.hbm, 145, rfl⟩
abbrev main_v116 : Ref sig .tc := ⟨.hbm, 146, rfl⟩
abbrev main_v117 : Ref sig .tc := ⟨.hbm, 147, rfl⟩
abbrev main_c_15 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_16 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Body0.lean ====
/-
  Region 0 of the program, one point of its grid at a time. The region's seven windows are: 0 the aggregated
  features, 1 the features, 2 the residual (the same array as window 1), 3 and 4 the two weight matrices, 5 the bias
  row, 6 the result. At a point the body reads its input blocks and leaves in the result's block the sum of the two matrix products and the bias row, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.Kernel.Launch
import proofs.«406033_j21930103013914_1_alg».proof.Proof.Gen.Kernel.Skeleton
import proofs.«406033_j21930103013914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 2000 by 64 block, of a 64 by 64 matrix, of a 1 by 64 row. -/
abbrev r0_blk : Rect S2000x64 := Rect.unit (s := S2000x64) ![0, 0] S2000x64.size inb_S2000x64_S2000x64_0_0
abbrev r0_mat : Rect S64x64 := Rect.unit (s := S64x64) ![0, 0] S64x64.size inb_S64x64_S64x64_0_0
abbrev r0_row : Rect S1x64 := Rect.unit (s := S1x64) ![0, 0] S1x64.size inb_S1x64_S1x64_0_0

/-- What the body leaves in the result's block, from the input blocks: its one store, of the whole block. -/
def out0 (x0 x1 : Vec F S2000x64 .f32) (x3 x4 : Vec F S64x64 .f32) (x5 : Vec F S1x64 .f32) : Vec F S2000x64 .f32 :=
  View.canon [⟨r0_blk, k0_pay1 (View.ld x0 r0_blk) (View.ld x1 r0_blk) (View.ld x3 r0_mat) (View.ld x4 r0_mat) (View.ld x5 r0_row)⟩]

/-- The one store covers the block. -/
theorem cover0 (p0 : Vec F S2000x64 .f32) (y : S2000x64.Idx) :
    ∃ pc ∈ ([⟨r0_blk, p0⟩] : List (View.Piece (Elt F) S2000x64 .f32)), y ∈ pc.1.set :=
  View.cover_of_tiled [⟨r0_blk, p0⟩] S2000x64.size (by rfl) y

/-- Input window 0's current buffer holds its block at every point, fetched there or not, for any proof data whose
    array is the region's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data whose
    array is the region's and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data whose
    array is the region's and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data whose
    array is the region's and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not, for any proof data whose
    array is the region's and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not, for any proof data whose
    array is the region's and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers, the inputs' at read contents and the result's at anything, runs to the continuation
    holding the inputs' as they were and the result's at `out0` of the inputs': five loads of whole input blocks (window 2's
    buffer is handed over and returned unread), a load of the result's buffer that nothing reads, and one store of the
    whole block, which covers it. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0 x0 x1 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-- The region's proof data on core `c`: the arrays as the region finds them; after the body each input's buffer
    still at its block and the result's at `out0` of the input blocks; the features' array held in two halves
    by windows 1 and 2; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0 (iblk0 V c 0 t) (iblk0 V c 1 t) (iblk0 V c 3 t) (iblk0 V c 4 t) (iblk0 V c 5 t) := by
  dsimp only [dat0]

/-- What the body leaves in each input window's buffer: its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.Kernel.Launch
import proofs.«406033_j21930103013914_1_alg».proof.Proof.Gen.Kernel.Skeleton
import proofs.«406033_j21930103013914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 2000 by 64 block, of a 64 by 64 matrix, of a 1 by 64 row. -/
abbrev r1_blk : Rect S2000x64 := Rect.unit (s := S2000x64) ![0, 0] S2000x64.size inb_S2000x64_S2000x64_0_0
abbrev r1_mat : Rect S64x64 := Rect.unit (s := S64x64) ![0, 0] S64x64.size inb_S64x64_S64x64_0_0
abbrev r1_row : Rect S1x64 := Rect.unit (s := S1x64) ![0, 0] S1x64.size inb_S1x64_S1x64_0_0

/-- What the body leaves in the result's block, from the input blocks: its one store, of the whole block. -/
def out1 (x0 x1 x2 : Vec F S2000x64 .f32) (x3 x4 : Vec F S64x64 .f32) (x5 : Vec F S1x64 .f32) : Vec F S2000x64 .f32 :=
  View.canon [⟨r1_blk, k1_pay1 (View.ld x0 r1_blk) (View.ld x1 r1_blk) (View.ld x3 r1_mat) (View.ld x4 r1_mat) (View.ld x5 r1_row) (View.ld x2 r1_blk)⟩]

/-- The one store covers the block. -/
theorem cover1 (p0 : Vec F S2000x64 .f32) (y : S2000x64.Idx) :
    ∃ pc ∈ ([⟨r1_blk, p0⟩] : List (View.Piece (Elt F) S2000x64 .f32)), y ∈ pc.1.set :=
  View.cover_of_tiled [⟨r1_blk, p0⟩] S2000x64.size (by rfl) y

/-- Input window 0's current buffer holds its block at every point, fetched there or not, for any proof data whose
    array is the region's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for any proof data whose
    array is the region's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for any proof data whose
    array is the region's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for any proof data whose
    array is the region's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for any proof data whose
    array is the region's and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not, for any proof data whose
    array is the region's and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole buffers, the inputs' at read contents and the result's at anything, runs to the continuation
    holding the inputs' as they were and the result's at `out1` of the inputs': six loads of whole input blocks, a
    load of the result's buffer that nothing reads, and one store of the whole block, which covers it. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The region's proof data on core `c`: the arrays as the region finds them; after the body each input's buffer
    still at its block and the result's at `out1` of the input blocks; the features' array held in two halves
    by windows 1 and 2; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by
  dsimp only [dat1]

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.Kernel.Launch
import proofs.«406033_j21930103013914_1_alg».proof.Proof.Gen.Kernel.Skeleton
import proofs.«406033_j21930103013914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 2000 by 64 block, of a 64 by 64 matrix, of a 1 by 64 row. -/
abbrev r2_blk : Rect S2000x64 := Rect.unit (s := S2000x64) ![0, 0] S2000x64.size inb_S2000x64_S2000x64_0_0
abbrev r2_mat : Rect S64x64 := Rect.unit (s := S64x64) ![0, 0] S64x64.size inb_S64x64_S64x64_0_0
abbrev r2_row : Rect S1x64 := Rect.unit (s := S1x64) ![0, 0] S1x64.size inb_S1x64_S1x64_0_0

/-- What the body leaves in the result's block, from the input blocks: its one store, of the whole block. -/
def out2 (x0 x1 x2 : Vec F S2000x64 .f32) (x3 x4 : Vec F S64x64 .f32) (x5 : Vec F S1x64 .f32) : Vec F S2000x64 .f32 :=
  View.canon [⟨r2_blk, k2_pay1 (View.ld x0 r2_blk) (View.ld x1 r2_blk) (View.ld x3 r2_mat) (View.ld x4 r2_mat) (View.ld x5 r2_row) (View.ld x2 r2_blk)⟩]

/-- The one store covers the block. -/
theorem cover2 (p0 : Vec F S2000x64 .f32) (y : S2000x64.Idx) :
    ∃ pc ∈ ([⟨r2_blk, p0⟩] : List (View.Piece (Elt F) S2000x64 .f32)), y ∈ pc.1.set :=
  View.cover_of_tiled [⟨r2_blk, p0⟩] S2000x64.size (by rfl) y

/-- Input window 0's current buffer holds its block at every point, fetched there or not, for any proof data whose
    array is the region's and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is the region's and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is the region's and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data whose
    array is the region's and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data whose
    array is the region's and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not, for any proof data whose
    array is the region's and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole buffers, the inputs' at read contents and the result's at anything, runs to the continuation
    holding the inputs' as they were and the result's at `out2` of the inputs': six loads of whole input blocks, a
    load of the result's buffer that nothing reads, and one store of the whole block, which covers it. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-- The region's proof data on core `c`: the arrays as the region finds them; after the body each input's buffer
    still at its block and the result's at `out2` of the input blocks; the features' array held in two halves
    by windows 1 and 2; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by
  dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/-
  Region 3 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.Kernel.Launch
import proofs.«406033_j21930103013914_1_alg».proof.Proof.Gen.Kernel.Skeleton
import proofs.«406033_j21930103013914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a 2000 by 64 block, of a 64 by 64 matrix, of a 1 by 64 row. -/
abbrev r3_blk : Rect S2000x64 := Rect.unit (s := S2000x64) ![0, 0] S2000x64.size inb_S2000x64_S2000x64_0_0
abbrev r3_mat : Rect S64x64 := Rect.unit (s := S64x64) ![0, 0] S64x64.size inb_S64x64_S64x64_0_0
abbrev r3_row : Rect S1x64 := Rect.unit (s := S1x64) ![0, 0] S1x64.size inb_S1x64_S1x64_0_0

/-- What the body leaves in the result's block, from the input blocks: its one store, of the whole block. -/
def out3 (x0 x1 x2 : Vec F S2000x64 .f32) (x3 x4 : Vec F S64x64 .f32) (x5 : Vec F S1x64 .f32) : Vec F S2000x64 .f32 :=
  View.canon [⟨r3_blk, k3_pay1 (View.ld x0 r3_blk) (View.ld x1 r3_blk) (View.ld x3 r3_mat) (View.ld x4 r3_mat) (View.ld x5 r3_row) (View.ld x2 r3_blk)⟩]

/-- The one store covers the block. -/
theorem cover3 (p0 : Vec F S2000x64 .f32) (y : S2000x64.Idx) :
    ∃ pc ∈ ([⟨r3_blk, p0⟩] : List (View.Piece (Elt F) S2000x64 .f32)), y ∈ pc.1.set :=
  View.cover_of_tiled [⟨r3_blk, p0⟩] S2000x64.size (by rfl) y

/-- Input window 0's current buffer holds its block at every point, fetched there or not, for any proof data whose
    array is the region's and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not, for any proof data whose
    array is the region's and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not, for any proof data whose
    array is the region's and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not, for any proof data whose
    array is the region's and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not, for any proof data whose
    array is the region's and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not, for any proof data whose
    array is the region's and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 1000000 in
/-- The body on whole buffers, the inputs' at read contents and the result's at anything, runs to the continuation
    holding the inputs' as they were and the result's at `out3` of the inputs': six loads of whole input blocks, a
    load of the result's buffer that nothing reads, and one store of the whole block, which covers it. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3 x0 x1 x2 x3 x4 x5)) -∗ K ⟨⟩))
      ⊢ wp frame (wpE (defs₀ (F := F)) Variants.none c none) E (cc3__layer_kernel i arg1 harg1 arg2 harg2 arg3 harg3 arg4 harg4 arg5 harg5 arg6 harg6 arg7 harg7) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The region's proof data on core `c`: the arrays as the region finds them; after the body each input's buffer
    still at its block and the result's at `out3` of the input blocks; the features' array held in two halves
    by windows 1 and 2; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by
  dsimp only [dat3]

/-- What the body leaves in each input window's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/-
  Region 4 of the program, one point of its grid at a time. The region's seven windows are: 0 the aggregated
  features, 1 the features, 2 the residual (the same array as window 1), 3 and 4 the two weight matrices, 5 the bias
  row, 6 the result. At a point the body reads its input blocks and leaves in the result's block the sum of the two matrix products and the bias row.
  Here: each window's block as the region finds it, what the body leaves in the result's block as a function of
  the input blocks, the body's triple, the region's proof data, and the body obligation at every point.
  Windows 1 and 2 read one array, so each holds half of it.
-/
import proofs.«406033_j21930103013914_1_alg».proof.Proof.Gen.Kernel.Launch
import proofs.«406033_j21930103013914_1_alg».proof.Proof.Gen.Kernel.Skeleton
import proofs.«406033_j21930103013914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of a 2000 by 64 block, of a 64 by 64 matrix, of a 1 by 64 row. -/
abbrev r4_blk : Rect S2000x64 := Rect.unit (s := S2000x64) ![0, 0] S2000x64.size inb_S2000x64_S2000x64_0_0
abbrev r4_mat : Rect S64x64 := Rect.unit (s := S64x64) ![0, 0] S64x64.size inb_S64x64_S64x64_0_0
abbrev r4_row : Rect S1x64 := Rect.unit (s := S1x64) ![0, 0] S1x64.size inb_S1x64_S1x64_0_0

/-- What the body leaves in the result's block, from the input blocks: its one store, of the whole block. -/
def out4 (x0 x1 : Vec F S2000x64 .f32) (x3 x4 : Vec F S64x64 .f32) (x5 : Vec F S1x64 .f32) : Vec F S2000x64 .f32 :=
  View.canon [⟨r4_blk, k4_pay1 (View.ld x0 r4_blk) (View.ld x1 r4_blk) (View.ld x3 r4_mat) (View.ld x4 r4_mat) (View.ld x5 r4_row)⟩]

/-- The one store covers the block. -/
theorem cover4 (p0 : Vec F S2000x64 .f32) (y : S2000x64.Idx) :
    ∃ pc ∈ ([⟨r4_blk, p0⟩] : List (View.Piece (Elt F) S2000x64 .f32)), y ∈ pc.1.set :=
  View.cover_of_tiled [⟨r4_blk, p0⟩] S2000x64.size (by rfl) y

/-- Input window 0's current buffer holds its block at every point, fetched there or not, for any proof data whose
    array is the region's and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not, for any proof data whose
    array is the region's and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not, for any proof data whose
    array is the region's and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not, for any proof data whose
    array is the region's and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not, for any proof data whose
    array is the region's and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not, for any proof data whose
    array is the region's and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

set_option maxHeartbeats 1000000 in
/-- The body on whole buffers, the inputs' at read contents and the result's at anything, runs to the continuation
    holding the inputs' as they were and the result's at `out4` of the inputs': five loads of whole input blocks (window 2's
    buffer is handed over and returned unread), a load of the result's buffer that nothing reads, and one store of the
    whole block, which covers it. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out4 x0 x1 x3 x4 x5)) -∗ K ⟨⟩))
      ⊢ wp frame (wpE (defs₀ (F := F)) Variants.none c none) E (cc4__layer_kernel i arg1 harg1 arg2 harg2 arg3 harg3 arg4 harg4 arg5 harg5 arg6 harg6 arg7 harg7) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4 _)

/-- The region's proof data on core `c`: the arrays as the region finds them; after the body each input's buffer
    still at its block and the result's at `out4` of the input blocks; the features' array held in two halves
    by windows 1 and 2; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4 (iblk4 V c 0 t) (iblk4 V c 1 t) (iblk4 V c 3 t) (iblk4 V c 4 t) (iblk4 V c 5 t)
  Φ _ := Pipeline.ΦA spec4 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out4 (iblk4 V c 0 t) (iblk4 V c 1 t) (iblk4 V c 3 t) (iblk4 V c 4 t) (iblk4 V c 5 t) := by
  dsimp only [dat4]

/-- What the body leaves in each input window's buffer: its block. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Chain.lean ====
/-
  The program's five regions in sequence: what each region's arrays hold when the region is entered, and what the
  region leaves in its result array. Region 0 is entered from the launch contents after the first host operations;
  every later region from what its predecessor left, after the host operations between them (the next aggregation
  and the next layer's weights). The result of region K is the fold of its write-backs over its grid.
-/
import proofs.«406033_j21930103013914_1_alg».proof.Proof.K.Body0
import proofs.«406033_j21930103013914_1_alg».proof.Proof.K.Body1
import proofs.«406033_j21930103013914_1_alg».proof.Proof.K.Body2
import proofs.«406033_j21930103013914_1_alg».proof.Proof.K.Body3
import proofs.«406033_j21930103013914_1_alg».proof.Proof.K.Body4
import proofs.«406033_j21930103013914_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers' contents when region 0 is entered. -/
def E0 (c : Dev nD) (b : Ref sig .tc) : Buf (Elt F) ((c : Thread nD τ).loc b) := V3 m c b
/-- What region 0 leaves in its result array `main_v26`. -/
def o4 (c : Dev nD) : Buf (Elt F) ((c : Thread nD τ).loc main_v26) := (dat0 (E0 m) c).arrAt 6 cfg0.N
/-- The regions' results so far, as the contents a region may leave in a buffer (elsewhere: the launch contents). -/
def outs1 : Outs (F := F) := fun _ r c => if h : r = main_v26 then h ▸ o4 m c else m ((c : Thread nD τ).loc r)

/-- The buffers' contents when region 1 is entered. -/
def E1 (c : Dev nD) (b : Ref sig .tc) : Buf (Elt F) ((c : Thread nD τ).loc b) := V6 m (outs1 m) c b
/-- What region 1 leaves in its result array `main_v40`. -/
def o7 (c : Dev nD) : Buf (Elt F) ((c : Thread nD τ).loc main_v40) := (dat1 (E1 m) c).arrAt 6 cfg1.N
/-- The regions' results so far, as the contents a region may leave in a buffer (elsewhere: the launch contents). -/
def outs2 : Outs (F := F) := fun _ r c => if h : r = main_v26 then h ▸ o4 m c else if h : r = main_v40 then h ▸ o7 m c else m ((c : Thread nD τ).loc r)

/-- The buffers' contents when region 2 is entered. -/
def E2 (c : Dev nD) (b : Ref sig .tc) : Buf (Elt F) ((c : Thread nD τ).loc b) := V9 m (outs2 m) c b
/-- What region 2 leaves in its result array `main_v54`. -/
def o10 (c : Dev nD) : Buf (Elt F) ((c : Thread nD τ).loc main_v54) := (dat2 (E2 m) c).arrAt 6 cfg2.N
/-- The regions' results so far, as the contents a region may leave in a buffer (elsewhere: the launch contents). -/
def outs3 : Outs (F := F) := fun _ r c => if h : r = main_v26 then h ▸ o4 m c else if h : r = main_v40 then h ▸ o7 m c else if h : r = main_v54 then h ▸ o10 m c else m ((c : Thread nD τ).loc r)

/-- The buffers' contents when region 3 is entered. -/
def E3 (c : Dev nD) (b : Ref sig .tc) : Buf (Elt F) ((c : Thread nD τ).loc b) := V12 m (outs3 m) c b
/-- What region 3 leaves in its result array `main_v68`. -/
def o13 (c : Dev nD) : Buf (Elt F) ((c : Thread nD τ).loc main_v68) := (dat3 (E3 m) c).arrAt 6 cfg3.N
/-- The regions' results so far, as the contents a region may leave in a buffer (elsewhere: the launch contents). -/
def outs4 : Outs (F := F) := fun _ r c => if h : r = main_v26 then h ▸ o4 m c else if h : r = main_v40 then h ▸ o7 m c else if h : r = main_v54 then h ▸ o10 m c else if h : r = main_v68 then h ▸ o13 m c else m ((c : Thread nD τ).loc r)

/-- The buffers' contents when region 4 is entered. -/
def E4 (c : Dev nD) (b : Ref sig .tc) : Buf (Elt F) ((c : Thread nD τ).loc b) := V15 m (outs4 m) c b
/-- What region 4 leaves in its result array `main_v82`. -/
def o16 (c : Dev nD) : Buf (Elt F) ((c : Thread nD τ).loc main_v82) := (dat4 (E4 m) c).arrAt 6 cfg4.N
/-- The regions' results so far, as the contents a region may leave in a buffer (elsewhere: the launch contents). -/
def outs : Outs (F := F) := fun _ r c => if h : r = main_v26 then h ▸ o4 m c else if h : r = main_v40 then h ▸ o7 m c else if h : r = main_v54 then h ▸ o10 m c else if h : r = main_v68 then h ▸ o13 m c else if h : r = main_v82 then h ▸ o16 m c else m ((c : Thread nD τ).loc r)

/-! The results read back, and each region's entry contents in terms of all the results. -/

theorem outs_v26 (c : Dev nD) : outs m 4 main_v26 c = o4 m c := dif_pos rfl
theorem outs_v40 (c : Dev nD) : outs m 7 main_v40 c = o7 m c :=
  (dif_neg (by decide : main_v40 ≠ main_v26)).trans (dif_pos rfl)
theorem outs_v54 (c : Dev nD) : outs m 10 main_v54 c = o10 m c :=
  (dif_neg (by decide : main_v54 ≠ main_v26)).trans <| (dif_neg (by decide : main_v54 ≠ main_v40)).trans (dif_pos rfl)
theorem outs_v68 (c : Dev nD) : outs m 13 main_v68 c = o13 m c :=
  (dif_neg (by decide : main_v68 ≠ main_v26)).trans <| (dif_neg (by decide : main_v68 ≠ main_v40)).trans <|
    (dif_neg (by decide : main_v68 ≠ main_v54)).trans (dif_pos rfl)
theorem outs_v82 (c : Dev nD) : outs m 16 main_v82 c = o16 m c :=
  (dif_neg (by decide : main_v82 ≠ main_v26)).trans <| (dif_neg (by decide : main_v82 ≠ main_v40)).trans <|
    (dif_neg (by decide : main_v82 ≠ main_v54)).trans <| (dif_neg (by decide : main_v82 ≠ main_v68)).trans (dif_pos rfl)

/-- The contents on entry to region 1 depend on the regions' results only through what region 0 leaves. -/
theorem V6_congr (o o' : Outs (F := F)) (c : Dev nD) (h4 : o 4 main_v26 c = o' 4 main_v26 c) :
    V6 m o c = V6 m o' c := by
  show StableHlo.after hostOps1_1 (StableHlo.after hostOps1 (Function.update (V3 m c) main_v26 (o 4 main_v26 c))) = _
  rw [h4]
/-- The contents on entry to region 2 depend on the regions' results only through what regions 0 and 1 leave. -/
theorem V9_congr (o o' : Outs (F := F)) (c : Dev nD) (h4 : o 4 main_v26 c = o' 4 main_v26 c)
    (h7 : o 7 main_v40 c = o' 7 main_v40 c) : V9 m o c = V9 m o' c := by
  show StableHlo.after hostOps2_1 (StableHlo.after hostOps2 (Function.update (V6 m o c) main_v40 (o 7 main_v40 c))) = _
  rw [V6_congr m o o' c h4, h7]
/-- The contents on entry to region 3 depend on the regions' results only through what regions 0 to 2 leave. -/
theorem V12_congr (o o' : Outs (F := F)) (c : Dev nD) (h4 : o 4 main_v26 c = o' 4 main_v26 c)
    (h7 : o 7 main_v40 c = o' 7 main_v40 c) (h10 : o 10 main_v54 c = o' 10 main_v54 c) : V12 m o c = V12 m o' c := by
  show StableHlo.after hostOps3_1 (StableHlo.after hostOps3 (Function.update (V9 m o c) main_v54 (o 10 main_v54 c))) = _
  rw [V9_congr m o o' c h4 h7, h10]
/-- The contents on entry to region 4 depend on the regions' results only through what regions 0 to 3 leave. -/
theorem V15_congr (o o' : Outs (F := F)) (c : Dev nD) (h4 : o 4 main_v26 c = o' 4 main_v26 c)
    (h7 : o 7 main_v40 c = o' 7 main_v40 c) (h10 : o 10 main_v54 c = o' 10 main_v54 c)
    (h13 : o 13 main_v68 c = o' 13 main_v68 c) : V15 m o c = V15 m o' c := by
  show StableHlo.after hostOps4_1 (StableHlo.after hostOps4 (Function.update (V12 m o c) main_v68 (o 13 main_v68 c))) = _
  rw [V12_congr m o o' c h4 h7 h10, h13]

theorem E0_eq (c : Dev nD) (b : Ref sig .tc) : E0 m c b = V3 m c b := rfl
theorem E1_eq (c : Dev nD) (b : Ref sig .tc) : E1 m c b = V6 m (outs m) c b :=
  congrFun (V6_congr m (outs1 m) (outs m) c ((dif_pos rfl).trans (outs_v26 m c).symm)) b
theorem E2_eq (c : Dev nD) (b : Ref sig .tc) : E2 m c b = V9 m (outs m) c b :=
  congrFun (V9_congr m (outs2 m) (outs m) c ((dif_pos rfl).trans (outs_v26 m c).symm)
    (((dif_neg (by decide : main_v40 ≠ main_v26)).trans (dif_pos rfl)).trans (outs_v40 m c).symm)) b
theorem E3_eq (c : Dev nD) (b : Ref sig .tc) : E3 m c b = V12 m (outs m) c b :=
  congrFun (V12_congr m (outs3 m) (outs m) c ((dif_pos rfl).trans (outs_v26 m c).symm)
    (((dif_neg (by decide : main_v40 ≠ main_v26)).trans (dif_pos rfl)).trans (outs_v40 m c).symm)
    (((dif_neg (by decide : main_v54 ≠ main_v26)).trans <| (dif_neg (by decide : main_v54 ≠ main_v40)).trans
      (dif_pos rfl)).trans (outs_v54 m c).symm)) b
theorem E4_eq (c : Dev nD) (b : Ref sig .tc) : E4 m c b = V15 m (outs m) c b :=
  congrFun (V15_congr m (outs4 m) (outs m) c ((dif_pos rfl).trans (outs_v26 m c).symm)
    (((dif_neg (by decide : main_v40 ≠ main_v26)).trans (dif_pos rfl)).trans (outs_v40 m c).symm)
    (((dif_neg (by decide : main_v54 ≠ main_v26)).trans <| (dif_neg (by decide : main_v54 ≠ main_v40)).trans
      (dif_pos rfl)).trans (outs_v54 m c).symm)
    (((dif_neg (by decide : main_v68 ≠ main_v26)).trans <| (dif_neg (by decide : main_v68 ≠ main_v40)).trans <|
      (dif_neg (by decide : main_v68 ≠ main_v54)).trans (dif_pos rfl)).trans (outs_v68 m c).symm)) b

/-- Every pipeline's proof data, each at its region's entry contents. -/
def pdats : (p : Fin 5) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

/-- No core owes another anything: no level is assigned. -/
abbrev 𝒱₀ : Variants := Variants.none
abbrev L : GSem nD τ sig → Finset Unit := fun _ => ∅
abbrev lv : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

end Cert.Kernel.Hand

end
-- ==== Proof.K.Reg0.lean ====
/-
  Region 0 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img0 : (Finset.univ.image (Pipeline.arrRef spec0) : Finset (Ref sig .tc))
    = ([main_v18, main_arg0, main_v20, main_v22, main_v25, main_v26] : List (Ref sig .tc)).toFinset := by decide

/-- Those six buffers, each whole at the full share, one by one. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v18) ↦{fullShare} V main_v18) ∗ (((c : Thread nD τ).loc main_arg0) ↦{fullShare} V main_arg0)
          ∗ (((c : Thread nD τ).loc main_v20) ↦{fullShare} V main_v20) ∗ (((c : Thread nD τ).loc main_v22) ↦{fullShare} V main_v22)
          ∗ (((c : Thread nD τ).loc main_v25) ↦{fullShare} V main_v25) ∗ (((c : Thread nD τ).loc main_v26) ↦{fullShare} V main_v26)) := by
  unfold Pipeline.arrBufs
  exact bigSep_eq_bigSepL_of_eq _ img0 (by decide) _

/-- The windows' arrays one by one: every array whole; the features' array at the left half of the full share for
    window 1 and at the right half for window 2, every other array at the full share. -/
theorem arrays0 (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_v18) ↦{fullShare} G 0) ∗ (((c : Thread nD τ).loc main_arg0) ↦{fullShare.left} G 1)
          ∗ (((c : Thread nD τ).loc main_arg0) ↦{fullShare.right} G 2) ∗ (((c : Thread nD τ).loc main_v20) ↦{fullShare} G 3)
          ∗ (((c : Thread nD τ).loc main_v22) ↦{fullShare} G 4) ∗ (((c : Thread nD τ).loc main_v25) ↦{fullShare} G 5)
          ∗ (((c : Thread nD τ).loc main_v26) ↦{fullShare} G 6)) := by
  have h : ((dat0 V c).arrays G : sProp 𝕄) = bigSep Finset.univ fun w : Fin cfg0.W =>
      (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- A whole buffer at the full share is its two halves, both at the same contents. -/
theorem halves0 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs0 (V : (c : Dev nD) → (b : Ref sig .tc) → Buf (Elt F) ((c : Thread nD τ).loc b)) (c : Dev nD) :
    (Pipeline.arrBufs (Ix := Unit) (Name := ℕ) (U := UR sig nD τ) (Lvl := ℕ) spec0 c (V c) : sProp 𝕄)
      ⊢ (dat0 V c).arrays fun w => (dat0 V c).arrAt w 0 := by
  rw [arrBufs0, arrays0]
  iintro ⟨Hagg, Hh, Hwl, Hwr, Hb, Hres⟩
  ihave H := (halves0 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays0 (V : (c : Dev nD) → (b : Ref sig .tc) → Buf (Elt F) ((c : Thread nD τ).loc b)) (c : Dev nD)
    (G : (w : Fin cfg0.W) → Buf (Elt F) ((cfg0.win w).arr.view.loc (c : Thread nD τ)))
    (V' : (b : Ref sig .tc) → Buf (Elt F) ((c : Thread nD τ).loc b))
    (h0 : G 0 = V' main_v18) (h1 : G 1 = V' main_arg0) (h2 : G 2 = V' main_arg0) (h3 : G 3 = V' main_v20)
    (h4 : G 4 = V' main_v22) (h5 : G 5 = V' main_v25) (h6 : G 6 = V' main_v26) :
    ((dat0 V c).arrays G : sProp 𝕄)
      ⊢ Pipeline.arrBufs (Ix := Unit) (Name := ℕ) (U := UR sig nD τ) (Lvl := ℕ) spec0 c V' := by
  rw [arrBufs0, arrays0, h0, h1, h2, h3, h4, h5, h6]
  iintro ⟨Hagg, Hl, Hr, Hwl, Hwr, Hb, Hres⟩
  ihave Hh := (halves0 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry0 (c : Dev nD) :
    (StableHlo.held (c : Thread nD τ) (Pipeline.ucRefs τ sig) (V3 m c) : sProp 𝕄)
      ⊢ iprop((pdats m 0 c).arrays ((pdats m 0 c).arrAt · 0)
          ∗ Pipeline.unscopedRest (Ix := Unit) (Name := ℕ) (U := UR sig nD τ) (Lvl := ℕ) spec0 c (E0 m c)) := by
  rw [← Pipeline.unscopedBufs_held (Ix := Unit) (Name := ℕ) (U := UR sig nD τ) (Lvl := ℕ) c (V3 m c),
    Pipeline.unscopedBufs_split₀ cfgs 0 winFacts₀0.arr_unscoped c, ← funext (E0_eq m c)]
  exact BI.sep_mono (arrays_of_bufs0 (E0 m) c) (BI.Entails.refl _)

/-- The buffers no window reads hold at exit what they held at entry: the region may change its result array only. -/
theorem rest0 (c : Dev nD) :
    (Pipeline.unscopedRest (Ix := Unit) (Name := ℕ) (U := UR sig nD τ) (Lvl := ℕ) spec0 c (fun b => V4 m (outs m) c b) : sProp 𝕄)
      = Pipeline.unscopedRest spec0 c (E0 m c) := by
  unfold Pipeline.unscopedRest
  refine bigSep_congr fun b hb => ?_
  have hne : b ≠ main_v26 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V4_of m (outs m) c b (by rw [List.mem_singleton]; exact hne)).trans (E0_eq m c b).symm)

/-- No input window's array is written: at the last point it holds what the region was entered with. -/
theorem arrAt_in0 (c : Dev nD) (w : Fin cfg0.W) (hw : (cfg0.win w).isOut = false) :
    (dat0 (E0 m) c).arrAt w cfg0.N = E0 m c (Pipeline.arrRef spec0 w) :=
  (dat0 (E0 m) c).arrAt_in w hw _

/-- EXIT. The windows' arrays at their last contents, the two halves of the features' array joined, beside the
    buffers no window reads, are the unscoped buffers at the contents the region leaves: the inputs as entered, the
    result array at the fold of the write-backs. -/
theorem exit0 (c : Dev nD) :
    (iprop((pdats m 0 c).arrays ((pdats m 0 c).arrAt · cfg0.N)
        ∗ Pipeline.unscopedRest (Ix := Unit) (Name := ℕ) (U := UR sig nD τ) (Lvl := ℕ) spec0 c (E0 m c)) : sProp 𝕄)
      ⊢ StableHlo.held (c : Thread nD τ) (Pipeline.ucRefs τ sig) (V4 m (outs m) c) := by
  rw [← Pipeline.unscopedBufs_held (Ix := Unit) (Name := ℕ) (U := UR sig nD τ) (Lvl := ℕ) c (V4 m (outs m) c),
    Pipeline.unscopedBufs_split₀ cfgs 0 winFacts₀0.arr_unscoped c]
  refine BI.sep_mono (bufs_of_arrays0 (E0 m) c _ _ ?_ ?_ ?_ ?_ ?_ ?_ ?_) (Entails.of_eq (rest0 m c).symm)
  · exact (arrAt_in0 m c 0 rfl).trans ((E0_eq m c main_v18).trans (V4_of m (outs m) c main_v18 (by decide)).symm)
  · exact (arrAt_in0 m c 1 rfl).trans ((E0_eq m c main_arg0).trans (V4_of m (outs m) c main_arg0 (by decide)).symm)
  · exact (arrAt_in0 m c 2 rfl).trans ((E0_eq m c main_arg0).trans (V4_of m (outs m) c main_arg0 (by decide)).symm)
  · exact (arrAt_in0 m c 3 rfl).trans ((E0_eq m c main_v20).trans (V4_of m (outs m) c main_v20 (by decide)).symm)
  · exact (arrAt_in0 m c 4 rfl).trans ((E0_eq m c main_v22).trans (V4_of m (outs m) c main_v22 (by decide)).symm)
  · exact (arrAt_in0 m c 5 rfl).trans ((E0_eq m c main_v25).trans (V4_of m (outs m) c main_v25 (by decide)).symm)
  · exact ((show V4 m (outs m) c main_v26 = outs m 4 main_v26 c from Function.update_self _ _ _).trans (outs_v26 m c)).symm

set_option backward.isDefEq.respectTransparency.types false in
/-- Region 0 over the thread state "every unscoped buffer at the boundary's contents, the generator register at some
    state, nothing owed". -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img1 : (Finset.univ.image (Pipeline.arrRef spec1) : Finset (Ref sig .tc))
    = ([main_v32, main_v26, main_v34, main_v36, main_v39, main_v40] : List (Ref sig .tc)).toFinset := by decide

/-- Those six buffers, each whole at the full share, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v32) ↦{fullShare} V main_v32) ∗ (((c : Thread nD τ).loc main_v26) ↦{fullShare} V main_v26)
          ∗ (((c : Thread nD τ).loc main_v34) ↦{fullShare} V main_v34) ∗ (((c : Thread nD τ).loc main_v36) ↦{fullShare} V main_v36)
          ∗ (((c : Thread nD τ).loc main_v39) ↦{fullShare} V main_v39) ∗ (((c : Thread nD τ).loc main_v40) ↦{fullShare} V main_v40)) := by
  unfold Pipeline.arrBufs
  exact bigSep_eq_bigSepL_of_eq _ img1 (by decide) _

/-- The windows' arrays one by one: every array whole; the features' array at the left half of the full share for
    window 1 and at the right half for window 2, every other array at the full share. -/
theorem arrays1 (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v32) ↦{fullShare} G 0) ∗ (((c : Thread nD τ).loc main_v26) ↦{fullShare.left} G 1)
          ∗ (((c : Thread nD τ).loc main_v26) ↦{fullShare.right} G 2) ∗ (((c : Thread nD τ).loc main_v34) ↦{fullShare} G 3)
          ∗ (((c : Thread nD τ).loc main_v36) ↦{fullShare} G 4) ∗ (((c : Thread nD τ).loc main_v39) ↦{fullShare} G 5)
          ∗ (((c : Thread nD τ).loc main_v40) ↦{fullShare} G 6)) := by
  have h : ((dat1 V c).arrays G : sProp 𝕄) = bigSep Finset.univ fun w : Fin cfg1.W =>
      (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- A whole buffer at the full share is its two halves, both at the same contents. -/
theorem halves1 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays fun w => (dat1 V c).arrAt w 0 := by
  rw [arrBufs1, arrays1]
  iintro ⟨Hagg, Hh, Hwl, Hwr, Hb, Hres⟩
  ihave H := (halves1 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays1 (V : (c : Dev nD) → (b : Ref sig .tc) → Buf (Elt F) ((c : Thread nD τ).loc b)) (c : Dev nD)
    (G : (w : Fin cfg1.W) → Buf (Elt F) ((cfg1.win w).arr.view.loc (c : Thread nD τ)))
    (V' : (b : Ref sig .tc) → Buf (Elt F) ((c : Thread nD τ).loc b))
    (h0 : G 0 = V' main_v32) (h1 : G 1 = V' main_v26) (h2 : G 2 = V' main_v26) (h3 : G 3 = V' main_v34)
    (h4 : G 4 = V' main_v36) (h5 : G 5 = V' main_v39) (h6 : G 6 = V' main_v40) :
    ((dat1 V c).arrays G : sProp 𝕄)
      ⊢ Pipeline.arrBufs (Ix := Unit) (Name := ℕ) (U := UR sig nD τ) (Lvl := ℕ) spec1 c V' := by
  rw [arrBufs1, arrays1, h0, h1, h2, h3, h4, h5, h6]
  iintro ⟨Hagg, Hl, Hr, Hwl, Hwr, Hb, Hres⟩
  ihave Hh := (halves1 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry1 (c : Dev nD) :
    (StableHlo.held (c : Thread nD τ) (Pipeline.ucRefs τ sig) (V6 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (E1 m c)) := by
  rw [← Pipeline.unscopedBufs_held (Ix := Unit) (Name := ℕ) (U := UR sig nD τ) (Lvl := ℕ) c (V6 m (outs m) c),
    Pipeline.unscopedBufs_split₀ cfgs 1 winFacts₀1.arr_unscoped c, ← funext (E1_eq m c)]
  exact BI.sep_mono (arrays_of_bufs1 (E1 m) c) (BI.Entails.refl _)

/-- The buffers no window reads hold at exit what they held at entry: the region may change its result array only. -/
theorem rest1 (c : Dev nD) :
    (Pipeline.unscopedRest (Ix := Unit) (Name := ℕ) (U := UR sig nD τ) (Lvl := ℕ) spec1 c (fun b => V7 m (outs m) c b) : sProp 𝕄)
      = Pipeline.unscopedRest spec1 c (E1 m c) := by
  unfold Pipeline.unscopedRest
  refine bigSep_congr fun b hb => ?_
  have hne : b ≠ main_v40 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V7_of m (outs m) c b (by rw [List.mem_singleton]; exact hne)).trans (E1_eq m c b).symm)

/-- No input window's array is written: at the last point it holds what the region was entered with. -/
theorem arrAt_in1 (c : Dev nD) (w : Fin cfg1.W) (hw : (cfg1.win w).isOut = false) :
    (dat1 (E1 m) c).arrAt w cfg1.N = E1 m c (Pipeline.arrRef spec1 w) :=
  (dat1 (E1 m) c).arrAt_in w hw _

/-- EXIT. The windows' arrays at their last contents, the two halves of the features' array joined, beside the
    buffers no window reads, are the unscoped buffers at the contents the region leaves: the inputs as entered, the
    result array at the fold of the write-backs. -/
theorem exit1 (c : Dev nD) :
    (iprop((pdats m 1 c).arrays ((pdats m 1 c).arrAt · cfg1.N)
        ∗ Pipeline.unscopedRest (Ix := Unit) (Name := ℕ) (U := UR sig nD τ) (Lvl := ℕ) spec1 c (E1 m c)) : sProp 𝕄)
      ⊢ StableHlo.held (c : Thread nD τ) (Pipeline.ucRefs τ sig) (V7 m (outs m) c) := by
  rw [← Pipeline.unscopedBufs_held (Ix := Unit) (Name := ℕ) (U := UR sig nD τ) (Lvl := ℕ) c (V7 m (outs m) c),
    Pipeline.unscopedBufs_split₀ cfgs 1 winFacts₀1.arr_unscoped c]
  refine BI.sep_mono (bufs_of_arrays1 (E1 m) c _ _ ?_ ?_ ?_ ?_ ?_ ?_ ?_) (Entails.of_eq (rest1 m c).symm)
  · exact (arrAt_in1 m c 0 rfl).trans ((E1_eq m c main_v32).trans (V7_of m (outs m) c main_v32 (by decide)).symm)
  · exact (arrAt_in1 m c 1 rfl).trans ((E1_eq m c main_v26).trans (V7_of m (outs m) c main_v26 (by decide)).symm)
  · exact (arrAt_in1 m c 2 rfl).trans ((E1_eq m c main_v26).trans (V7_of m (outs m) c main_v26 (by decide)).symm)
  · exact (arrAt_in1 m c 3 rfl).trans ((E1_eq m c main_v34).trans (V7_of m (outs m) c main_v34 (by decide)).symm)
  · exact (arrAt_in1 m c 4 rfl).trans ((E1_eq m c main_v36).trans (V7_of m (outs m) c main_v36 (by decide)).symm)
  · exact (arrAt_in1 m c 5 rfl).trans ((E1_eq m c main_v39).trans (V7_of m (outs m) c main_v39 (by decide)).symm)
  · exact ((show V7 m (outs m) c main_v40 = outs m 7 main_v40 c from Function.update_self _ _ _).trans (outs_v40 m c)).symm

set_option backward.isDefEq.respectTransparency.types false in
/-- Region 1 over the thread state "every unscoped buffer at the boundary's contents, the generator register at some
    state, nothing owed". -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V6 m (outs m) c) ∗ Rst c)
  post c := iprop(StableHlo.held (c : Thread nD τ) (Pipeline.ucRefs τ sig) (V7 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img2 : (Finset.univ.image (Pipeline.arrRef spec2) : Finset (Ref sig .tc))
    = ([main_v46, main_v40, main_v48, main_v50, main_v53, main_v54] : List (Ref sig .tc)).toFinset := by decide

/-- Those six buffers, each whole at the full share, one by one. -/
theorem arrBufs2 (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v46) ↦{fullShare} V main_v46) ∗ (((c : Thread nD τ).loc main_v40) ↦{fullShare} V main_v40)
          ∗ (((c : Thread nD τ).loc main_v48) ↦{fullShare} V main_v48) ∗ (((c : Thread nD τ).loc main_v50) ↦{fullShare} V main_v50)
          ∗ (((c : Thread nD τ).loc main_v53) ↦{fullShare} V main_v53) ∗ (((c : Thread nD τ).loc main_v54) ↦{fullShare} V main_v54)) := by
  unfold Pipeline.arrBufs
  exact bigSep_eq_bigSepL_of_eq _ img2 (by decide) _

/-- The windows' arrays one by one: every array whole; the features' array at the left half of the full share for
    window 1 and at the right half for window 2, every other array at the full share. -/
theorem arrays2 (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v46) ↦{fullShare} G 0) ∗ (((c : Thread nD τ).loc main_v40) ↦{fullShare.left} G 1)
          ∗ (((c : Thread nD τ).loc main_v40) ↦{fullShare.right} G 2) ∗ (((c : Thread nD τ).loc main_v48) ↦{fullShare} G 3)
          ∗ (((c : Thread nD τ).loc main_v50) ↦{fullShare} G 4) ∗ (((c : Thread nD τ).loc main_v53) ↦{fullShare} G 5)
          ∗ (((c : Thread nD τ).loc main_v54) ↦{fullShare} G 6)) := by
  have h : ((dat2 V c).arrays G : sProp 𝕄) = bigSep Finset.univ fun w : Fin cfg2.W =>
      (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- A whole buffer at the full share is its two halves, both at the same contents. -/
theorem halves2 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs2 (V : (c : Dev nD) → (b : Ref sig .tc) → Buf (Elt F) ((c : Thread nD τ).loc b)) (c : Dev nD) :
    (Pipeline.arrBufs (Ix := Unit) (Name := ℕ) (U := UR sig nD τ) (Lvl := ℕ) spec2 c (V c) : sProp 𝕄)
      ⊢ (dat2 V c).arrays fun w => (dat2 V c).arrAt w 0 := by
  rw [arrBufs2, arrays2]
  iintro ⟨Hagg, Hh, Hwl, Hwr, Hb, Hres⟩
  ihave H := (halves2 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays2 (V : (c : Dev nD) → (b : Ref sig .tc) → Buf (Elt F) ((c : Thread nD τ).loc b)) (c : Dev nD)
    (G : (w : Fin cfg2.W) → Buf (Elt F) ((cfg2.win w).arr.view.loc (c : Thread nD τ)))
    (V' : (b : Ref sig .tc) → Buf (Elt F) ((c : Thread nD τ).loc b))
    (h0 : G 0 = V' main_v46) (h1 : G 1 = V' main_v40) (h2 : G 2 = V' main_v40) (h3 : G 3 = V' main_v48)
    (h4 : G 4 = V' main_v50) (h5 : G 5 = V' main_v53) (h6 : G 6 = V' main_v54) :
    ((dat2 V c).arrays G : sProp 𝕄)
      ⊢ Pipeline.arrBufs (Ix := Unit) (Name := ℕ) (U := UR sig nD τ) (Lvl := ℕ) spec2 c V' := by
  rw [arrBufs2, arrays2, h0, h1, h2, h3, h4, h5, h6]
  iintro ⟨Hagg, Hl, Hr, Hwl, Hwr, Hb, Hres⟩
  ihave Hh := (halves2 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry2 (c : Dev nD) :
    (StableHlo.held (c : Thread nD τ) (Pipeline.ucRefs τ sig) (V9 m (outs m) c) : sProp 𝕄)
      ⊢ iprop((pdats m 2 c).arrays ((pdats m 2 c).arrAt · 0)
          ∗ Pipeline.unscopedRest (Ix := Unit) (Name := ℕ) (U := UR sig nD τ) (Lvl := ℕ) spec2 c (E2 m c)) := by
  rw [← Pipeline.unscopedBufs_held (Ix := Unit) (Name := ℕ) (U := UR sig nD τ) (Lvl := ℕ) c (V9 m (outs m) c),
    Pipeline.unscopedBufs_split₀ cfgs 2 winFacts₀2.arr_unscoped c, ← funext (E2_eq m c)]
  exact BI.sep_mono (arrays_of_bufs2 (E2 m) c) (BI.Entails.refl _)

/-- The buffers no window reads hold at exit what they held at entry: the region may change its result array only. -/
theorem rest2 (c : Dev nD) :
    (Pipeline.unscopedRest (Ix := Unit) (Name := ℕ) (U := UR sig nD τ) (Lvl := ℕ) spec2 c (fun b => V10 m (outs m) c b) : sProp 𝕄)
      = Pipeline.unscopedRest spec2 c (E2 m c) := by
  unfold Pipeline.unscopedRest
  refine bigSep_congr fun b hb => ?_
  have hne : b ≠ main_v54 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V10_of m (outs m) c b (by rw [List.mem_singleton]; exact hne)).trans (E2_eq m c b).symm)

/-- No input window's array is written: at the last point it holds what the region was entered with. -/
theorem arrAt_in2 (c : Dev nD) (w : Fin cfg2.W) (hw : (cfg2.win w).isOut = false) :
    (dat2 (E2 m) c).arrAt w cfg2.N = E2 m c (Pipeline.arrRef spec2 w) :=
  (dat2 (E2 m) c).arrAt_in w hw _

/-- EXIT. The windows' arrays at their last contents, the two halves of the features' array joined, beside the
    buffers no window reads, are the unscoped buffers at the contents the region leaves: the inputs as entered, the
    result array at the fold of the write-backs. -/
theorem exit2 (c : Dev nD) :
    (iprop((pdats m 2 c).arrays ((pdats m 2 c).arrAt · cfg2.N)
        ∗ Pipeline.unscopedRest (Ix := Unit) (Name := ℕ) (U := UR sig nD τ) (Lvl := ℕ) spec2 c (E2 m c)) : sProp 𝕄)
      ⊢ StableHlo.held (c : Thread nD τ) (Pipeline.ucRefs τ sig) (V10 m (outs m) c) := by
  rw [← Pipeline.unscopedBufs_held (Ix := Unit) (Name := ℕ) (U := UR sig nD τ) (Lvl := ℕ) c (V10 m (outs m) c),
    Pipeline.unscopedBufs_split₀ cfgs 2 winFacts₀2.arr_unscoped c]
  refine BI.sep_mono (bufs_of_arrays2 (E2 m) c _ _ ?_ ?_ ?_ ?_ ?_ ?_ ?_) (Entails.of_eq (rest2 m c).symm)
  · exact (arrAt_in2 m c 0 rfl).trans ((E2_eq m c main_v46).trans (V10_of m (outs m) c main_v46 (by decide)).symm)
  · exact (arrAt_in2 m c 1 rfl).trans ((E2_eq m c main_v40).trans (V10_of m (outs m) c main_v40 (by decide)).symm)
  · exact (arrAt_in2 m c 2 rfl).trans ((E2_eq m c main_v40).trans (V10_of m (outs m) c main_v40 (by decide)).symm)
  · exact (arrAt_in2 m c 3 rfl).trans ((E2_eq m c main_v48).trans (V10_of m (outs m) c main_v48 (by decide)).symm)
  · exact (arrAt_in2 m c 4 rfl).trans ((E2_eq m c main_v50).trans (V10_of m (outs m) c main_v50 (by decide)).symm)
  · exact (arrAt_in2 m c 5 rfl).trans ((E2_eq m c main_v53).trans (V10_of m (outs m) c main_v53 (by decide)).symm)
  · exact ((show V10 m (outs m) c main_v54 = outs m 10 main_v54 c from Function.update_self _ _ _).trans (outs_v54 m c)).symm

set_option backward.isDefEq.respectTransparency.types false in
/-- Region 2 over the thread state "every unscoped buffer at the boundary's contents, the generator register at some
    state, nothing owed". -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img3 : (Finset.univ.image (Pipeline.arrRef spec3) : Finset (Ref sig .tc))
    = ([main_v60, main_v54, main_v62, main_v64, main_v67, main_v68] : List (Ref sig .tc)).toFinset := by decide

/-- Those six buffers, each whole at the full share, one by one. -/
theorem arrBufs3 (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v60) ↦{fullShare} V main_v60) ∗ (((c : Thread nD τ).loc main_v54) ↦{fullShare} V main_v54)
          ∗ (((c : Thread nD τ).loc main_v62) ↦{fullShare} V main_v62) ∗ (((c : Thread nD τ).loc main_v64) ↦{fullShare} V main_v64)
          ∗ (((c : Thread nD τ).loc main_v67) ↦{fullShare} V main_v67) ∗ (((c : Thread nD τ).loc main_v68) ↦{fullShare} V main_v68)) := by
  unfold Pipeline.arrBufs
  exact bigSep_eq_bigSepL_of_eq _ img3 (by decide) _

/-- The windows' arrays one by one: every array whole; the features' array at the left half of the full share for
    window 1 and at the right half for window 2, every other array at the full share. -/
theorem arrays3 (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄)
      = iprop((((c : Thread nD τ).loc main_v60) ↦{fullShare} G 0) ∗ (((c : Thread nD τ).loc main_v54) ↦{fullShare.left} G 1)
          ∗ (((c : Thread nD τ).loc main_v54) ↦{fullShare.right} G 2) ∗ (((c : Thread nD τ).loc main_v62) ↦{fullShare} G 3)
          ∗ (((c : Thread nD τ).loc main_v64) ↦{fullShare} G 4) ∗ (((c : Thread nD τ).loc main_v67) ↦{fullShare} G 5)
          ∗ (((c : Thread nD τ).loc main_v68) ↦{fullShare} G 6)) := by
  have h : ((dat3 V c).arrays G : sProp 𝕄) = bigSep Finset.univ fun w : Fin cfg3.W =>
      (((c : Thread nD τ).loc (Pipeline.arrRef spec3 w)) ↦{(dat3 V c).share w} G w : sProp 𝕄) := by
    unfold Dat.arrays
    exact bigSep_congr fun w _ => by rw [(arr_whole3 w).set_eq_univ]
  rw [h, bigSep_W3]
  rfl

/-- A whole buffer at the full share is its two halves, both at the same contents. -/
theorem halves3 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs3 (V : (c : Dev nD) → (b : Ref sig .tc) → Buf (Elt F) ((c : Thread nD τ).loc b)) (c : Dev nD) :
    (Pipeline.arrBufs (Ix := Unit) (Name := ℕ) (U := UR sig nD τ) (Lvl := ℕ) spec3 c (V c) : sProp 𝕄)
      ⊢ (dat3 V c).arrays fun w => (dat3 V c).arrAt w 0 := by
  rw [arrBufs3, arrays3]
  iintro ⟨Hagg, Hh, Hwl, Hwr, Hb, Hres⟩
  ihave H := (halves3 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays3 (V : (c : Dev nD) → (b : Ref sig .tc) → Buf (Elt F) ((c : Thread nD τ).loc b)) (c : Dev nD)
    (G : (w : Fin cfg3.W) → Buf (Elt F) ((cfg3.win w).arr.view.loc (c : Thread nD τ)))
    (V' : (b : Ref sig .tc) → Buf (Elt F) ((c : Thread nD τ).loc b))
    (h0 : G 0 = V' main_v60) (h1 : G 1 = V' main_v54) (h2 : G 2 = V' main_v54) (h3 : G 3 = V' main_v62)
    (h4 : G 4 = V' main_v64) (h5 : G 5 = V' main_v67) (h6 : G 6 = V' main_v68) :
    ((dat3 V c).arrays G : sProp 𝕄)
      ⊢ Pipeline.arrBufs (Ix := Unit) (Name := ℕ) (U := UR sig nD τ) (Lvl := ℕ) spec3 c V' := by
  rw [arrBufs3, arrays3, h0, h1, h2, h3, h4, h5, h6]
  iintro ⟨Hagg, Hl, Hr, Hwl, Hwr, Hb, Hres⟩
  ihave Hh := (halves3 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry3 (c : Dev nD) :
    (StableHlo.held (c : Thread nD τ) (Pipeline.ucRefs τ sig) (V12 m (outs m) c) : sProp 𝕄)
      ⊢ iprop((pdats m 3 c).arrays ((pdats m 3 c).arrAt · 0)
          ∗ Pipeline.unscopedRest (Ix := Unit) (Name := ℕ) (U := UR sig nD τ) (Lvl := ℕ) spec3 c (E3 m c)) := by
  rw [← Pipeline.unscopedBufs_held (Ix := Unit) (Name := ℕ) (U := UR sig nD τ) (Lvl := ℕ) c (V12 m (outs m) c),
    Pipeline.unscopedBufs_split₀ cfgs 3 winFacts₀3.arr_unscoped c, ← funext (E3_eq m c)]
  exact BI.sep_mono (arrays_of_bufs3 (E3 m) c) (BI.Entails.refl _)

/-- The buffers no window reads hold at exit what they held at entry: the region may change its result array only. -/
theorem rest3 (c : Dev nD) :
    (Pipeline.unscopedRest (Ix := Unit) (Name := ℕ) (U := UR sig nD τ) (Lvl := ℕ) spec3 c (fun b => V13 m (outs m) c b) : sProp 𝕄)
      = Pipeline.unscopedRest spec3 c (E3 m c) := by
  unfold Pipeline.unscopedRest
  refine bigSep_congr fun b hb => ?_
  have hne : b ≠ main_v68 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V13_of m (outs m) c b (by rw [List.mem_singleton]; exact hne)).trans (E3_eq m c b).symm)

/-- No input window's array is written: at the last point it holds what the region was entered with. -/
theorem arrAt_in3 (c : Dev nD) (w : Fin cfg3.W) (hw : (cfg3.win w).isOut = false) :
    (dat3 (E3 m) c).arrAt w cfg3.N = E3 m c (Pipeline.arrRef spec3 w) :=
  (dat3 (E3 m) c).arrAt_in w hw _

/-- EXIT. The windows' arrays at their last contents, the two halves of the features' array joined, beside the
    buffers no window reads, are the unscoped buffers at the contents the region leaves: the inputs as entered, the
    result array at the fold of the write-backs. -/
theorem exit3 (c : Dev nD) :
    (iprop((pdats m 3 c).arrays ((pdats m 3 c).arrAt · cfg3.N)
        ∗ Pipeline.unscopedRest (Ix := Unit) (Name := ℕ) (U := UR sig nD τ) (Lvl := ℕ) spec3 c (E3 m c)) : sProp 𝕄)
      ⊢ StableHlo.held (c : Thread nD τ) (Pipeline.ucRefs τ sig) (V13 m (outs m) c) := by
  rw [← Pipeline.unscopedBufs_held (Ix := Unit) (Name := ℕ) (U := UR sig nD τ) (Lvl := ℕ) c (V13 m (outs m) c),
    Pipeline.unscopedBufs_split₀ cfgs 3 winFacts₀3.arr_unscoped c]
  refine BI.sep_mono (bufs_of_arrays3 (E3 m) c _ _ ?_ ?_ ?_ ?_ ?_ ?_ ?_) (Entails.of_eq (rest3 m c).symm)
  · exact (arrAt_in3 m c 0 rfl).trans ((E3_eq m c main_v60).trans (V13_of m (outs m) c main_v60 (by decide)).symm)
  · exact (arrAt_in3 m c 1 rfl).trans ((E3_eq m c main_v54).trans (V13_of m (outs m) c main_v54 (by decide)).symm)
  · exact (arrAt_in3 m c 2 rfl).trans ((E3_eq m c main_v54).trans (V13_of m (outs m) c main_v54 (by decide)).symm)
  · exact (arrAt_in3 m c 3 rfl).trans ((E3_eq m c main_v62).trans (V13_of m (outs m) c main_v62 (by decide)).symm)
  · exact (arrAt_in3 m c 4 rfl).trans ((E3_eq m c main_v64).trans (V13_of m (outs m) c main_v64 (by decide)).symm)
  · exact (arrAt_in3 m c 5 rfl).trans ((E3_eq m c main_v67).trans (V13_of m (outs m) c main_v67 (by decide)).symm)
  · exact ((show V13 m (outs m) c main_v68 = outs m 13 main_v68 c from Function.update_self _ _ _).trans (outs_v68 m c)).symm

set_option backward.isDefEq.respectTransparency.types false in
/-- Region 3 over the thread state "every unscoped buffer at the boundary's contents, the generator register at some
    state, nothing owed". -/
def reg3 : RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (V12 m (outs m) c) ∗ Rst c)
  post c := iprop(StableHlo.held (c : Thread nD τ) (Pipeline.ucRefs τ sig) (V13 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img4 : (Finset.univ.image (Pipeline.arrRef spec4) : Finset (Ref sig .tc))
    = ([main_v74, main_v68, main_v76, main_v78, main_v81, main_v82] : List (Ref sig .tc)).toFinset := by decide

/-- Those six buffers, each whole at the full share, one by one. -/
theorem arrBufs4 (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v74) ↦{fullShare} V main_v74) ∗ (((c : Thread nD τ).loc main_v68) ↦{fullShare} V main_v68)
          ∗ (((c : Thread nD τ).loc main_v76) ↦{fullShare} V main_v76) ∗ (((c : Thread nD τ).loc main_v78) ↦{fullShare} V main_v78)
          ∗ (((c : Thread nD τ).loc main_v81) ↦{fullShare} V main_v81) ∗ (((c : Thread nD τ).loc main_v82) ↦{fullShare} V main_v82)) := by
  unfold Pipeline.arrBufs
  exact bigSep_eq_bigSepL_of_eq _ img4 (by decide) _

/-- The windows' arrays one by one: every array whole; the features' array at the left half of the full share for
    window 1 and at the right half for window 2, every other array at the full share. -/
theorem arrays4 (V : (c : Dev nD) → (b : Ref sig .tc) → Buf (Elt F) ((c : Thread nD τ).loc b)) (c : Dev nD)
    (G : (w : Fin cfg4.W) → Buf (Elt F) ((cfg4.win w).arr.view.loc (c : Thread nD τ))) :
    ((dat4 V c).arrays G : sProp 𝕄)
      = iprop((((c : Thread nD τ).loc main_v74) ↦{fullShare} G 0) ∗ (((c : Thread nD τ).loc main_v68) ↦{fullShare.left} G 1)
          ∗ (((c : Thread nD τ).loc main_v68) ↦{fullShare.right} G 2) ∗ (((c : Thread nD τ).loc main_v76) ↦{fullShare} G 3)
          ∗ (((c : Thread nD τ).loc main_v78) ↦{fullShare} G 4) ∗ (((c : Thread nD τ).loc main_v81) ↦{fullShare} G 5)
          ∗ (((c : Thread nD τ).loc main_v82) ↦{fullShare} G 6)) := by
  have h : ((dat4 V c).arrays G : sProp 𝕄) = bigSep Finset.univ fun w : Fin cfg4.W =>
      (((c : Thread nD τ).loc (Pipeline.arrRef spec4 w)) ↦{(dat4 V c).share w} G w : sProp 𝕄) := by
    unfold Dat.arrays
    exact bigSep_congr fun w _ => by rw [(arr_whole4 w).set_eq_univ]
  rw [h, bigSep_W4]
  rfl

/-- A whole buffer at the full share is its two halves, both at the same contents. -/
theorem halves4 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs4 (V : (c : Dev nD) → (b : Ref sig .tc) → Buf (Elt F) ((c : Thread nD τ).loc b)) (c : Dev nD) :
    (Pipeline.arrBufs (Ix := Unit) (Name := ℕ) (U := UR sig nD τ) (Lvl := ℕ) spec4 c (V c) : sProp 𝕄)
      ⊢ (dat4 V c).arrays fun w => (dat4 V c).arrAt w 0 := by
  rw [arrBufs4, arrays4]
  iintro ⟨Hagg, Hh, Hwl, Hwr, Hb, Hres⟩
  ihave H := (halves4 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays4 (V : (c : Dev nD) → (b : Ref sig .tc) → Buf (Elt F) ((c : Thread nD τ).loc b)) (c : Dev nD)
    (G : (w : Fin cfg4.W) → Buf (Elt F) ((cfg4.win w).arr.view.loc (c : Thread nD τ)))
    (V' : (b : Ref sig .tc) → Buf (Elt F) ((c : Thread nD τ).loc b))
    (h0 : G 0 = V' main_v74) (h1 : G 1 = V' main_v68) (h2 : G 2 = V' main_v68) (h3 : G 3 = V' main_v76)
    (h4 : G 4 = V' main_v78) (h5 : G 5 = V' main_v81) (h6 : G 6 = V' main_v82) :
    ((dat4 V c).arrays G : sProp 𝕄)
      ⊢ Pipeline.arrBufs (Ix := Unit) (Name := ℕ) (U := UR sig nD τ) (Lvl := ℕ) spec4 c V' := by
  rw [arrBufs4, arrays4, h0, h1, h2, h3, h4, h5, h6]
  iintro ⟨Hagg, Hl, Hr, Hwl, Hwr, Hb, Hres⟩
  ihave Hh := (halves4 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry4 (c : Dev nD) :
    (StableHlo.held (c : Thread nD τ) (Pipeline.ucRefs τ sig) (V15 m (outs m) c) : sProp 𝕄)
      ⊢ iprop((pdats m 4 c).arrays ((pdats m 4 c).arrAt · 0)
          ∗ Pipeline.unscopedRest (Ix := Unit) (Name := ℕ) (U := UR sig nD τ) (Lvl := ℕ) spec4 c (E4 m c)) := by
  rw [← Pipeline.unscopedBufs_held (Ix := Unit) (Name := ℕ) (U := UR sig nD τ) (Lvl := ℕ) c (V15 m (outs m) c),
    Pipeline.unscopedBufs_split₀ cfgs 4 winFacts₀4.arr_unscoped c, ← funext (E4_eq m c)]
  exact BI.sep_mono (arrays_of_bufs4 (E4 m) c) (BI.Entails.refl _)

/-- The buffers no window reads hold at exit what they held at entry: the region may change its result array only. -/
theorem rest4 (c : Dev nD) :
    (Pipeline.unscopedRest (Ix := Unit) (Name := ℕ) (U := UR sig nD τ) (Lvl := ℕ) spec4 c (fun b => V16 m (outs m) c b) : sProp 𝕄)
      = Pipeline.unscopedRest spec4 c (E4 m c) := by
  unfold Pipeline.unscopedRest
  refine bigSep_congr fun b hb => ?_
  have hne : b ≠ main_v82 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V16_of m (outs m) c b (by rw [List.mem_singleton]; exact hne)).trans (E4_eq m c b).symm)

/-- No input window's array is written: at the last point it holds what the region was entered with. -/
theorem arrAt_in4 (c : Dev nD) (w : Fin cfg4.W) (hw : (cfg4.win w).isOut = false) :
    (dat4 (E4 m) c).arrAt w cfg4.N = E4 m c (Pipeline.arrRef spec4 w) :=
  (dat4 (E4 m) c).arrAt_in w hw _

/-- EXIT. The windows' arrays at their last contents, the two halves of the features' array joined, beside the
    buffers no window reads, are the unscoped buffers at the contents the region leaves: the inputs as entered, the
    result array at the fold of the write-backs. -/
theorem exit4 (c : Dev nD) :
    (iprop((pdats m 4 c).arrays ((pdats m 4 c).arrAt · cfg4.N)
        ∗ Pipeline.unscopedRest (Ix := Unit) (Name := ℕ) (U := UR sig nD τ) (Lvl := ℕ) spec4 c (E4 m c)) : sProp 𝕄)
      ⊢ StableHlo.held (c : Thread nD τ) (Pipeline.ucRefs τ sig) (V16 m (outs m) c) := by
  rw [← Pipeline.unscopedBufs_held (Ix := Unit) (Name := ℕ) (U := UR sig nD τ) (Lvl := ℕ) c (V16 m (outs m) c),
    Pipeline.unscopedBufs_split₀ cfgs 4 winFacts₀4.arr_unscoped c]
  refine BI.sep_mono (bufs_of_arrays4 (E4 m) c _ _ ?_ ?_ ?_ ?_ ?_ ?_ ?_) (Entails.of_eq (rest4 m c).symm)
  · exact (arrAt_in4 m c 0 rfl).trans ((E4_eq m c main_v74).trans (V16_of m (outs m) c main_v74 (by decide)).symm)
  · exact (arrAt_in4 m c 1 rfl).trans ((E4_eq m c main_v68).trans (V16_of m (outs m) c main_v68 (by decide)).symm)
  · exact (arrAt_in4 m c 2 rfl).trans ((E4_eq m c main_v68).trans (V16_of m (outs m) c main_v68 (by decide)).symm)
  · exact (arrAt_in4 m c 3 rfl).trans ((E4_eq m c main_v76).trans (V16_of m (outs m) c main_v76 (by decide)).symm)
  · exact (arrAt_in4 m c 4 rfl).trans ((E4_eq m c main_v78).trans (V16_of m (outs m) c main_v78 (by decide)).symm)
  · exact (arrAt_in4 m c 5 rfl).trans ((E4_eq m c main_v81).trans (V16_of m (outs m) c main_v81 (by decide)).symm)
  · exact ((show V16 m (outs m) c main_v82 = outs m 16 main_v82 c from Function.update_self _ _ _).trans (outs_v82 m c)).symm

set_option backward.isDefEq.respectTransparency.types false in
/-- Region 4 over the thread state "every unscoped buffer at the boundary's contents, the generator register at some
    state, nothing owed". -/
def reg4 : RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    iintro ⟨⟨Hub, Hp, HO⟩, -, -⟩
    ihave H := (entry4 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit4 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole program run: from any memory with zero counters every weakly fair execution terminates, nothing faults,
  the result array ends holding what the last region leaves, and the five argument arrays end as launched.
-/
import proofs.«406033_j21930103013914_1_alg».proof.Proof.K.Reg0
import proofs.«406033_j21930103013914_1_alg».proof.Proof.K.Reg1
import proofs.«406033_j21930103013914_1_alg».proof.Proof.K.Reg2
import proofs.«406033_j21930103013914_1_alg».proof.Proof.K.Reg3
import proofs.«406033_j21930103013914_1_alg».proof.Proof.K.Reg4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The launch's element of the user algebra: the staging cells' tokens, all of them. -/
abbrev u0 : UR sig nD τ := initOf (Pipeline.cells cfgs cellOf_inj) (Pipeline.launchToks cfgs cellOf_inj)

/-- Owning the launch's element is owning it through the embedding, beside nothing on every core. -/
theorem launch_own : (ownU u0 : sProp 𝕄)
    ⊢ |={Set.univ}=> iprop(BI.own (emb₁ u0) ∗ bigSep Finset.univ fun _ : Dev nD => (iprop(emp) : sProp 𝕄)) := by
  iintro Hu
  imodintro
  isplitl [Hu]
  · iapply (show (ownU u0 : sProp 𝕄) ⊢ BI.own (emb₁ u0) from .rfl)
    iexact Hu
  iapply (show (BI.emp : sProp 𝕄) ⊢ bigSep Finset.univ (fun _ : Dev nD => (BI.emp : sProp 𝕄)) from by rw [BI.bigSep_emp_const])
  iempintro

/-- What rides beside the buffers owes nothing. -/
theorem rst_owes (c : Dev nD) :
    Rst (F := F) c ⊢ (iprop(∃ W, owes (c : Thread nD τ) (0 : CellTallies nD τ sig Unit) W) : sProp 𝕄) := by
  iintro ⟨-, H⟩
  iexact H

/-- The launch makes the first thread state on every core: the unscoped buffers held at the launch contents, the
    generator register at its launch state, nothing owed. -/
theorem launch_state :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄))) ∗ levAts L lv)
      ⊢ (|={Set.univ}=> bigSep Finset.univ fun c : Dev nD =>
          iprop(StableHlo.held (c : Thread nD τ) (Pipeline.ucRefs τ sig) (V0 m c) ∗ Rst c) : sProp 𝕄) := by
  refine Pipeline.initEach L lv fun c => ?_
  rw [show unscopedBufs c (fun b => m ((c : Thread nD τ).loc b))
      = StableHlo.held (c : Thread nD τ) (Pipeline.ucRefs τ sig) (V0 m c) from Pipeline.unscopedBufs_held c (V0 m c)]
  iintro ⟨⟨Hh, -, HO, -, Hp, -⟩, -⟩
  imodintro
  isplitl [Hh]; · iexact Hh
  isplitl [Hp]; · iexists _; iexact Hp
  iexists ∅; iexact HO

/-- The last valuation at the last region's result array is what that region leaves. -/
theorem V16_v82 (c : Dev nD) : V16 m (outs m) c main_v82 = o16 m c :=
  (Function.update_self _ _ _).trans (outs_v82 m c)

/-- What is read off a final memory on core `c`: the result array, and the five arguments. -/
abbrev QY (c : Dev nD) (s : MemSt nD τ sig (Elt F)) : Prop :=
  s.mem ((c.tc : Thread nD τ).loc main_v82) = o16 m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The end: every unscoped buffer is held at the last valuation, so the final memory agrees with it; the result
    array there is what region 4 leaves, and no item writes an argument. -/
theorem final_read (c : Dev nD) (s' : Phys nD τ sig (Elt F)) :
    iprop(StableHlo.held (c : Thread nD τ) (Pipeline.ucRefs τ sig) (V16 m (outs m) c) ∗ SI s')
      ⊢ (|={Set.univ}=> iprop(⌜QY m c s'.mem⌝ ∗ SI s') : sProp 𝕄) := by
  unfold StableHlo.held
  iintro ⟨Hh, HSI⟩
  ihave Hr := (pointsTo_read_all (Pipeline.ucRefs τ sig) (fun b => ((c : Thread nD τ).1, b)) (V16 m (outs m) c) s') $$ [Hh HSI]
  · isplitl [Hh] <;> iassumption
  icases Hr with ⟨%h, HSI⟩
  imodintro
  isplitr
  · ipureintro
    exact ⟨(h (Proc.devRef .tc main_v82) (Finset.mem_filter.mpr ⟨StableHlo.devRef_mem_tcRefs main_v82, by decide⟩)).trans (V16_v82 m c),
      (h (Proc.devRef .tc main_arg0) (Finset.mem_filter.mpr ⟨StableHlo.devRef_mem_tcRefs main_arg0, by decide⟩)).trans (V16_main_arg0 m (outs m) c),
      (h (Proc.devRef .tc main_arg1) (Finset.mem_filter.mpr ⟨StableHlo.devRef_mem_tcRefs main_arg1, by decide⟩)).trans (V16_main_arg1 m (outs m) c),
      (h (Proc.devRef .tc main_arg2) (Finset.mem_filter.mpr ⟨StableHlo.devRef_mem_tcRefs main_arg2, by decide⟩)).trans (V16_main_arg2 m (outs m) c),
      (h (Proc.devRef .tc main_arg3) (Finset.mem_filter.mpr ⟨StableHlo.devRef_mem_tcRefs main_arg3, by decide⟩)).trans (V16_main_arg3 m (outs m) c),
      (h (Proc.devRef .tc main_arg4) (Finset.mem_filter.mpr ⟨StableHlo.devRef_mem_tcRefs main_arg4, by decide⟩)).trans (V16_main_arg4 m (outs m) c)⟩
  · iexact HSI

set_option backward.isDefEq.respectTransparency.types false in
theorem run_main : θ_run defs (onTc (τ := τ) (main (F := F))) ⟨m, fun _ => 0, ρ⟩ (fun r => ∀ c : Dev nD,
      r.2.mem ((c.tc : Thread nD τ).loc main_v82) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv (fun _ c => Rst c) () (pdats m) (reg0 m) (reg1 m) (reg2 m) (reg3 m) (reg4 m))
    (fun c Q => by
      rewrite [main_chain c, Seg.run_eq_chain,
        show (segs m (outs m) 𝒱₀ L lv (fun _ c => Rst c) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          Prog.lift (.customCall (Pipeline.entry 4) ()) ] from rfl]
      exact .rfl)
    (fun c => by simp only [segs, Seg.pipes_host, Seg.pipes_region, Seg.pipes_nil]; decide)
    0 (fun _ _ => rfl) (fun _ => iprop(emp)) u0 launch_own
    (T₀ := fun c => iprop(StableHlo.held (c : Thread nD τ) (Pipeline.ucRefs τ sig) (V0 m c) ∗ Rst c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (rst_owes c)⟩)
    (hinit := launch_state m ρ) (QY := QY m) (hfin := final_read m) (hQ := fun _ h => h)

end Cert.Kernel.Hand

end
-- ==== Proof.KI.Body0.lean ====
/-
  Region 0 of the program, one point of its grid at a time. The region's seven windows are: 0 the aggregated
  features, 1 the features, 2 the residual (the same array as window 1), 3 and 4 the two weight matrices, 5 the bias
  row, 6 the result. At a point the body reads its input blocks and leaves in the result's block the sum of the two matrix products and the bias row, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.KernelIdeal.Launch
import proofs.«406033_j21930103013914_1_alg».proof.Proof.Gen.KernelIdeal.Skeleton
import proofs.«406033_j21930103013914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 2000 by 64 block, of a 64 by 64 matrix, of a 1 by 64 row. -/
abbrev r0_blk : Rect S2000x64 := Rect.unit (s := S2000x64) ![0, 0] S2000x64.size inb_S2000x64_S2000x64_0_0
abbrev r0_mat : Rect S64x64 := Rect.unit (s := S64x64) ![0, 0] S64x64.size inb_S64x64_S64x64_0_0
abbrev r0_row : Rect S1x64 := Rect.unit (s := S1x64) ![0, 0] S1x64.size inb_S1x64_S1x64_0_0

/-- What the body leaves in the result's block, from the input blocks: its one store, of the whole block. -/
def out0 (x0 x1 : Vec F S2000x64 .f32) (x3 x4 : Vec F S64x64 .f32) (x5 : Vec F S1x64 .f32) : Vec F S2000x64 .f32 :=
  View.canon [⟨r0_blk, k0_pay1 (View.ld x0 r0_blk) (View.ld x1 r0_blk) (View.ld x3 r0_mat) (View.ld x4 r0_mat) (View.ld x5 r0_row)⟩]

/-- The one store covers the block. -/
theorem cover0 (p0 : Vec F S2000x64 .f32) (y : S2000x64.Idx) :
    ∃ pc ∈ ([⟨r0_blk, p0⟩] : List (View.Piece (Elt F) S2000x64 .f32)), y ∈ pc.1.set :=
  View.cover_of_tiled [⟨r0_blk, p0⟩] S2000x64.size (by rfl) y

/-- Input window 0's current buffer holds its block at every point, fetched there or not, for any proof data whose
    array is the region's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data whose
    array is the region's and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data whose
    array is the region's and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data whose
    array is the region's and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not, for any proof data whose
    array is the region's and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not, for any proof data whose
    array is the region's and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers, the inputs' at read contents and the result's at anything, runs to the continuation
    holding the inputs' as they were and the result's at `out0` of the inputs': five loads of whole input blocks (window 2's
    buffer is handed over and returned unread), a load of the result's buffer that nothing reads, and one store of the
    whole block, which covers it. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0 x0 x1 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-- The region's proof data on core `c`: the arrays as the region finds them; after the body each input's buffer
    still at its block and the result's at `out0` of the input blocks; the features' array held in two halves
    by windows 1 and 2; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0 (iblk0 V c 0 t) (iblk0 V c 1 t) (iblk0 V c 3 t) (iblk0 V c 4 t) (iblk0 V c 5 t) := by
  dsimp only [dat0]

/-- What the body leaves in each input window's buffer: its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.KernelIdeal.Launch
import proofs.«406033_j21930103013914_1_alg».proof.Proof.Gen.KernelIdeal.Skeleton
import proofs.«406033_j21930103013914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 2000 by 64 block, of a 64 by 64 matrix, of a 1 by 64 row. -/
abbrev r1_blk : Rect S2000x64 := Rect.unit (s := S2000x64) ![0, 0] S2000x64.size inb_S2000x64_S2000x64_0_0
abbrev r1_mat : Rect S64x64 := Rect.unit (s := S64x64) ![0, 0] S64x64.size inb_S64x64_S64x64_0_0
abbrev r1_row : Rect S1x64 := Rect.unit (s := S1x64) ![0, 0] S1x64.size inb_S1x64_S1x64_0_0

/-- What the body leaves in the result's block, from the input blocks: its one store, of the whole block. -/
def out1 (x0 x1 x2 : Vec F S2000x64 .f32) (x3 x4 : Vec F S64x64 .f32) (x5 : Vec F S1x64 .f32) : Vec F S2000x64 .f32 :=
  View.canon [⟨r1_blk, k1_pay1 (View.ld x0 r1_blk) (View.ld x1 r1_blk) (View.ld x3 r1_mat) (View.ld x4 r1_mat) (View.ld x5 r1_row) (View.ld x2 r1_blk)⟩]

/-- The one store covers the block. -/
theorem cover1 (p0 : Vec F S2000x64 .f32) (y : S2000x64.Idx) :
    ∃ pc ∈ ([⟨r1_blk, p0⟩] : List (View.Piece (Elt F) S2000x64 .f32)), y ∈ pc.1.set :=
  View.cover_of_tiled [⟨r1_blk, p0⟩] S2000x64.size (by rfl) y

/-- Input window 0's current buffer holds its block at every point, fetched there or not, for any proof data whose
    array is the region's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for any proof data whose
    array is the region's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for any proof data whose
    array is the region's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for any proof data whose
    array is the region's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for any proof data whose
    array is the region's and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not, for any proof data whose
    array is the region's and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole buffers, the inputs' at read contents and the result's at anything, runs to the continuation
    holding the inputs' as they were and the result's at `out1` of the inputs': six loads of whole input blocks, a
    load of the result's buffer that nothing reads, and one store of the whole block, which covers it. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The region's proof data on core `c`: the arrays as the region finds them; after the body each input's buffer
    still at its block and the result's at `out1` of the input blocks; the features' array held in two halves
    by windows 1 and 2; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by
  dsimp only [dat1]

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.KernelIdeal.Launch
import proofs.«406033_j21930103013914_1_alg».proof.Proof.Gen.KernelIdeal.Skeleton
import proofs.«406033_j21930103013914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 2000 by 64 block, of a 64 by 64 matrix, of a 1 by 64 row. -/
abbrev r2_blk : Rect S2000x64 := Rect.unit (s := S2000x64) ![0, 0] S2000x64.size inb_S2000x64_S2000x64_0_0
abbrev r2_mat : Rect S64x64 := Rect.unit (s := S64x64) ![0, 0] S64x64.size inb_S64x64_S64x64_0_0
abbrev r2_row : Rect S1x64 := Rect.unit (s := S1x64) ![0, 0] S1x64.size inb_S1x64_S1x64_0_0

/-- What the body leaves in the result's block, from the input blocks: its one store, of the whole block. -/
def out2 (x0 x1 x2 : Vec F S2000x64 .f32) (x3 x4 : Vec F S64x64 .f32) (x5 : Vec F S1x64 .f32) : Vec F S2000x64 .f32 :=
  View.canon [⟨r2_blk, k2_pay1 (View.ld x0 r2_blk) (View.ld x1 r2_blk) (View.ld x3 r2_mat) (View.ld x4 r2_mat) (View.ld x5 r2_row) (View.ld x2 r2_blk)⟩]

/-- The one store covers the block. -/
theorem cover2 (p0 : Vec F S2000x64 .f32) (y : S2000x64.Idx) :
    ∃ pc ∈ ([⟨r2_blk, p0⟩] : List (View.Piece (Elt F) S2000x64 .f32)), y ∈ pc.1.set :=
  View.cover_of_tiled [⟨r2_blk, p0⟩] S2000x64.size (by rfl) y

/-- Input window 0's current buffer holds its block at every point, fetched there or not, for any proof data whose
    array is the region's and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is the region's and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is the region's and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data whose
    array is the region's and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data whose
    array is the region's and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not, for any proof data whose
    array is the region's and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole buffers, the inputs' at read contents and the result's at anything, runs to the continuation
    holding the inputs' as they were and the result's at `out2` of the inputs': six loads of whole input blocks, a
    load of the result's buffer that nothing reads, and one store of the whole block, which covers it. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-- The region's proof data on core `c`: the arrays as the region finds them; after the body each input's buffer
    still at its block and the result's at `out2` of the input blocks; the features' array held in two halves
    by windows 1 and 2; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by
  dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  Region 3 of the program, one point of its grid at a time. The region's seven windows are: 0 the aggregated
  features, 1 the features, 2 the residual (the same array as window 1), 3 and 4 the two weight matrices, 5 the bias
  row, 6 the result. At a point the body reads its input blocks and leaves in the result's block the sum of the two matrix products, the bias row and the residual block, then the maximum with zero.
  Here: each window's block as the region finds it, what the body leaves in the result's block as a function of
  the input blocks, the body's triple, the region's proof data, and the body obligation at every point.
  Windows 1 and 2 read one array, so each holds half of it.
-/
import proofs.«406033_j21930103013914_1_alg».proof.Proof.Gen.KernelIdeal.Launch
import proofs.«406033_j21930103013914_1_alg».proof.Proof.Gen.KernelIdeal.Skeleton
import proofs.«406033_j21930103013914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a 2000 by 64 block, of a 64 by 64 matrix, of a 1 by 64 row. -/
abbrev r3_blk : Rect S2000x64 := Rect.unit (s := S2000x64) ![0, 0] S2000x64.size inb_S2000x64_S2000x64_0_0
abbrev r3_mat : Rect S64x64 := Rect.unit (s := S64x64) ![0, 0] S64x64.size inb_S64x64_S64x64_0_0
abbrev r3_row : Rect S1x64 := Rect.unit (s := S1x64) ![0, 0] S1x64.size inb_S1x64_S1x64_0_0

/-- What the body leaves in the result's block, from the input blocks: its one store, of the whole block. -/
def out3 (x0 x1 x2 : Vec F S2000x64 .f32) (x3 x4 : Vec F S64x64 .f32) (x5 : Vec F S1x64 .f32) : Vec F S2000x64 .f32 :=
  View.canon [⟨r3_blk, k3_pay1 (View.ld x0 r3_blk) (View.ld x1 r3_blk) (View.ld x3 r3_mat) (View.ld x4 r3_mat) (View.ld x5 r3_row) (View.ld x2 r3_blk)⟩]

/-- The one store covers the block. -/
theorem cover3 (p0 : Vec F S2000x64 .f32) (y : S2000x64.Idx) :
    ∃ pc ∈ ([⟨r3_blk, p0⟩] : List (View.Piece (Elt F) S2000x64 .f32)), y ∈ pc.1.set :=
  View.cover_of_tiled [⟨r3_blk, p0⟩] S2000x64.size (by rfl) y

/-- Input window 0's current buffer holds its block at every point, fetched there or not, for any proof data whose
    array is the region's and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not, for any proof data whose
    array is the region's and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not, for any proof data whose
    array is the region's and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not, for any proof data whose
    array is the region's and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not, for any proof data whose
    array is the region's and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not, for any proof data whose
    array is the region's and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 1000000 in
/-- The body on whole buffers, the inputs' at read contents and the result's at anything, runs to the continuation
    holding the inputs' as they were and the result's at `out3` of the inputs': six loads of whole input blocks, a
    load of the result's buffer that nothing reads, and one store of the whole block, which covers it. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3 x0 x1 x2 x3 x4 x5)) -∗ K ⟨⟩))
      ⊢ wp frame (wpE (defs₀ (F := F)) Variants.none c none) E (cc3__layer_kernel i arg1 harg1 arg2 harg2 arg3 harg3 arg4 harg4 arg5 harg5 arg6 harg6 arg7 harg7) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The region's proof data on core `c`: the arrays as the region finds them; after the body each input's buffer
    still at its block and the result's at `out3` of the input blocks; the features' array held in two halves
    by windows 1 and 2; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by
  dsimp only [dat3]

/-- What the body leaves in each input window's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/-
  Region 4 of the program, one point of its grid at a time. The region's seven windows are: 0 the aggregated
  features, 1 the features, 2 the residual (the same array as window 1), 3 and 4 the two weight matrices, 5 the bias
  row, 6 the result. At a point the body reads its input blocks and leaves in the result's block the sum of the two matrix products and the bias row.
  Here: each window's block as the region finds it, what the body leaves in the result's block as a function of
  the input blocks, the body's triple, the region's proof data, and the body obligation at every point.
  Windows 1 and 2 read one array, so each holds half of it.
-/
import proofs.«406033_j21930103013914_1_alg».proof.Proof.Gen.KernelIdeal.Launch
import proofs.«406033_j21930103013914_1_alg».proof.Proof.Gen.KernelIdeal.Skeleton
import proofs.«406033_j21930103013914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of a 2000 by 64 block, of a 64 by 64 matrix, of a 1 by 64 row. -/
abbrev r4_blk : Rect S2000x64 := Rect.unit (s := S2000x64) ![0, 0] S2000x64.size inb_S2000x64_S2000x64_0_0
abbrev r4_mat : Rect S64x64 := Rect.unit (s := S64x64) ![0, 0] S64x64.size inb_S64x64_S64x64_0_0
abbrev r4_row : Rect S1x64 := Rect.unit (s := S1x64) ![0, 0] S1x64.size inb_S1x64_S1x64_0_0

/-- What the body leaves in the result's block, from the input blocks: its one store, of the whole block. -/
def out4 (x0 x1 : Vec F S2000x64 .f32) (x3 x4 : Vec F S64x64 .f32) (x5 : Vec F S1x64 .f32) : Vec F S2000x64 .f32 :=
  View.canon [⟨r4_blk, k4_pay1 (View.ld x0 r4_blk) (View.ld x1 r4_blk) (View.ld x3 r4_mat) (View.ld x4 r4_mat) (View.ld x5 r4_row)⟩]

/-- The one store covers the block. -/
theorem cover4 (p0 : Vec F S2000x64 .f32) (y : S2000x64.Idx) :
    ∃ pc ∈ ([⟨r4_blk, p0⟩] : List (View.Piece (Elt F) S2000x64 .f32)), y ∈ pc.1.set :=
  View.cover_of_tiled [⟨r4_blk, p0⟩] S2000x64.size (by rfl) y

/-- Input window 0's current buffer holds its block at every point, fetched there or not, for any proof data whose
    array is the region's and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not, for any proof data whose
    array is the region's and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not, for any proof data whose
    array is the region's and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, fetched there or not, for any proof data whose
    array is the region's and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current buffer holds its block at every point, fetched there or not, for any proof data whose
    array is the region's and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current buffer holds its block at every point, fetched there or not, for any proof data whose
    array is the region's and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

set_option maxHeartbeats 1000000 in
/-- The body on whole buffers, the inputs' at read contents and the result's at anything, runs to the continuation
    holding the inputs' as they were and the result's at `out4` of the inputs': five loads of whole input blocks (window 2's
    buffer is handed over and returned unread), a load of the result's buffer that nothing reads, and one store of the
    whole block, which covers it. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 x1 x2 : Vec F S2000x64 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out4 x0 x1 x3 x4 x5)) -∗ K ⟨⟩))
      ⊢ wp frame (wpE (defs₀ (F := F)) Variants.none c none) E (cc4__layer_kernel i arg1 harg1 arg2 harg2 arg3 harg3 arg4 harg4 arg5 harg5 arg6 harg6 arg7 harg7) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4 _)

/-- The region's proof data on core `c`: the arrays as the region finds them; after the body each input's buffer
    still at its block and the result's at `out4` of the input blocks; the features' array held in two halves
    by windows 1 and 2; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4 (iblk4 V c 0 t) (iblk4 V c 1 t) (iblk4 V c 3 t) (iblk4 V c 4 t) (iblk4 V c 5 t)
  Φ _ := Pipeline.ΦA spec4 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out4 (iblk4 V c 0 t) (iblk4 V c 1 t) (iblk4 V c 3 t) (iblk4 V c 4 t) (iblk4 V c 5 t) := by
  dsimp only [dat4]

/-- What the body leaves in each input window's buffer: its block. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Chain.lean ====
/-
  The program's five regions in sequence: what each region's arrays hold when the region is entered, and what the
  region leaves in its result array. Region 0 is entered from the launch contents after the first host operations;
  every later region from what its predecessor left, after the host operations between them (the next aggregation
  and the next layer's weights). The result of region K is the fold of its write-backs over its grid.
-/
import proofs.«406033_j21930103013914_1_alg».proof.Proof.KI.Body0
import proofs.«406033_j21930103013914_1_alg».proof.Proof.KI.Body1
import proofs.«406033_j21930103013914_1_alg».proof.Proof.KI.Body2
import proofs.«406033_j21930103013914_1_alg».proof.Proof.KI.Body3
import proofs.«406033_j21930103013914_1_alg».proof.Proof.KI.Body4
import proofs.«406033_j21930103013914_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers' contents when region 0 is entered. -/
def E0 (c : Dev nD) (b : Ref sig .tc) : Buf (Elt F) ((c : Thread nD τ).loc b) := V3 m c b
/-- What region 0 leaves in its result array `main_v26`. -/
def o4 (c : Dev nD) : Buf (Elt F) ((c : Thread nD τ).loc main_v26) := (dat0 (E0 m) c).arrAt 6 cfg0.N
/-- The regions' results so far, as the contents a region may leave in a buffer (elsewhere: the launch contents). -/
def outs1 : Outs (F := F) := fun _ r c => if h : r = main_v26 then h ▸ o4 m c else m ((c : Thread nD τ).loc r)

/-- The buffers' contents when region 1 is entered. -/
def E1 (c : Dev nD) (b : Ref sig .tc) : Buf (Elt F) ((c : Thread nD τ).loc b) := V6 m (outs1 m) c b
/-- What region 1 leaves in its result array `main_v40`. -/
def o7 (c : Dev nD) : Buf (Elt F) ((c : Thread nD τ).loc main_v40) := (dat1 (E1 m) c).arrAt 6 cfg1.N
/-- The regions' results so far, as the contents a region may leave in a buffer (elsewhere: the launch contents). -/
def outs2 : Outs (F := F) := fun _ r c => if h : r = main_v26 then h ▸ o4 m c else if h : r = main_v40 then h ▸ o7 m c else m ((c : Thread nD τ).loc r)

/-- The buffers' contents when region 2 is entered. -/
def E2 (c : Dev nD) (b : Ref sig .tc) : Buf (Elt F) ((c : Thread nD τ).loc b) := V9 m (outs2 m) c b
/-- What region 2 leaves in its result array `main_v54`. -/
def o10 (c : Dev nD) : Buf (Elt F) ((c : Thread nD τ).loc main_v54) := (dat2 (E2 m) c).arrAt 6 cfg2.N
/-- The regions' results so far, as the contents a region may leave in a buffer (elsewhere: the launch contents). -/
def outs3 : Outs (F := F) := fun _ r c => if h : r = main_v26 then h ▸ o4 m c else if h : r = main_v40 then h ▸ o7 m c else if h : r = main_v54 then h ▸ o10 m c else m ((c : Thread nD τ).loc r)

/-- The buffers' contents when region 3 is entered. -/
def E3 (c : Dev nD) (b : Ref sig .tc) : Buf (Elt F) ((c : Thread nD τ).loc b) := V12 m (outs3 m) c b
/-- What region 3 leaves in its result array `main_v68`. -/
def o13 (c : Dev nD) : Buf (Elt F) ((c : Thread nD τ).loc main_v68) := (dat3 (E3 m) c).arrAt 6 cfg3.N
/-- The regions' results so far, as the contents a region may leave in a buffer (elsewhere: the launch contents). -/
def outs4 : Outs (F := F) := fun _ r c => if h : r = main_v26 then h ▸ o4 m c else if h : r = main_v40 then h ▸ o7 m c else if h : r = main_v54 then h ▸ o10 m c else if h : r = main_v68 then h ▸ o13 m c else m ((c : Thread nD τ).loc r)

/-- The buffers' contents when region 4 is entered. -/
def E4 (c : Dev nD) (b : Ref sig .tc) : Buf (Elt F) ((c : Thread nD τ).loc b) := V15 m (outs4 m) c b
/-- What region 4 leaves in its result array `main_v82`. -/
def o16 (c : Dev nD) : Buf (Elt F) ((c : Thread nD τ).loc main_v82) := (dat4 (E4 m) c).arrAt 6 cfg4.N
/-- The regions' results so far, as the contents a region may leave in a buffer (elsewhere: the launch contents). -/
def outs : Outs (F := F) := fun _ r c => if h : r = main_v26 then h ▸ o4 m c else if h : r = main_v40 then h ▸ o7 m c else if h : r = main_v54 then h ▸ o10 m c else if h : r = main_v68 then h ▸ o13 m c else if h : r = main_v82 then h ▸ o16 m c else m ((c : Thread nD τ).loc r)

/-! The results read back, and each region's entry contents in terms of all the results. -/

theorem outs_v26 (c : Dev nD) : outs m 4 main_v26 c = o4 m c := dif_pos rfl
theorem outs_v40 (c : Dev nD) : outs m 7 main_v40 c = o7 m c :=
  (dif_neg (by decide : main_v40 ≠ main_v26)).trans (dif_pos rfl)
theorem outs_v54 (c : Dev nD) : outs m 10 main_v54 c = o10 m c :=
  (dif_neg (by decide : main_v54 ≠ main_v26)).trans <| (dif_neg (by decide : main_v54 ≠ main_v40)).trans (dif_pos rfl)
theorem outs_v68 (c : Dev nD) : outs m 13 main_v68 c = o13 m c :=
  (dif_neg (by decide : main_v68 ≠ main_v26)).trans <| (dif_neg (by decide : main_v68 ≠ main_v40)).trans <|
    (dif_neg (by decide : main_v68 ≠ main_v54)).trans (dif_pos rfl)
theorem outs_v82 (c : Dev nD) : outs m 16 main_v82 c = o16 m c :=
  (dif_neg (by decide : main_v82 ≠ main_v26)).trans <| (dif_neg (by decide : main_v82 ≠ main_v40)).trans <|
    (dif_neg (by decide : main_v82 ≠ main_v54)).trans <| (dif_neg (by decide : main_v82 ≠ main_v68)).trans (dif_pos rfl)

/-- The contents on entry to region 1 depend on the regions' results only through what region 0 leaves. -/
theorem V6_congr (o o' : Outs (F := F)) (c : Dev nD) (h4 : o 4 main_v26 c = o' 4 main_v26 c) :
    V6 m o c = V6 m o' c := by
  show StableHlo.after hostOps1_1 (StableHlo.after hostOps1 (Function.update (V3 m c) main_v26 (o 4 main_v26 c))) = _
  rw [h4]
/-- The contents on entry to region 2 depend on the regions' results only through what regions 0 and 1 leave. -/
theorem V9_congr (o o' : Outs (F := F)) (c : Dev nD) (h4 : o 4 main_v26 c = o' 4 main_v26 c)
    (h7 : o 7 main_v40 c = o' 7 main_v40 c) : V9 m o c = V9 m o' c := by
  show StableHlo.after hostOps2_1 (StableHlo.after hostOps2 (Function.update (V6 m o c) main_v40 (o 7 main_v40 c))) = _
  rw [V6_congr m o o' c h4, h7]
/-- The contents on entry to region 3 depend on the regions' results only through what regions 0 to 2 leave. -/
theorem V12_congr (o o' : Outs (F := F)) (c : Dev nD) (h4 : o 4 main_v26 c = o' 4 main_v26 c)
    (h7 : o 7 main_v40 c = o' 7 main_v40 c) (h10 : o 10 main_v54 c = o' 10 main_v54 c) : V12 m o c = V12 m o' c := by
  show StableHlo.after hostOps3_1 (StableHlo.after hostOps3 (Function.update (V9 m o c) main_v54 (o 10 main_v54 c))) = _
  rw [V9_congr m o o' c h4 h7, h10]
/-- The contents on entry to region 4 depend on the regions' results only through what regions 0 to 3 leave. -/
theorem V15_congr (o o' : Outs (F := F)) (c : Dev nD) (h4 : o 4 main_v26 c = o' 4 main_v26 c)
    (h7 : o 7 main_v40 c = o' 7 main_v40 c) (h10 : o 10 main_v54 c = o' 10 main_v54 c)
    (h13 : o 13 main_v68 c = o' 13 main_v68 c) : V15 m o c = V15 m o' c := by
  show StableHlo.after hostOps4_1 (StableHlo.after hostOps4 (Function.update (V12 m o c) main_v68 (o 13 main_v68 c))) = _
  rw [V12_congr m o o' c h4 h7 h10, h13]

theorem E0_eq (c : Dev nD) (b : Ref sig .tc) : E0 m c b = V3 m c b := rfl
theorem E1_eq (c : Dev nD) (b : Ref sig .tc) : E1 m c b = V6 m (outs m) c b :=
  congrFun (V6_congr m (outs1 m) (outs m) c ((dif_pos rfl).trans (outs_v26 m c).symm)) b
theorem E2_eq (c : Dev nD) (b : Ref sig .tc) : E2 m c b = V9 m (outs m) c b :=
  congrFun (V9_congr m (outs2 m) (outs m) c ((dif_pos rfl).trans (outs_v26 m c).symm)
    (((dif_neg (by decide : main_v40 ≠ main_v26)).trans (dif_pos rfl)).trans (outs_v40 m c).symm)) b
theorem E3_eq (c : Dev nD) (b : Ref sig .tc) : E3 m c b = V12 m (outs m) c b :=
  congrFun (V12_congr m (outs3 m) (outs m) c ((dif_pos rfl).trans (outs_v26 m c).symm)
    (((dif_neg (by decide : main_v40 ≠ main_v26)).trans (dif_pos rfl)).trans (outs_v40 m c).symm)
    (((dif_neg (by decide : main_v54 ≠ main_v26)).trans <| (dif_neg (by decide : main_v54 ≠ main_v40)).trans
      (dif_pos rfl)).trans (outs_v54 m c).symm)) b
theorem E4_eq (c : Dev nD) (b : Ref sig .tc) : E4 m c b = V15 m (outs m) c b :=
  congrFun (V15_congr m (outs4 m) (outs m) c ((dif_pos rfl).trans (outs_v26 m c).symm)
    (((dif_neg (by decide : main_v40 ≠ main_v26)).trans (dif_pos rfl)).trans (outs_v40 m c).symm)
    (((dif_neg (by decide : main_v54 ≠ main_v26)).trans <| (dif_neg (by decide : main_v54 ≠ main_v40)).trans
      (dif_pos rfl)).trans (outs_v54 m c).symm)
    (((dif_neg (by decide : main_v68 ≠ main_v26)).trans <| (dif_neg (by decide : main_v68 ≠ main_v40)).trans <|
      (dif_neg (by decide : main_v68 ≠ main_v54)).trans (dif_pos rfl)).trans (outs_v68 m c).symm)) b

/-- Every pipeline's proof data, each at its region's entry contents. -/
def pdats : (p : Fin 5) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

/-- No core owes another anything: no level is assigned. -/
abbrev 𝒱₀ : Variants := Variants.none
abbrev L : GSem nD τ sig → Finset Unit := fun _ => ∅
abbrev lv : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KI.Reg0.lean ====
/-
  Region 0 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img0 : (Finset.univ.image (Pipeline.arrRef spec0) : Finset (Ref sig .tc))
    = ([main_v18, main_arg0, main_v20, main_v22, main_v25, main_v26] : List (Ref sig .tc)).toFinset := by decide

/-- Those six buffers, each whole at the full share, one by one. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v18) ↦{fullShare} V main_v18) ∗ (((c : Thread nD τ).loc main_arg0) ↦{fullShare} V main_arg0)
          ∗ (((c : Thread nD τ).loc main_v20) ↦{fullShare} V main_v20) ∗ (((c : Thread nD τ).loc main_v22) ↦{fullShare} V main_v22)
          ∗ (((c : Thread nD τ).loc main_v25) ↦{fullShare} V main_v25) ∗ (((c : Thread nD τ).loc main_v26) ↦{fullShare} V main_v26)) := by
  unfold Pipeline.arrBufs
  exact bigSep_eq_bigSepL_of_eq _ img0 (by decide) _

/-- The windows' arrays one by one: every array whole; the features' array at the left half of the full share for
    window 1 and at the right half for window 2, every other array at the full share. -/
theorem arrays0 (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_v18) ↦{fullShare} G 0) ∗ (((c : Thread nD τ).loc main_arg0) ↦{fullShare.left} G 1)
          ∗ (((c : Thread nD τ).loc main_arg0) ↦{fullShare.right} G 2) ∗ (((c : Thread nD τ).loc main_v20) ↦{fullShare} G 3)
          ∗ (((c : Thread nD τ).loc main_v22) ↦{fullShare} G 4) ∗ (((c : Thread nD τ).loc main_v25) ↦{fullShare} G 5)
          ∗ (((c : Thread nD τ).loc main_v26) ↦{fullShare} G 6)) := by
  have h : ((dat0 V c).arrays G : sProp 𝕄) = bigSep Finset.univ fun w : Fin cfg0.W =>
      (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- A whole buffer at the full share is its two halves, both at the same contents. -/
theorem halves0 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs0 (V : (c : Dev nD) → (b : Ref sig .tc) → Buf (Elt F) ((c : Thread nD τ).loc b)) (c : Dev nD) :
    (Pipeline.arrBufs (Ix := Unit) (Name := ℕ) (U := UR sig nD τ) (Lvl := ℕ) spec0 c (V c) : sProp 𝕄)
      ⊢ (dat0 V c).arrays fun w => (dat0 V c).arrAt w 0 := by
  rw [arrBufs0, arrays0]
  iintro ⟨Hagg, Hh, Hwl, Hwr, Hb, Hres⟩
  ihave H := (halves0 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays0 (V : (c : Dev nD) → (b : Ref sig .tc) → Buf (Elt F) ((c : Thread nD τ).loc b)) (c : Dev nD)
    (G : (w : Fin cfg0.W) → Buf (Elt F) ((cfg0.win w).arr.view.loc (c : Thread nD τ)))
    (V' : (b : Ref sig .tc) → Buf (Elt F) ((c : Thread nD τ).loc b))
    (h0 : G 0 = V' main_v18) (h1 : G 1 = V' main_arg0) (h2 : G 2 = V' main_arg0) (h3 : G 3 = V' main_v20)
    (h4 : G 4 = V' main_v22) (h5 : G 5 = V' main_v25) (h6 : G 6 = V' main_v26) :
    ((dat0 V c).arrays G : sProp 𝕄)
      ⊢ Pipeline.arrBufs (Ix := Unit) (Name := ℕ) (U := UR sig nD τ) (Lvl := ℕ) spec0 c V' := by
  rw [arrBufs0, arrays0, h0, h1, h2, h3, h4, h5, h6]
  iintro ⟨Hagg, Hl, Hr, Hwl, Hwr, Hb, Hres⟩
  ihave Hh := (halves0 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry0 (c : Dev nD) :
    (StableHlo.held (c : Thread nD τ) (Pipeline.ucRefs τ sig) (V3 m c) : sProp 𝕄)
      ⊢ iprop((pdats m 0 c).arrays ((pdats m 0 c).arrAt · 0)
          ∗ Pipeline.unscopedRest (Ix := Unit) (Name := ℕ) (U := UR sig nD τ) (Lvl := ℕ) spec0 c (E0 m c)) := by
  rw [← Pipeline.unscopedBufs_held (Ix := Unit) (Name := ℕ) (U := UR sig nD τ) (Lvl := ℕ) c (V3 m c),
    Pipeline.unscopedBufs_split₀ cfgs 0 winFacts₀0.arr_unscoped c, ← funext (E0_eq m c)]
  exact BI.sep_mono (arrays_of_bufs0 (E0 m) c) (BI.Entails.refl _)

/-- The buffers no window reads hold at exit what they held at entry: the region may change its result array only. -/
theorem rest0 (c : Dev nD) :
    (Pipeline.unscopedRest (Ix := Unit) (Name := ℕ) (U := UR sig nD τ) (Lvl := ℕ) spec0 c (fun b => V4 m (outs m) c b) : sProp 𝕄)
      = Pipeline.unscopedRest spec0 c (E0 m c) := by
  unfold Pipeline.unscopedRest
  refine bigSep_congr fun b hb => ?_
  have hne : b ≠ main_v26 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V4_of m (outs m) c b (by rw [List.mem_singleton]; exact hne)).trans (E0_eq m c b).symm)

/-- No input window's array is written: at the last point it holds what the region was entered with. -/
theorem arrAt_in0 (c : Dev nD) (w : Fin cfg0.W) (hw : (cfg0.win w).isOut = false) :
    (dat0 (E0 m) c).arrAt w cfg0.N = E0 m c (Pipeline.arrRef spec0 w) :=
  (dat0 (E0 m) c).arrAt_in w hw _

/-- EXIT. The windows' arrays at their last contents, the two halves of the features' array joined, beside the
    buffers no window reads, are the unscoped buffers at the contents the region leaves: the inputs as entered, the
    result array at the fold of the write-backs. -/
theorem exit0 (c : Dev nD) :
    (iprop((pdats m 0 c).arrays ((pdats m 0 c).arrAt · cfg0.N)
        ∗ Pipeline.unscopedRest (Ix := Unit) (Name := ℕ) (U := UR sig nD τ) (Lvl := ℕ) spec0 c (E0 m c)) : sProp 𝕄)
      ⊢ StableHlo.held (c : Thread nD τ) (Pipeline.ucRefs τ sig) (V4 m (outs m) c) := by
  rw [← Pipeline.unscopedBufs_held (Ix := Unit) (Name := ℕ) (U := UR sig nD τ) (Lvl := ℕ) c (V4 m (outs m) c),
    Pipeline.unscopedBufs_split₀ cfgs 0 winFacts₀0.arr_unscoped c]
  refine BI.sep_mono (bufs_of_arrays0 (E0 m) c _ _ ?_ ?_ ?_ ?_ ?_ ?_ ?_) (Entails.of_eq (rest0 m c).symm)
  · exact (arrAt_in0 m c 0 rfl).trans ((E0_eq m c main_v18).trans (V4_of m (outs m) c main_v18 (by decide)).symm)
  · exact (arrAt_in0 m c 1 rfl).trans ((E0_eq m c main_arg0).trans (V4_of m (outs m) c main_arg0 (by decide)).symm)
  · exact (arrAt_in0 m c 2 rfl).trans ((E0_eq m c main_arg0).trans (V4_of m (outs m) c main_arg0 (by decide)).symm)
  · exact (arrAt_in0 m c 3 rfl).trans ((E0_eq m c main_v20).trans (V4_of m (outs m) c main_v20 (by decide)).symm)
  · exact (arrAt_in0 m c 4 rfl).trans ((E0_eq m c main_v22).trans (V4_of m (outs m) c main_v22 (by decide)).symm)
  · exact (arrAt_in0 m c 5 rfl).trans ((E0_eq m c main_v25).trans (V4_of m (outs m) c main_v25 (by decide)).symm)
  · exact ((show V4 m (outs m) c main_v26 = outs m 4 main_v26 c from Function.update_self _ _ _).trans (outs_v26 m c)).symm

set_option backward.isDefEq.respectTransparency.types false in
/-- Region 0 over the thread state "every unscoped buffer at the boundary's contents, the generator register at some
    state, nothing owed". -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img1 : (Finset.univ.image (Pipeline.arrRef spec1) : Finset (Ref sig .tc))
    = ([main_v32, main_v26, main_v34, main_v36, main_v39, main_v40] : List (Ref sig .tc)).toFinset := by decide

/-- Those six buffers, each whole at the full share, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v32) ↦{fullShare} V main_v32) ∗ (((c : Thread nD τ).loc main_v26) ↦{fullShare} V main_v26)
          ∗ (((c : Thread nD τ).loc main_v34) ↦{fullShare} V main_v34) ∗ (((c : Thread nD τ).loc main_v36) ↦{fullShare} V main_v36)
          ∗ (((c : Thread nD τ).loc main_v39) ↦{fullShare} V main_v39) ∗ (((c : Thread nD τ).loc main_v40) ↦{fullShare} V main_v40)) := by
  unfold Pipeline.arrBufs
  exact bigSep_eq_bigSepL_of_eq _ img1 (by decide) _

/-- The windows' arrays one by one: every array whole; the features' array at the left half of the full share for
    window 1 and at the right half for window 2, every other array at the full share. -/
theorem arrays1 (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v32) ↦{fullShare} G 0) ∗ (((c : Thread nD τ).loc main_v26) ↦{fullShare.left} G 1)
          ∗ (((c : Thread nD τ).loc main_v26) ↦{fullShare.right} G 2) ∗ (((c : Thread nD τ).loc main_v34) ↦{fullShare} G 3)
          ∗ (((c : Thread nD τ).loc main_v36) ↦{fullShare} G 4) ∗ (((c : Thread nD τ).loc main_v39) ↦{fullShare} G 5)
          ∗ (((c : Thread nD τ).loc main_v40) ↦{fullShare} G 6)) := by
  have h : ((dat1 V c).arrays G : sProp 𝕄) = bigSep Finset.univ fun w : Fin cfg1.W =>
      (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- A whole buffer at the full share is its two halves, both at the same contents. -/
theorem halves1 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays fun w => (dat1 V c).arrAt w 0 := by
  rw [arrBufs1, arrays1]
  iintro ⟨Hagg, Hh, Hwl, Hwr, Hb, Hres⟩
  ihave H := (halves1 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays1 (V : (c : Dev nD) → (b : Ref sig .tc) → Buf (Elt F) ((c : Thread nD τ).loc b)) (c : Dev nD)
    (G : (w : Fin cfg1.W) → Buf (Elt F) ((cfg1.win w).arr.view.loc (c : Thread nD τ)))
    (V' : (b : Ref sig .tc) → Buf (Elt F) ((c : Thread nD τ).loc b))
    (h0 : G 0 = V' main_v32) (h1 : G 1 = V' main_v26) (h2 : G 2 = V' main_v26) (h3 : G 3 = V' main_v34)
    (h4 : G 4 = V' main_v36) (h5 : G 5 = V' main_v39) (h6 : G 6 = V' main_v40) :
    ((dat1 V c).arrays G : sProp 𝕄)
      ⊢ Pipeline.arrBufs (Ix := Unit) (Name := ℕ) (U := UR sig nD τ) (Lvl := ℕ) spec1 c V' := by
  rw [arrBufs1, arrays1, h0, h1, h2, h3, h4, h5, h6]
  iintro ⟨Hagg, Hl, Hr, Hwl, Hwr, Hb, Hres⟩
  ihave Hh := (halves1 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry1 (c : Dev nD) :
    (StableHlo.held (c : Thread nD τ) (Pipeline.ucRefs τ sig) (V6 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (E1 m c)) := by
  rw [← Pipeline.unscopedBufs_held (Ix := Unit) (Name := ℕ) (U := UR sig nD τ) (Lvl := ℕ) c (V6 m (outs m) c),
    Pipeline.unscopedBufs_split₀ cfgs 1 winFacts₀1.arr_unscoped c, ← funext (E1_eq m c)]
  exact BI.sep_mono (arrays_of_bufs1 (E1 m) c) (BI.Entails.refl _)

/-- The buffers no window reads hold at exit what they held at entry: the region may change its result array only. -/
theorem rest1 (c : Dev nD) :
    (Pipeline.unscopedRest (Ix := Unit) (Name := ℕ) (U := UR sig nD τ) (Lvl := ℕ) spec1 c (fun b => V7 m (outs m) c b) : sProp 𝕄)
      = Pipeline.unscopedRest spec1 c (E1 m c) := by
  unfold Pipeline.unscopedRest
  refine bigSep_congr fun b hb => ?_
  have hne : b ≠ main_v40 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V7_of m (outs m) c b (by rw [List.mem_singleton]; exact hne)).trans (E1_eq m c b).symm)

/-- No input window's array is written: at the last point it holds what the region was entered with. -/
theorem arrAt_in1 (c : Dev nD) (w : Fin cfg1.W) (hw : (cfg1.win w).isOut = false) :
    (dat1 (E1 m) c).arrAt w cfg1.N = E1 m c (Pipeline.arrRef spec1 w) :=
  (dat1 (E1 m) c).arrAt_in w hw _

/-- EXIT. The windows' arrays at their last contents, the two halves of the features' array joined, beside the
    buffers no window reads, are the unscoped buffers at the contents the region leaves: the inputs as entered, the
    result array at the fold of the write-backs. -/
theorem exit1 (c : Dev nD) :
    (iprop((pdats m 1 c).arrays ((pdats m 1 c).arrAt · cfg1.N)
        ∗ Pipeline.unscopedRest (Ix := Unit) (Name := ℕ) (U := UR sig nD τ) (Lvl := ℕ) spec1 c (E1 m c)) : sProp 𝕄)
      ⊢ StableHlo.held (c : Thread nD τ) (Pipeline.ucRefs τ sig) (V7 m (outs m) c) := by
  rw [← Pipeline.unscopedBufs_held (Ix := Unit) (Name := ℕ) (U := UR sig nD τ) (Lvl := ℕ) c (V7 m (outs m) c),
    Pipeline.unscopedBufs_split₀ cfgs 1 winFacts₀1.arr_unscoped c]
  refine BI.sep_mono (bufs_of_arrays1 (E1 m) c _ _ ?_ ?_ ?_ ?_ ?_ ?_ ?_) (Entails.of_eq (rest1 m c).symm)
  · exact (arrAt_in1 m c 0 rfl).trans ((E1_eq m c main_v32).trans (V7_of m (outs m) c main_v32 (by decide)).symm)
  · exact (arrAt_in1 m c 1 rfl).trans ((E1_eq m c main_v26).trans (V7_of m (outs m) c main_v26 (by decide)).symm)
  · exact (arrAt_in1 m c 2 rfl).trans ((E1_eq m c main_v26).trans (V7_of m (outs m) c main_v26 (by decide)).symm)
  · exact (arrAt_in1 m c 3 rfl).trans ((E1_eq m c main_v34).trans (V7_of m (outs m) c main_v34 (by decide)).symm)
  · exact (arrAt_in1 m c 4 rfl).trans ((E1_eq m c main_v36).trans (V7_of m (outs m) c main_v36 (by decide)).symm)
  · exact (arrAt_in1 m c 5 rfl).trans ((E1_eq m c main_v39).trans (V7_of m (outs m) c main_v39 (by decide)).symm)
  · exact ((show V7 m (outs m) c main_v40 = outs m 7 main_v40 c from Function.update_self _ _ _).trans (outs_v40 m c)).symm

set_option backward.isDefEq.respectTransparency.types false in
/-- Region 1 over the thread state "every unscoped buffer at the boundary's contents, the generator register at some
    state, nothing owed". -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V6 m (outs m) c) ∗ Rst c)
  post c := iprop(StableHlo.held (c : Thread nD τ) (Pipeline.ucRefs τ sig) (V7 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img2 : (Finset.univ.image (Pipeline.arrRef spec2) : Finset (Ref sig .tc))
    = ([main_v46, main_v40, main_v48, main_v50, main_v53, main_v54] : List (Ref sig .tc)).toFinset := by decide

/-- Those six buffers, each whole at the full share, one by one. -/
theorem arrBufs2 (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v46) ↦{fullShare} V main_v46) ∗ (((c : Thread nD τ).loc main_v40) ↦{fullShare} V main_v40)
          ∗ (((c : Thread nD τ).loc main_v48) ↦{fullShare} V main_v48) ∗ (((c : Thread nD τ).loc main_v50) ↦{fullShare} V main_v50)
          ∗ (((c : Thread nD τ).loc main_v53) ↦{fullShare} V main_v53) ∗ (((c : Thread nD τ).loc main_v54) ↦{fullShare} V main_v54)) := by
  unfold Pipeline.arrBufs
  exact bigSep_eq_bigSepL_of_eq _ img2 (by decide) _

/-- The windows' arrays one by one: every array whole; the features' array at the left half of the full share for
    window 1 and at the right half for window 2, every other array at the full share. -/
theorem arrays2 (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v46) ↦{fullShare} G 0) ∗ (((c : Thread nD τ).loc main_v40) ↦{fullShare.left} G 1)
          ∗ (((c : Thread nD τ).loc main_v40) ↦{fullShare.right} G 2) ∗ (((c : Thread nD τ).loc main_v48) ↦{fullShare} G 3)
          ∗ (((c : Thread nD τ).loc main_v50) ↦{fullShare} G 4) ∗ (((c : Thread nD τ).loc main_v53) ↦{fullShare} G 5)
          ∗ (((c : Thread nD τ).loc main_v54) ↦{fullShare} G 6)) := by
  have h : ((dat2 V c).arrays G : sProp 𝕄) = bigSep Finset.univ fun w : Fin cfg2.W =>
      (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- A whole buffer at the full share is its two halves, both at the same contents. -/
theorem halves2 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs2 (V : (c : Dev nD) → (b : Ref sig .tc) → Buf (Elt F) ((c : Thread nD τ).loc b)) (c : Dev nD) :
    (Pipeline.arrBufs (Ix := Unit) (Name := ℕ) (U := UR sig nD τ) (Lvl := ℕ) spec2 c (V c) : sProp 𝕄)
      ⊢ (dat2 V c).arrays fun w => (dat2 V c).arrAt w 0 := by
  rw [arrBufs2, arrays2]
  iintro ⟨Hagg, Hh, Hwl, Hwr, Hb, Hres⟩
  ihave H := (halves2 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays2 (V : (c : Dev nD) → (b : Ref sig .tc) → Buf (Elt F) ((c : Thread nD τ).loc b)) (c : Dev nD)
    (G : (w : Fin cfg2.W) → Buf (Elt F) ((cfg2.win w).arr.view.loc (c : Thread nD τ)))
    (V' : (b : Ref sig .tc) → Buf (Elt F) ((c : Thread nD τ).loc b))
    (h0 : G 0 = V' main_v46) (h1 : G 1 = V' main_v40) (h2 : G 2 = V' main_v40) (h3 : G 3 = V' main_v48)
    (h4 : G 4 = V' main_v50) (h5 : G 5 = V' main_v53) (h6 : G 6 = V' main_v54) :
    ((dat2 V c).arrays G : sProp 𝕄)
      ⊢ Pipeline.arrBufs (Ix := Unit) (Name := ℕ) (U := UR sig nD τ) (Lvl := ℕ) spec2 c V' := by
  rw [arrBufs2, arrays2, h0, h1, h2, h3, h4, h5, h6]
  iintro ⟨Hagg, Hl, Hr, Hwl, Hwr, Hb, Hres⟩
  ihave Hh := (halves2 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry2 (c : Dev nD) :
    (StableHlo.held (c : Thread nD τ) (Pipeline.ucRefs τ sig) (V9 m (outs m) c) : sProp 𝕄)
      ⊢ iprop((pdats m 2 c).arrays ((pdats m 2 c).arrAt · 0)
          ∗ Pipeline.unscopedRest (Ix := Unit) (Name := ℕ) (U := UR sig nD τ) (Lvl := ℕ) spec2 c (E2 m c)) := by
  rw [← Pipeline.unscopedBufs_held (Ix := Unit) (Name := ℕ) (U := UR sig nD τ) (Lvl := ℕ) c (V9 m (outs m) c),
    Pipeline.unscopedBufs_split₀ cfgs 2 winFacts₀2.arr_unscoped c, ← funext (E2_eq m c)]
  exact BI.sep_mono (arrays_of_bufs2 (E2 m) c) (BI.Entails.refl _)

/-- The buffers no window reads hold at exit what they held at entry: the region may change its result array only. -/
theorem rest2 (c : Dev nD) :
    (Pipeline.unscopedRest (Ix := Unit) (Name := ℕ) (U := UR sig nD τ) (Lvl := ℕ) spec2 c (fun b => V10 m (outs m) c b) : sProp 𝕄)
      = Pipeline.unscopedRest spec2 c (E2 m c) := by
  unfold Pipeline.unscopedRest
  refine bigSep_congr fun b hb => ?_
  have hne : b ≠ main_v54 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V10_of m (outs m) c b (by rw [List.mem_singleton]; exact hne)).trans (E2_eq m c b).symm)

/-- No input window's array is written: at the last point it holds what the region was entered with. -/
theorem arrAt_in2 (c : Dev nD) (w : Fin cfg2.W) (hw : (cfg2.win w).isOut = false) :
    (dat2 (E2 m) c).arrAt w cfg2.N = E2 m c (Pipeline.arrRef spec2 w) :=
  (dat2 (E2 m) c).arrAt_in w hw _

/-- EXIT. The windows' arrays at their last contents, the two halves of the features' array joined, beside the
    buffers no window reads, are the unscoped buffers at the contents the region leaves: the inputs as entered, the
    result array at the fold of the write-backs. -/
theorem exit2 (c : Dev nD) :
    (iprop((pdats m 2 c).arrays ((pdats m 2 c).arrAt · cfg2.N)
        ∗ Pipeline.unscopedRest (Ix := Unit) (Name := ℕ) (U := UR sig nD τ) (Lvl := ℕ) spec2 c (E2 m c)) : sProp 𝕄)
      ⊢ StableHlo.held (c : Thread nD τ) (Pipeline.ucRefs τ sig) (V10 m (outs m) c) := by
  rw [← Pipeline.unscopedBufs_held (Ix := Unit) (Name := ℕ) (U := UR sig nD τ) (Lvl := ℕ) c (V10 m (outs m) c),
    Pipeline.unscopedBufs_split₀ cfgs 2 winFacts₀2.arr_unscoped c]
  refine BI.sep_mono (bufs_of_arrays2 (E2 m) c _ _ ?_ ?_ ?_ ?_ ?_ ?_ ?_) (Entails.of_eq (rest2 m c).symm)
  · exact (arrAt_in2 m c 0 rfl).trans ((E2_eq m c main_v46).trans (V10_of m (outs m) c main_v46 (by decide)).symm)
  · exact (arrAt_in2 m c 1 rfl).trans ((E2_eq m c main_v40).trans (V10_of m (outs m) c main_v40 (by decide)).symm)
  · exact (arrAt_in2 m c 2 rfl).trans ((E2_eq m c main_v40).trans (V10_of m (outs m) c main_v40 (by decide)).symm)
  · exact (arrAt_in2 m c 3 rfl).trans ((E2_eq m c main_v48).trans (V10_of m (outs m) c main_v48 (by decide)).symm)
  · exact (arrAt_in2 m c 4 rfl).trans ((E2_eq m c main_v50).trans (V10_of m (outs m) c main_v50 (by decide)).symm)
  · exact (arrAt_in2 m c 5 rfl).trans ((E2_eq m c main_v53).trans (V10_of m (outs m) c main_v53 (by decide)).symm)
  · exact ((show V10 m (outs m) c main_v54 = outs m 10 main_v54 c from Function.update_self _ _ _).trans (outs_v54 m c)).symm

set_option backward.isDefEq.respectTransparency.types false in
/-- Region 2 over the thread state "every unscoped buffer at the boundary's contents, the generator register at some
    state, nothing owed". -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img3 : (Finset.univ.image (Pipeline.arrRef spec3) : Finset (Ref sig .tc))
    = ([main_v60, main_v54, main_v62, main_v64, main_v67, main_v68] : List (Ref sig .tc)).toFinset := by decide

/-- Those six buffers, each whole at the full share, one by one. -/
theorem arrBufs3 (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v60) ↦{fullShare} V main_v60) ∗ (((c : Thread nD τ).loc main_v54) ↦{fullShare} V main_v54)
          ∗ (((c : Thread nD τ).loc main_v62) ↦{fullShare} V main_v62) ∗ (((c : Thread nD τ).loc main_v64) ↦{fullShare} V main_v64)
          ∗ (((c : Thread nD τ).loc main_v67) ↦{fullShare} V main_v67) ∗ (((c : Thread nD τ).loc main_v68) ↦{fullShare} V main_v68)) := by
  unfold Pipeline.arrBufs
  exact bigSep_eq_bigSepL_of_eq _ img3 (by decide) _

/-- The windows' arrays one by one: every array whole; the features' array at the left half of the full share for
    window 1 and at the right half for window 2, every other array at the full share. -/
theorem arrays3 (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄)
      = iprop((((c : Thread nD τ).loc main_v60) ↦{fullShare} G 0) ∗ (((c : Thread nD τ).loc main_v54) ↦{fullShare.left} G 1)
          ∗ (((c : Thread nD τ).loc main_v54) ↦{fullShare.right} G 2) ∗ (((c : Thread nD τ).loc main_v62) ↦{fullShare} G 3)
          ∗ (((c : Thread nD τ).loc main_v64) ↦{fullShare} G 4) ∗ (((c : Thread nD τ).loc main_v67) ↦{fullShare} G 5)
          ∗ (((c : Thread nD τ).loc main_v68) ↦{fullShare} G 6)) := by
  have h : ((dat3 V c).arrays G : sProp 𝕄) = bigSep Finset.univ fun w : Fin cfg3.W =>
      (((c : Thread nD τ).loc (Pipeline.arrRef spec3 w)) ↦{(dat3 V c).share w} G w : sProp 𝕄) := by
    unfold Dat.arrays
    exact bigSep_congr fun w _ => by rw [(arr_whole3 w).set_eq_univ]
  rw [h, bigSep_W3]
  rfl

/-- A whole buffer at the full share is its two halves, both at the same contents. -/
theorem halves3 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs3 (V : (c : Dev nD) → (b : Ref sig .tc) → Buf (Elt F) ((c : Thread nD τ).loc b)) (c : Dev nD) :
    (Pipeline.arrBufs (Ix := Unit) (Name := ℕ) (U := UR sig nD τ) (Lvl := ℕ) spec3 c (V c) : sProp 𝕄)
      ⊢ (dat3 V c).arrays fun w => (dat3 V c).arrAt w 0 := by
  rw [arrBufs3, arrays3]
  iintro ⟨Hagg, Hh, Hwl, Hwr, Hb, Hres⟩
  ihave H := (halves3 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays3 (V : (c : Dev nD) → (b : Ref sig .tc) → Buf (Elt F) ((c : Thread nD τ).loc b)) (c : Dev nD)
    (G : (w : Fin cfg3.W) → Buf (Elt F) ((cfg3.win w).arr.view.loc (c : Thread nD τ)))
    (V' : (b : Ref sig .tc) → Buf (Elt F) ((c : Thread nD τ).loc b))
    (h0 : G 0 = V' main_v60) (h1 : G 1 = V' main_v54) (h2 : G 2 = V' main_v54) (h3 : G 3 = V' main_v62)
    (h4 : G 4 = V' main_v64) (h5 : G 5 = V' main_v67) (h6 : G 6 = V' main_v68) :
    ((dat3 V c).arrays G : sProp 𝕄)
      ⊢ Pipeline.arrBufs (Ix := Unit) (Name := ℕ) (U := UR sig nD τ) (Lvl := ℕ) spec3 c V' := by
  rw [arrBufs3, arrays3, h0, h1, h2, h3, h4, h5, h6]
  iintro ⟨Hagg, Hl, Hr, Hwl, Hwr, Hb, Hres⟩
  ihave Hh := (halves3 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry3 (c : Dev nD) :
    (StableHlo.held (c : Thread nD τ) (Pipeline.ucRefs τ sig) (V12 m (outs m) c) : sProp 𝕄)
      ⊢ iprop((pdats m 3 c).arrays ((pdats m 3 c).arrAt · 0)
          ∗ Pipeline.unscopedRest (Ix := Unit) (Name := ℕ) (U := UR sig nD τ) (Lvl := ℕ) spec3 c (E3 m c)) := by
  rw [← Pipeline.unscopedBufs_held (Ix := Unit) (Name := ℕ) (U := UR sig nD τ) (Lvl := ℕ) c (V12 m (outs m) c),
    Pipeline.unscopedBufs_split₀ cfgs 3 winFacts₀3.arr_unscoped c, ← funext (E3_eq m c)]
  exact BI.sep_mono (arrays_of_bufs3 (E3 m) c) (BI.Entails.refl _)

/-- The buffers no window reads hold at exit what they held at entry: the region may change its result array only. -/
theorem rest3 (c : Dev nD) :
    (Pipeline.unscopedRest (Ix := Unit) (Name := ℕ) (U := UR sig nD τ) (Lvl := ℕ) spec3 c (fun b => V13 m (outs m) c b) : sProp 𝕄)
      = Pipeline.unscopedRest spec3 c (E3 m c) := by
  unfold Pipeline.unscopedRest
  refine bigSep_congr fun b hb => ?_
  have hne : b ≠ main_v68 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V13_of m (outs m) c b (by rw [List.mem_singleton]; exact hne)).trans (E3_eq m c b).symm)

/-- No input window's array is written: at the last point it holds what the region was entered with. -/
theorem arrAt_in3 (c : Dev nD) (w : Fin cfg3.W) (hw : (cfg3.win w).isOut = false) :
    (dat3 (E3 m) c).arrAt w cfg3.N = E3 m c (Pipeline.arrRef spec3 w) :=
  (dat3 (E3 m) c).arrAt_in w hw _

/-- EXIT. The windows' arrays at their last contents, the two halves of the features' array joined, beside the
    buffers no window reads, are the unscoped buffers at the contents the region leaves: the inputs as entered, the
    result array at the fold of the write-backs. -/
theorem exit3 (c : Dev nD) :
    (iprop((pdats m 3 c).arrays ((pdats m 3 c).arrAt · cfg3.N)
        ∗ Pipeline.unscopedRest (Ix := Unit) (Name := ℕ) (U := UR sig nD τ) (Lvl := ℕ) spec3 c (E3 m c)) : sProp 𝕄)
      ⊢ StableHlo.held (c : Thread nD τ) (Pipeline.ucRefs τ sig) (V13 m (outs m) c) := by
  rw [← Pipeline.unscopedBufs_held (Ix := Unit) (Name := ℕ) (U := UR sig nD τ) (Lvl := ℕ) c (V13 m (outs m) c),
    Pipeline.unscopedBufs_split₀ cfgs 3 winFacts₀3.arr_unscoped c]
  refine BI.sep_mono (bufs_of_arrays3 (E3 m) c _ _ ?_ ?_ ?_ ?_ ?_ ?_ ?_) (Entails.of_eq (rest3 m c).symm)
  · exact (arrAt_in3 m c 0 rfl).trans ((E3_eq m c main_v60).trans (V13_of m (outs m) c main_v60 (by decide)).symm)
  · exact (arrAt_in3 m c 1 rfl).trans ((E3_eq m c main_v54).trans (V13_of m (outs m) c main_v54 (by decide)).symm)
  · exact (arrAt_in3 m c 2 rfl).trans ((E3_eq m c main_v54).trans (V13_of m (outs m) c main_v54 (by decide)).symm)
  · exact (arrAt_in3 m c 3 rfl).trans ((E3_eq m c main_v62).trans (V13_of m (outs m) c main_v62 (by decide)).symm)
  · exact (arrAt_in3 m c 4 rfl).trans ((E3_eq m c main_v64).trans (V13_of m (outs m) c main_v64 (by decide)).symm)
  · exact (arrAt_in3 m c 5 rfl).trans ((E3_eq m c main_v67).trans (V13_of m (outs m) c main_v67 (by decide)).symm)
  · exact ((show V13 m (outs m) c main_v68 = outs m 13 main_v68 c from Function.update_self _ _ _).trans (outs_v68 m c)).symm

set_option backward.isDefEq.respectTransparency.types false in
/-- Region 3 over the thread state "every unscoped buffer at the boundary's contents, the generator register at some
    state, nothing owed". -/
def reg3 : RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (V12 m (outs m) c) ∗ Rst c)
  post c := iprop(StableHlo.held (c : Thread nD τ) (Pipeline.ucRefs τ sig) (V13 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4 as one segment of the program: entered holding every unscoped buffer at the contents the host operations
  before it left, left holding them at the same contents but for the region's result array, which holds the fold of
  the write-backs. At entry the region's arrays are taken out of the unscoped buffers, the features' array split
  into the two halves windows 1 and 2 hold; at exit the halves are joined again and the arrays put back.
-/
import proofs.«406033_j21930103013914_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The arrays behind the region's seven windows are six buffers: the features' array is behind windows 1 and 2. -/
theorem img4 : (Finset.univ.image (Pipeline.arrRef spec4) : Finset (Ref sig .tc))
    = ([main_v74, main_v68, main_v76, main_v78, main_v81, main_v82] : List (Ref sig .tc)).toFinset := by decide

/-- Those six buffers, each whole at the full share, one by one. -/
theorem arrBufs4 (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v74) ↦{fullShare} V main_v74) ∗ (((c : Thread nD τ).loc main_v68) ↦{fullShare} V main_v68)
          ∗ (((c : Thread nD τ).loc main_v76) ↦{fullShare} V main_v76) ∗ (((c : Thread nD τ).loc main_v78) ↦{fullShare} V main_v78)
          ∗ (((c : Thread nD τ).loc main_v81) ↦{fullShare} V main_v81) ∗ (((c : Thread nD τ).loc main_v82) ↦{fullShare} V main_v82)) := by
  unfold Pipeline.arrBufs
  exact bigSep_eq_bigSepL_of_eq _ img4 (by decide) _

/-- The windows' arrays one by one: every array whole; the features' array at the left half of the full share for
    window 1 and at the right half for window 2, every other array at the full share. -/
theorem arrays4 (V : (c : Dev nD) → (b : Ref sig .tc) → Buf (Elt F) ((c : Thread nD τ).loc b)) (c : Dev nD)
    (G : (w : Fin cfg4.W) → Buf (Elt F) ((cfg4.win w).arr.view.loc (c : Thread nD τ))) :
    ((dat4 V c).arrays G : sProp 𝕄)
      = iprop((((c : Thread nD τ).loc main_v74) ↦{fullShare} G 0) ∗ (((c : Thread nD τ).loc main_v68) ↦{fullShare.left} G 1)
          ∗ (((c : Thread nD τ).loc main_v68) ↦{fullShare.right} G 2) ∗ (((c : Thread nD τ).loc main_v76) ↦{fullShare} G 3)
          ∗ (((c : Thread nD τ).loc main_v78) ↦{fullShare} G 4) ∗ (((c : Thread nD τ).loc main_v81) ↦{fullShare} G 5)
          ∗ (((c : Thread nD τ).loc main_v82) ↦{fullShare} G 6)) := by
  have h : ((dat4 V c).arrays G : sProp 𝕄) = bigSep Finset.univ fun w : Fin cfg4.W =>
      (((c : Thread nD τ).loc (Pipeline.arrRef spec4 w)) ↦{(dat4 V c).share w} G w : sProp 𝕄) := by
    unfold Dat.arrays
    exact bigSep_congr fun w _ => by rw [(arr_whole4 w).set_eq_univ]
  rw [h, bigSep_W4]
  rfl

/-- A whole buffer at the full share is its two halves, both at the same contents. -/
theorem halves4 (ℓ : Loc nD τ sig) (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- The six buffers at any contents are the windows' arrays at those contents, the features' array split into its
    two halves. -/
theorem arrays_of_bufs4 (V : (c : Dev nD) → (b : Ref sig .tc) → Buf (Elt F) ((c : Thread nD τ).loc b)) (c : Dev nD) :
    (Pipeline.arrBufs (Ix := Unit) (Name := ℕ) (U := UR sig nD τ) (Lvl := ℕ) spec4 c (V c) : sProp 𝕄)
      ⊢ (dat4 V c).arrays fun w => (dat4 V c).arrAt w 0 := by
  rw [arrBufs4, arrays4]
  iintro ⟨Hagg, Hh, Hwl, Hwr, Hb, Hres⟩
  ihave H := (halves4 _ _).1 $$ Hh
  icases H with ⟨Hl, Hr⟩
  isplitl [Hagg]; · iexact Hagg
  isplitl [Hl]; · iexact Hl
  isplitl [Hr]; · iexact Hr
  isplitl [Hwl]; · iexact Hwl
  isplitl [Hwr]; · iexact Hwr
  isplitl [Hb]; · iexact Hb
  iexact Hres

/-- The windows' arrays at contents that agree, window by window, with contents of the six buffers — so that the two
    halves of the features' array hold the same — are those six buffers whole at the full share. -/
theorem bufs_of_arrays4 (V : (c : Dev nD) → (b : Ref sig .tc) → Buf (Elt F) ((c : Thread nD τ).loc b)) (c : Dev nD)
    (G : (w : Fin cfg4.W) → Buf (Elt F) ((cfg4.win w).arr.view.loc (c : Thread nD τ)))
    (V' : (b : Ref sig .tc) → Buf (Elt F) ((c : Thread nD τ).loc b))
    (h0 : G 0 = V' main_v74) (h1 : G 1 = V' main_v68) (h2 : G 2 = V' main_v68) (h3 : G 3 = V' main_v76)
    (h4 : G 4 = V' main_v78) (h5 : G 5 = V' main_v81) (h6 : G 6 = V' main_v82) :
    ((dat4 V c).arrays G : sProp 𝕄)
      ⊢ Pipeline.arrBufs (Ix := Unit) (Name := ℕ) (U := UR sig nD τ) (Lvl := ℕ) spec4 c V' := by
  rw [arrBufs4, arrays4, h0, h1, h2, h3, h4, h5, h6]
  iintro ⟨Hagg, Hl, Hr, Hwl, Hwr, Hb, Hres⟩
  ihave Hh := (halves4 _ _).2 $$ [Hl Hr]
  · isplitl [Hl]; · iexact Hl
    iexact Hr
  isplitl [Hagg]; · iexact Hagg
  isplitl [Hh]; · iexact Hh
  isplitl [Hwl]; · iexact Hwl
  isplitl [Hwr]; · iexact Hwr
  isplitl [Hb]; · iexact Hb
  iexact Hres

/-- ENTRY. The unscoped buffers at the contents the region is entered from are the windows' arrays at those
    contents, the features' array split into its two halves, beside the buffers no window reads. -/
theorem entry4 (c : Dev nD) :
    (StableHlo.held (c : Thread nD τ) (Pipeline.ucRefs τ sig) (V15 m (outs m) c) : sProp 𝕄)
      ⊢ iprop((pdats m 4 c).arrays ((pdats m 4 c).arrAt · 0)
          ∗ Pipeline.unscopedRest (Ix := Unit) (Name := ℕ) (U := UR sig nD τ) (Lvl := ℕ) spec4 c (E4 m c)) := by
  rw [← Pipeline.unscopedBufs_held (Ix := Unit) (Name := ℕ) (U := UR sig nD τ) (Lvl := ℕ) c (V15 m (outs m) c),
    Pipeline.unscopedBufs_split₀ cfgs 4 winFacts₀4.arr_unscoped c, ← funext (E4_eq m c)]
  exact BI.sep_mono (arrays_of_bufs4 (E4 m) c) (BI.Entails.refl _)

/-- The buffers no window reads hold at exit what they held at entry: the region may change its result array only. -/
theorem rest4 (c : Dev nD) :
    (Pipeline.unscopedRest (Ix := Unit) (Name := ℕ) (U := UR sig nD τ) (Lvl := ℕ) spec4 c (fun b => V16 m (outs m) c b) : sProp 𝕄)
      = Pipeline.unscopedRest spec4 c (E4 m c) := by
  unfold Pipeline.unscopedRest
  refine bigSep_congr fun b hb => ?_
  have hne : b ≠ main_v82 := fun h =>
    (Finset.mem_sdiff.mp hb).2 (h ▸ Finset.mem_image.mpr ⟨6, Finset.mem_univ _, rfl⟩)
  exact congrArg (fun f => (((c : Thread nD τ).loc b) ↦{fullShare} f : sProp 𝕄))
    ((V16_of m (outs m) c b (by rw [List.mem_singleton]; exact hne)).trans (E4_eq m c b).symm)

/-- No input window's array is written: at the last point it holds what the region was entered with. -/
theorem arrAt_in4 (c : Dev nD) (w : Fin cfg4.W) (hw : (cfg4.win w).isOut = false) :
    (dat4 (E4 m) c).arrAt w cfg4.N = E4 m c (Pipeline.arrRef spec4 w) :=
  (dat4 (E4 m) c).arrAt_in w hw _

/-- EXIT. The windows' arrays at their last contents, the two halves of the features' array joined, beside the
    buffers no window reads, are the unscoped buffers at the contents the region leaves: the inputs as entered, the
    result array at the fold of the write-backs. -/
theorem exit4 (c : Dev nD) :
    (iprop((pdats m 4 c).arrays ((pdats m 4 c).arrAt · cfg4.N)
        ∗ Pipeline.unscopedRest (Ix := Unit) (Name := ℕ) (U := UR sig nD τ) (Lvl := ℕ) spec4 c (E4 m c)) : sProp 𝕄)
      ⊢ StableHlo.held (c : Thread nD τ) (Pipeline.ucRefs τ sig) (V16 m (outs m) c) := by
  rw [← Pipeline.unscopedBufs_held (Ix := Unit) (Name := ℕ) (U := UR sig nD τ) (Lvl := ℕ) c (V16 m (outs m) c),
    Pipeline.unscopedBufs_split₀ cfgs 4 winFacts₀4.arr_unscoped c]
  refine BI.sep_mono (bufs_of_arrays4 (E4 m) c _ _ ?_ ?_ ?_ ?_ ?_ ?_ ?_) (Entails.of_eq (rest4 m c).symm)
  · exact (arrAt_in4 m c 0 rfl).trans ((E4_eq m c main_v74).trans (V16_of m (outs m) c main_v74 (by decide)).symm)
  · exact (arrAt_in4 m c 1 rfl).trans ((E4_eq m c main_v68).trans (V16_of m (outs m) c main_v68 (by decide)).symm)
  · exact (arrAt_in4 m c 2 rfl).trans ((E4_eq m c main_v68).trans (V16_of m (outs m) c main_v68 (by decide)).symm)
  · exact (arrAt_in4 m c 3 rfl).trans ((E4_eq m c main_v76).trans (V16_of m (outs m) c main_v76 (by decide)).symm)
  · exact (arrAt_in4 m c 4 rfl).trans ((E4_eq m c main_v78).trans (V16_of m (outs m) c main_v78 (by decide)).symm)
  · exact (arrAt_in4 m c 5 rfl).trans ((E4_eq m c main_v81).trans (V16_of m (outs m) c main_v81 (by decide)).symm)
  · exact ((show V16 m (outs m) c main_v82 = outs m 16 main_v82 c from Function.update_self _ _ _).trans (outs_v82 m c)).symm

set_option backward.isDefEq.respectTransparency.types false in
/-- Region 4 over the thread state "every unscoped buffer at the boundary's contents, the generator register at some
    state, nothing owed". -/
def reg4 : RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    iintro ⟨⟨Hub, Hp, HO⟩, -, -⟩
    ihave H := (entry4 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit4 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program run: from any memory with zero counters every weakly fair execution terminates, nothing faults,
  the result array ends holding what the last region leaves, and the five argument arrays end as launched.
-/
import proofs.«406033_j21930103013914_1_alg».proof.Proof.KI.Reg0
import proofs.«406033_j21930103013914_1_alg».proof.Proof.KI.Reg1
import proofs.«406033_j21930103013914_1_alg».proof.Proof.KI.Reg2
import proofs.«406033_j21930103013914_1_alg».proof.Proof.KI.Reg3
import proofs.«406033_j21930103013914_1_alg».proof.Proof.KI.Reg4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The launch's element of the user algebra: the staging cells' tokens, all of them. -/
abbrev u0 : UR sig nD τ := initOf (Pipeline.cells cfgs cellOf_inj) (Pipeline.launchToks cfgs cellOf_inj)

/-- Owning the launch's element is owning it through the embedding, beside nothing on every core. -/
theorem launch_own : (ownU u0 : sProp 𝕄)
    ⊢ |={Set.univ}=> iprop(BI.own (emb₁ u0) ∗ bigSep Finset.univ fun _ : Dev nD => (iprop(emp) : sProp 𝕄)) := by
  iintro Hu
  imodintro
  isplitl [Hu]
  · iapply (show (ownU u0 : sProp 𝕄) ⊢ BI.own (emb₁ u0) from .rfl)
    iexact Hu
  iapply (show (BI.emp : sProp 𝕄) ⊢ bigSep Finset.univ (fun _ : Dev nD => (BI.emp : sProp 𝕄)) from by rw [BI.bigSep_emp_const])
  iempintro

/-- What rides beside the buffers owes nothing. -/
theorem rst_owes (c : Dev nD) :
    Rst (F := F) c ⊢ (iprop(∃ W, owes (c : Thread nD τ) (0 : CellTallies nD τ sig Unit) W) : sProp 𝕄) := by
  iintro ⟨-, H⟩
  iexact H

/-- The launch makes the first thread state on every core: the unscoped buffers held at the launch contents, the
    generator register at its launch state, nothing owed. -/
theorem launch_state :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄))) ∗ levAts L lv)
      ⊢ (|={Set.univ}=> bigSep Finset.univ fun c : Dev nD =>
          iprop(StableHlo.held (c : Thread nD τ) (Pipeline.ucRefs τ sig) (V0 m c) ∗ Rst c) : sProp 𝕄) := by
  refine Pipeline.initEach L lv fun c => ?_
  rw [show unscopedBufs c (fun b => m ((c : Thread nD τ).loc b))
      = StableHlo.held (c : Thread nD τ) (Pipeline.ucRefs τ sig) (V0 m c) from Pipeline.unscopedBufs_held c (V0 m c)]
  iintro ⟨⟨Hh, -, HO, -, Hp, -⟩, -⟩
  imodintro
  isplitl [Hh]; · iexact Hh
  isplitl [Hp]; · iexists _; iexact Hp
  iexists ∅; iexact HO

/-- The last valuation at the last region's result array is what that region leaves. -/
theorem V16_v82 (c : Dev nD) : V16 m (outs m) c main_v82 = o16 m c :=
  (Function.update_self _ _ _).trans (outs_v82 m c)

/-- What is read off a final memory on core `c`: the result array, and the five arguments. -/
abbrev QY (c : Dev nD) (s : MemSt nD τ sig (Elt F)) : Prop :=
  s.mem ((c.tc : Thread nD τ).loc main_v82) = o16 m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The end: every unscoped buffer is held at the last valuation, so the final memory agrees with it; the result
    array there is what region 4 leaves, and no item writes an argument. -/
theorem final_read (c : Dev nD) (s' : Phys nD τ sig (Elt F)) :
    iprop(StableHlo.held (c : Thread nD τ) (Pipeline.ucRefs τ sig) (V16 m (outs m) c) ∗ SI s')
      ⊢ (|={Set.univ}=> iprop(⌜QY m c s'.mem⌝ ∗ SI s') : sProp 𝕄) := by
  unfold StableHlo.held
  iintro ⟨Hh, HSI⟩
  ihave Hr := (pointsTo_read_all (Pipeline.ucRefs τ sig) (fun b => ((c : Thread nD τ).1, b)) (V16 m (outs m) c) s') $$ [Hh HSI]
  · isplitl [Hh] <;> iassumption
  icases Hr with ⟨%h, HSI⟩
  imodintro
  isplitr
  · ipureintro
    exact ⟨(h (Proc.devRef .tc main_v82) (Finset.mem_filter.mpr ⟨StableHlo.devRef_mem_tcRefs main_v82, by decide⟩)).trans (V16_v82 m c),
      (h (Proc.devRef .tc main_arg0) (Finset.mem_filter.mpr ⟨StableHlo.devRef_mem_tcRefs main_arg0, by decide⟩)).trans (V16_main_arg0 m (outs m) c),
      (h (Proc.devRef .tc main_arg1) (Finset.mem_filter.mpr ⟨StableHlo.devRef_mem_tcRefs main_arg1, by decide⟩)).trans (V16_main_arg1 m (outs m) c),
      (h (Proc.devRef .tc main_arg2) (Finset.mem_filter.mpr ⟨StableHlo.devRef_mem_tcRefs main_arg2, by decide⟩)).trans (V16_main_arg2 m (outs m) c),
      (h (Proc.devRef .tc main_arg3) (Finset.mem_filter.mpr ⟨StableHlo.devRef_mem_tcRefs main_arg3, by decide⟩)).trans (V16_main_arg3 m (outs m) c),
      (h (Proc.devRef .tc main_arg4) (Finset.mem_filter.mpr ⟨StableHlo.devRef_mem_tcRefs main_arg4, by decide⟩)).trans (V16_main_arg4 m (outs m) c)⟩
  · iexact HSI

set_option backward.isDefEq.respectTransparency.types false in
theorem run_main : θ_run defs (onTc (τ := τ) (main (F := F))) ⟨m, fun _ => 0, ρ⟩ (fun r => ∀ c : Dev nD,
      r.2.mem ((c.tc : Thread nD τ).loc main_v82) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv (fun _ c => Rst c) () (pdats m) (reg0 m) (reg1 m) (reg2 m) (reg3 m) (reg4 m))
    (fun c Q => by
      rewrite [main_chain c, Seg.run_eq_chain,
        show (segs m (outs m) 𝒱₀ L lv (fun _ c => Rst c) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          Prog.lift (.customCall (Pipeline.entry 4) ()) ] from rfl]
      exact .rfl)
    (fun c => by simp only [segs, Seg.pipes_host, Seg.pipes_region, Seg.pipes_nil]; decide)
    0 (fun _ _ => rfl) (fun _ => iprop(emp)) u0 launch_own
    (T₀ := fun c => iprop(StableHlo.held (c : Thread nD τ) (Pipeline.ucRefs τ sig) (V0 m c) ∗ Rst c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (rst_owes c)⟩)
    (hinit := launch_state m ρ) (QY := QY m) (hfin := final_read m) (hQ := fun _ h => h)

end Cert.KernelIdeal.Hand

end
-- ==== Proof.Spec.lean ====
/-
  What both programs compute, as one function of the argument arrays over the extended reals.

  A graph of 100000 nodes carries 64 channels per node. One layer maps node features `h` to
    out[n, j] = Σ_k agg[n, k] · Wl[k, j] + Σ_k h[n, k] · Wr[k, j] + b[j]   (+ prev[n, j])   (then max with 0),
  where `agg = A h` is the mean of `h` over each node's in-neighbours. The network is five such layers:
  the first without the residual term, the middle three with it, the last without residual and without the
  maximum. The aggregation `A` is a parameter: the layers' arithmetic is the same whatever map of node features
  `A` is.
-/
import Idealize.ShloMosaic.PureOps.Ideal
import Idealize.ShloMosaic.Lib.ValueIdx

noncomputable section

namespace Cert.Spec

open Idealize.ShloMosaic Idealize.ShloMosaic.ValueIdx
open scoped BigOperators

/-- Node features: 100000 nodes by 64 channels. -/
abbrev Feat : Type := (⟨2, ![100000, 64]⟩ : Shape).Idx → EReal
/-- The five layers' 64 by 64 weight matrices, stacked. -/
abbrev Wts : Type := (⟨3, ![5, 64, 64]⟩ : Shape).Idx → EReal
/-- The five layers' bias rows, stacked. -/
abbrev Bias : Type := (⟨2, ![5, 64]⟩ : Shape).Idx → EReal
/-- One layer's weight matrix. -/
abbrev Mat : Type := (⟨2, ![64, 64]⟩ : Shape).Idx → EReal
/-- One layer's bias as a 1 by 64 row. -/
abbrev Row : Type := (⟨2, ![1, 64]⟩ : Shape).Idx → EReal

/-- Layer `l`'s matrix out of the stack. -/
def wSlice (l : Fin 5) (w : Wts) : Mat := fun j => w (ix3 l (j 0) (j 1))
/-- Layer `l`'s bias row out of the stack. -/
def bRow (l : Fin 5) (b : Bias) : Row := fun j => b (ix2 l (j 1))

/-- The affine part of a layer at node `i 0`, channel `i 1`:
    `Σ_k agg[n, k] · wl[k, j] + Σ_k h[n, k] · wr[k, j] + b[0, j]`. -/
def linR (wl wr : Mat) (b : Row) (agg h : Feat) : Feat := fun i =>
  (∑ k : Fin 64, agg (ix2 (i 0) k) * wl (ix2 k (i 1))) + (∑ k : Fin 64, h (ix2 (i 0) k) * wr (ix2 k (i 1)))
    + b (ix2 0 (i 1))

/-- The first layer: the affine part, then the maximum with zero. -/
def layerA (wl wr : Mat) (b : Row) (agg h : Feat) : Feat := fun i => max (linR wl wr b agg h i) 0
/-- A middle layer: the affine part plus the residual `prev`, then the maximum with zero. -/
def layerB (wl wr : Mat) (b : Row) (agg h prev : Feat) : Feat := fun i => max (linR wl wr b agg h i + prev i) 0
/-- The last layer: the affine part alone. -/
def layerC (wl wr : Mat) (b : Row) (agg h : Feat) : Feat := linR wl wr b agg h

/-- The features after the first layer. -/
def h1 (A : Feat → Feat) (wl wr : Wts) (b : Bias) (x : Feat) : Feat :=
  layerA (wSlice 0 wl) (wSlice 0 wr) (bRow 0 b) (A x) x
/-- The features after a middle layer `l`, from those before it (which are also its residual). -/
def hNext (l : Fin 5) (A : Feat → Feat) (wl wr : Wts) (b : Bias) (h : Feat) : Feat :=
  layerB (wSlice l wl) (wSlice l wr) (bRow l b) (A h) h h
/-- The whole network. -/
def net (A : Feat → Feat) (wl wr : Wts) (b : Bias) (x : Feat) : Feat :=
  let h4 := hNext 3 A wl wr b (hNext 2 A wl wr b (hNext 1 A wl wr b (h1 A wl wr b x)))
  layerC (wSlice 4 wl) (wSlice 4 wr) (bRow 4 b) (A h4) h4

end Cert.Spec

end
-- ==== Proof.KI.BlockLib.lean ====
/-
  Arithmetic the five regions' block modules share, over the extended reals. A 2000 by 64 block times a 64 by 64 matrix,
  accumulated into zero, read at entry (p, q), is the sum over the 64 channels k of the block's entry (p, k) times the
  matrix's entry (k, q): the contraction runs over the block's second axis and the matrix's first, and the narrowing of
  the operands to sixteen bits is the identity on extended reals. Each region's body, read at an entry of its block,
  is then the layer's formula over the blocks' entries.
-/
import proofs.«406033_j21930103013914_1_alg».proof.Proof.Gen.KernelIdeal.Skeleton
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Cert.KernelIdeal Cert.KernelIdeal.Gen
open Idealize.ShloMosaic.ValueIdx
open scoped BigOperators

/-- The two zero offsets of a whole rank-two block. -/
theorem zero2 : (![0, 0] : Fin 2 → Nat) = fun _ => 0 := funext fun a => by fin_cases a <;> rfl

/-! ## The block product's operand indices, axis by axis -/

theorem dotL_0 (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem dotL_1 (i : S2000x64.Idx) (k : dot_S2000x64_S64x64_S2000x64_1_0_0_1_n_n.contr.Idx) :
    (dot_S2000x64_S64x64_S2000x64_1_0_0_1_n_n.lhsIdx i k 1).val = (k ⟨0, by decide⟩).val :=
  dot_S2000x64_S64x64_S2000x64_1_0_0_1_n_n.lhsIdx_val_of_single rfl i k
theorem dotR_0 (i : S2000x64.Idx) (k : dot_S2000x64_S64x64_S2000x64_1_0_0_1_n_n.contr.Idx) :
    (dot_S2000x64_S64x64_S2000x64_1_0_0_1_n_n.rhsIdx i k 0).val = (k ⟨0, by decide⟩).val :=
  dot_S2000x64_S64x64_S2000x64_1_0_0_1_n_n.rhsIdx_val_of_single rfl i k
theorem dotR_1 (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator at entry (p, q): the sum over the channels of row p times column q. -/
theorem matmul_at (a : FVec Ideal S2000x64 .bf16) (b : FVec Ideal S64x64 .bf16) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact dotL_0 _ _
    | ⟨1, _⟩ => exact (dotL_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (dotR_0 _ _).trans hk
    | ⟨1, _⟩ => exact dotR_1 _ _)
  rw [el, er]

/-! ## Each body's result at an entry of its block -/

/-- The first layer's body at entry (p, q): the two products' sums and the bias, then the maximum with zero. -/
theorem pay0_at (x0 x1 : Vec Ideal S2000x64 .f32) (x3 x4 : Vec Ideal S64x64 .f32) (x5 : Vec Ideal S1x64 .f32)
    (p : Fin 2000) (q : Fin 64) :
    k0_pay1 x0 x1 x3 x4 x5 (ix2 p q)
      = max ((∑ k : Fin 64, x0 (ix2 p k) * x3 (ix2 k q)) + (∑ k : Fin 64, x1 (ix2 p k) * x4 (ix2 k q))
          + x5 (ix2 (0 : Fin 1) q)) 0 := by
  unfold k0_pay1
  simp only [shapeCast_self]
  rw [maximumf_apply, addf_apply, addf_apply, matmul_at, matmul_at, broadcastTo_1b_ab_apply, broadcast_apply]
  simp only [truncf_apply, Ideal.ofBits_def, Ideal.ofBits_zero_f32]

/-- A middle layer's body at entry (p, q): the two products' sums, the bias, the residual, then the maximum with zero. -/
theorem pay1_at (x0 x1 x2 : Vec Ideal S2000x64 .f32) (x3 x4 : Vec Ideal S64x64 .f32) (x5 : Vec Ideal S1x64 .f32)
    (p : Fin 2000) (q : Fin 64) :
    k1_pay1 x0 x1 x3 x4 x5 x2 (ix2 p q)
      = max ((∑ k : Fin 64, x0 (ix2 p k) * x3 (ix2 k q)) + (∑ k : Fin 64, x1 (ix2 p k) * x4 (ix2 k q))
          + x5 (ix2 (0 : Fin 1) q) + x2 (ix2 p q)) 0 := by
  unfold k1_pay1
  simp only [shapeCast_self]
  rw [maximumf_apply, addf_apply, addf_apply, addf_apply, matmul_at, matmul_at, broadcastTo_1b_ab_apply, broadcast_apply]
  simp only [truncf_apply, Ideal.ofBits_def, Ideal.ofBits_zero_f32]

/-- The three middle layers' bodies are one function of their blocks. -/
theorem pay2_eq (x0 x1 x2 : Vec Ideal S2000x64 .f32) (x3 x4 : Vec Ideal S64x64 .f32) (x5 : Vec Ideal S1x64 .f32) :
    k2_pay1 x0 x1 x3 x4 x5 x2 = k1_pay1 x0 x1 x3 x4 x5 x2 := rfl
theorem pay3_eq (x0 x1 x2 : Vec Ideal S2000x64 .f32) (x3 x4 : Vec Ideal S64x64 .f32) (x5 : Vec Ideal S1x64 .f32) :
    k3_pay1 x0 x1 x3 x4 x5 x2 = k1_pay1 x0 x1 x3 x4 x5 x2 := rfl

/-- The last layer's body at entry (p, q): the two products' sums and the bias. -/
theorem pay4_at (x0 x1 : Vec Ideal S2000x64 .f32) (x3 x4 : Vec Ideal S64x64 .f32) (x5 : Vec Ideal S1x64 .f32)
    (p : Fin 2000) (q : Fin 64) :
    k4_pay1 x0 x1 x3 x4 x5 (ix2 p q)
      = (∑ k : Fin 64, x0 (ix2 p k) * x3 (ix2 k q)) + (∑ k : Fin 64, x1 (ix2 p k) * x4 (ix2 k q))
          + x5 (ix2 (0 : Fin 1) q) := by
  unfold k4_pay1
  simp only [shapeCast_self]
  rw [addf_apply, addf_apply, matmul_at, matmul_at, broadcastTo_1b_ab_apply]
  simp only [truncf_apply]

/-! ## A body's block against the layer's function of the whole arrays

  When the feature blocks are the rows `row p` of their arrays and the weight and bias blocks are their whole arrays, the
  body's result at entry (p, q) of its block is the layer's function of the arrays at (row p, q). -/

theorem blockA_at (wl wr : Spec.Mat) (b : Spec.Row) (agg h : Spec.Feat)
    (x0 x1 : Vec Ideal S2000x64 .f32) (x3 x4 : Vec Ideal S64x64 .f32) (x5 : Vec Ideal S1x64 .f32)
    (row : Fin 2000 → Fin 100000)
    (h0 : ∀ (p : Fin 2000) (k : Fin 64), x0 (ix2 p k) = agg (ix2 (row p) k))
    (h1 : ∀ (p : Fin 2000) (k : Fin 64), x1 (ix2 p k) = h (ix2 (row p) k))
    (h3 : ∀ k q : Fin 64, x3 (ix2 k q) = wl (ix2 k q))
    (h4 : ∀ k q : Fin 64, x4 (ix2 k q) = wr (ix2 k q))
    (h5 : ∀ q : Fin 64, x5 (ix2 (0 : Fin 1) q) = b (ix2 (0 : Fin 1) q))
    (p : Fin 2000) (q : Fin 64) :
    k0_pay1 x0 x1 x3 x4 x5 (ix2 p q) = Spec.layerA wl wr b agg h (ix2 (row p) q) := by
  rw [pay0_at]
  simp only [h0, h1, h3, h4, h5]
  rfl

theorem blockB_at (wl wr : Spec.Mat) (b : Spec.Row) (agg h prev : Spec.Feat)
    (x0 x1 x2 : Vec Ideal S2000x64 .f32) (x3 x4 : Vec Ideal S64x64 .f32) (x5 : Vec Ideal S1x64 .f32)
    (row : Fin 2000 → Fin 100000)
    (h0 : ∀ (p : Fin 2000) (k : Fin 64), x0 (ix2 p k) = agg (ix2 (row p) k))
    (h1 : ∀ (p : Fin 2000) (k : Fin 64), x1 (ix2 p k) = h (ix2 (row p) k))
    (h2 : ∀ (p : Fin 2000) (k : Fin 64), x2 (ix2 p k) = prev (ix2 (row p) k))
    (h3 : ∀ k q : Fin 64, x3 (ix2 k q) = wl (ix2 k q))
    (h4 : ∀ k q : Fin 64, x4 (ix2 k q) = wr (ix2 k q))
    (h5 : ∀ q : Fin 64, x5 (ix2 (0 : Fin 1) q) = b (ix2 (0 : Fin 1) q))
    (p : Fin 2000) (q : Fin 64) :
    k1_pay1 x0 x1 x3 x4 x5 x2 (ix2 p q) = Spec.layerB wl wr b agg h prev (ix2 (row p) q) := by
  rw [pay1_at]
  simp only [h0, h1, h2, h3, h4, h5]
  rfl

theorem blockC_at (wl wr : Spec.Mat) (b : Spec.Row) (agg h : Spec.Feat)
    (x0 x1 : Vec Ideal S2000x64 .f32) (x3 x4 : Vec Ideal S64x64 .f32) (x5 : Vec Ideal S1x64 .f32)
    (row : Fin 2000 → Fin 100000)
    (h0 : ∀ (p : Fin 2000) (k : Fin 64), x0 (ix2 p k) = agg (ix2 (row p) k))
    (h1 : ∀ (p : Fin 2000) (k : Fin 64), x1 (ix2 p k) = h (ix2 (row p) k))
    (h3 : ∀ k q : Fin 64, x3 (ix2 k q) = wl (ix2 k q))
    (h4 : ∀ k q : Fin 64, x4 (ix2 k q) = wr (ix2 k q))
    (h5 : ∀ q : Fin 64, x5 (ix2 (0 : Fin 1) q) = b (ix2 (0 : Fin 1) q))
    (p : Fin 2000) (q : Fin 64) :
    k4_pay1 x0 x1 x3 x4 x5 (ix2 p q) = Spec.layerC wl wr b agg h (ix2 (row p) q) := by
  rw [pay4_at]
  simp only [h0, h1, h3, h4, h5]
  rfl

end Cert.KernelIdeal.Hand

end
-- ==== Proof.KI.Block0.lean ====
/-
  What region 0 leaves in its result array, over the extended reals, as one function of the arrays it is entered with.
  At grid point t the body writes rows 2000·t … 2000·t + 1999 of the result; entry (n, j) of that block is the two
  matrix products' sums over the 64 channels plus the bias, then the maximum with zero. The fifty blocks
  tile the 100000 rows, so the array after the run is that function at every index.
-/
import proofs.«406033_j21930103013914_1_alg».proof.Proof.KI.Body0
import proofs.«406033_j21930103013914_1_alg».proof.Proof.KI.BlockLib
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Where each window's block sits -/

/-- The index maps over the grid: the feature windows and the result's window sit at block row t, the weight
    and bias windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the block at point t is row 2000·t + p of the array. -/
def row0 (t : Fin cfg0.N) (p : Fin 2000) : Fin 100000 :=
  ⟨t.val * 2000 + p.val, by have ht := t.isLt; have hN : cfg0.N = 50 := N_0; have hp := p.isLt; omega⟩

variable (V : (c : Dev nD) → (b : Ref sig .tc) → Buf (Elt Ideal) ((c : Thread nD τ).loc b))

/-! ## Each input block, read off its array: a block's coordinate is its index times its size plus the coordinate inside it -/

theorem read0_0 (c : Dev nD) (t : Fin cfg0.N) (p : Fin 2000) (k : Fin 64) :
    (iblk0 V c 0 t : Vec Ideal S2000x64 .f32) (ix2 p k) = (V c main_v18 : Spec.Feat) (ix2 (row0 t p) k) := by
  obtain ⟨e00, e01, -⟩ := idx0 t
  show V c main_v18 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

theorem read0_1 (c : Dev nD) (t : Fin cfg0.N) (p : Fin 2000) (k : Fin 64) :
    (iblk0 V c 1 t : Vec Ideal S2000x64 .f32) (ix2 p k) = (V c main_arg0 : Spec.Feat) (ix2 (row0 t p) k) := by
  obtain ⟨-, -, e10, e11, -⟩ := idx0 t
  show V c main_arg0 (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * k.val = k.val; omega

theorem read0_3 (c : Dev nD) (t : Fin cfg0.N) (k q : Fin 64) :
    (iblk0 V c 3 t : Vec Ideal S64x64 .f32) (ix2 k q) = (V c main_v20 : Spec.Mat) (ix2 k q) := by
  obtain ⟨-, -, -, -, -, -, e30, e31, -⟩ := idx0 t
  show V c main_v20 (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem read0_4 (c : Dev nD) (t : Fin cfg0.N) (k q : Fin 64) :
    (iblk0 V c 4 t : Vec Ideal S64x64 .f32) (ix2 k q) = (V c main_v22 : Spec.Mat) (ix2 k q) := by
  obtain ⟨-, -, -, -, -, -, -, -, e40, e41, -⟩ := idx0 t
  show V c main_v22 (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

theorem read0_5 (c : Dev nD) (t : Fin cfg0.N) (q : Fin 64) :
    (iblk0 V c 5 t : Vec Ideal S1x64 .f32) (ix2 (0 : Fin 1) q) = (V c main_v25 : Spec.Row) (ix2 (0 : Fin 1) q) := by
  obtain ⟨-, -, -, -, -, -, -, -, -, -, e50, e51, -⟩ := idx0 t
  show V c main_v25 (((cfg0.win 5).blk t).view.emb (ix2 (0 : Fin 1) q)) = _
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 64 + 1 * q.val = q.val; omega

/-! ## The block a point writes back, and the cover -/

/-- The body's result at entry (p, q) of point t's block — the two products' sums and the bias, then the maximum with zero — is the layer's function of the
    arrays at the entry's place in the result, row 2000·t + p and channel q. -/
theorem block0_at (c : Dev nD) (t : Fin cfg0.N) (p : Fin 2000) (q : Fin 64) :
    (k0_pay1 (iblk0 V c 0 t) (iblk0 V c 1 t) (iblk0 V c 3 t) (iblk0 V c 4 t) (iblk0 V c 5 t) : Vec Ideal S2000x64 .f32) (ix2 p q)
      = Spec.layerA (V c main_v20) (V c main_v22) (V c main_v25) (V c main_v18) (V c main_arg0)
          (((cfg0.win 6).blk t).view.emb (ix2 p q)) := by
  obtain ⟨-, -, -, -, -, -, -, -, -, -, -, -, e60, e61⟩ := idx0 t
  refine (blockA_at (V c main_v20) (V c main_v22) (V c main_v25) (V c main_v18) (V c main_arg0)
    (iblk0 V c 0 t) (iblk0 V c 1 t) (iblk0 V c 3 t) (iblk0 V c 4 t) (iblk0 V c 5 t) (row0 t)
    (read0_0 V c t) (read0_1 V c t) (read0_3 V c t) (read0_4 V c t) (read0_5 V c t) p q).trans ?_
  refine congrArg _ (funext fun a => Fin.ext ?_)
  match a with
  | ⟨0, _⟩ => show t.val * 2000 + p.val = win0_6.index t (0 : Fin 2) * 2000 + 1 * p.val; omega
  | ⟨1, _⟩ => show q.val = win0_6.index t (1 : Fin 2) * 64 + 1 * q.val; omega

/-- What point t writes back is block t of the layer's function of the arrays the region is entered with. -/
theorem flushed0_eq (c : Dev nD) (t : Fin cfg0.N) :
    (dat0 (F := Ideal) V c).flushed 6 t = ((cfg0.win 6).blk t).view.read (Elt Ideal)
      (Spec.layerA (V c main_v20) (V c main_v22) (V c main_v25) (V c main_v18) (V c main_arg0)) := by
  show (cfg0.win 6).cut (grid0.coords t) ((dat0 (F := Ideal) V c).after 6 t) = _
  rw [after0_6]
  unfold out0
  rw [View.canon_unit_zero zero2]
  simp only [View.ld_unit_zero (S := S2000x64) zero2, View.ld_unit_zero (S := S64x64) zero2, View.ld_unit_zero (S := S1x64) zero2]
  funext j
  have hj0 : (j 0).val < 2000 := (j 0).isLt
  have hj1 : (j 1).val < 64 := (j 1).isLt
  have hj : j = ix2 (⟨(j 0).val, hj0⟩ : Fin 2000) (⟨(j 1).val, hj1⟩ : Fin 64) := by
    funext a
    match a with
    | ⟨0, _⟩ => rfl
    | ⟨1, _⟩ => rfl
  rw [hj]
  exact block0_at V c t _ _

/-- An index of the result is in point t's block iff each coordinate is in the block's range on its axis. -/
theorem mem_blk0 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v26).slice (win0_6.rect t)).set ↔ _
  rw [View.set_slice_whole, Rect.mem_set_unit]
  exact Iff.rfl

/-- Row r of the result is in the block of point r / 2000. -/
theorem cover0_6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  refine ⟨⟨(i 0).val / 2000, by omega⟩, flush0_6 _, ?_⟩
  obtain ⟨-, -, -, -, -, -, -, -, -, -, -, -, e60, e61⟩ := idx0 ⟨(i 0).val / 2000, by omega⟩
  rw [mem_blk0]
  intro a
  match a with
  | ⟨0, _⟩ => show win0_6.index ⟨(i 0).val / 2000, _⟩ (0 : Fin 2) * 2000 ≤ (i 0).val ∧ (i 0).val < win0_6.index ⟨(i 0).val / 2000, _⟩ (0 : Fin 2) * 2000 + 2000; rw [e60]; show (i 0).val / 2000 * 2000 ≤ (i 0).val ∧ (i 0).val < (i 0).val / 2000 * 2000 + 2000; omega
  | ⟨1, _⟩ => show win0_6.index ⟨(i 0).val / 2000, _⟩ (1 : Fin 2) * 64 ≤ (i 1).val ∧ (i 1).val < win0_6.index ⟨(i 0).val / 2000, _⟩ (1 : Fin 2) * 64 + 64; rw [e61]; omega

/-- The result array after the run is the layer's function of the arrays the region is entered with. -/
theorem arrAt0 (V : (c : Dev nD) → (b : Ref sig .tc) → Buf (Elt Ideal) ((c : Thread nD τ).loc b)) (c : Dev nD) :
    ((dat0 (F := Ideal) V c).arrAt 6 cfg0.N : Spec.Feat) = Spec.layerA (V c main_v20) (V c main_v22) (V c main_v25) (V c main_v18) (V c main_arg0) :=
  (dat0 (F := Ideal) V c).arrAt_eq_of_cover 6 _ (fun t _ => flushed0_eq V c t) cover0_6

end Cert.KernelIdeal.Hand

end
-- ==== Proof.KI.Block1.lean ====
/-
  What region 1 leaves in its result array, over the extended reals, as one function of the arrays it is entered with.
  At grid point t the body writes rows 2000·t … 2000·t + 1999 of the result; entry (n, j) of that block is the two
  matrix products' sums over the 64 channels plus the bias plus the residual, then the maximum with zero. The fifty blocks
  tile the 100000 rows, so the array after the run is that function at every index.
-/
import proofs.«406033_j21930103013914_1_alg».proof.Proof.KI.Body1
import proofs.«406033_j21930103013914_1_alg».proof.Proof.KI.BlockLib
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Where each window's block sits -/

/-- The index maps over the grid: the feature windows and the result's window sit at block row t, the weight
    and bias windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the block at point t is row 2000·t + p of the array. -/
def row1 (t : Fin cfg1.N) (p : Fin 2000) : Fin 100000 :=
  ⟨t.val * 2000 + p.val, by have ht := t.isLt; have hN : cfg1.N = 50 := N_1; have hp := p.isLt; omega⟩

variable (V : (c : Dev nD) → (b : Ref sig .tc) → Buf (Elt Ideal) ((c : Thread nD τ).loc b))

/-! ## Each input block, read off its array: a block's coordinate is its index times its size plus the coordinate inside it -/

theorem read1_0 (c : Dev nD) (t : Fin cfg1.N) (p : Fin 2000) (k : Fin 64) :
    (iblk1 V c 0 t : Vec Ideal S2000x64 .f32) (ix2 p k) = (V c main_v32 : Spec.Feat) (ix2 (row1 t p) k) := by
  obtain ⟨e00, e01, -⟩ := idx1 t
  show V c main_v32 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * k.val = k.val; omega

theorem read1_1 (c : Dev nD) (t : Fin cfg1.N) (p : Fin 2000) (k : Fin 64) :
    (iblk1 V c 1 t : Vec Ideal S2000x64 .f32) (ix2 p k) = (V c main_v26 : Spec.Feat) (ix2 (row1 t p) k) := by
  obtain ⟨-, -, e10, e11, -⟩ := idx1 t
  show V c main_v26 (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 64 + 1 * k.val = k.val; omega

theorem read1_2 (c : Dev nD) (t : Fin cfg1.N) (p : Fin 2000) (k : Fin 64) :
    (iblk1 V c 2 t : Vec Ideal S2000x64 .f32) (ix2 p k) = (V c main_v26 : Spec.Feat) (ix2 (row1 t p) k) := by
  obtain ⟨-, -, -, -, e20, e21, -⟩ := idx1 t
  show V c main_v26 (((cfg1.win 2).blk t).view.emb (ix2 p k)) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 64 + 1 * k.val = k.val; omega

theorem read1_3 (c : Dev nD) (t : Fin cfg1.N) (k q : Fin 64) :
    (iblk1 V c 3 t : Vec Ideal S64x64 .f32) (ix2 k q) = (V c main_v34 : Spec.Mat) (ix2 k q) := by
  obtain ⟨-, -, -, -, -, -, e30, e31, -⟩ := idx1 t
  show V c main_v34 (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

theorem read1_4 (c : Dev nD) (t : Fin cfg1.N) (k q : Fin 64) :
    (iblk1 V c 4 t : Vec Ideal S64x64 .f32) (ix2 k q) = (V c main_v36 : Spec.Mat) (ix2 k q) := by
  obtain ⟨-, -, -, -, -, -, -, -, e40, e41, -⟩ := idx1 t
  show V c main_v36 (((cfg1.win 4).blk t).view.emb (ix2 k q)) = _
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

theorem read1_5 (c : Dev nD) (t : Fin cfg1.N) (q : Fin 64) :
    (iblk1 V c 5 t : Vec Ideal S1x64 .f32) (ix2 (0 : Fin 1) q) = (V c main_v39 : Spec.Row) (ix2 (0 : Fin 1) q) := by
  obtain ⟨-, -, -, -, -, -, -, -, -, -, e50, e51, -⟩ := idx1 t
  show V c main_v39 (((cfg1.win 5).blk t).view.emb (ix2 (0 : Fin 1) q)) = _
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 64 + 1 * q.val = q.val; omega

/-! ## The block a point writes back, and the cover -/

/-- The body's result at entry (p, q) of point t's block — the two products' sums, the bias and the residual, then the maximum with zero — is the layer's function of the
    arrays at the entry's place in the result, row 2000·t + p and channel q. -/
theorem block1_at (c : Dev nD) (t : Fin cfg1.N) (p : Fin 2000) (q : Fin 64) :
    (k1_pay1 (iblk1 V c 0 t) (iblk1 V c 1 t) (iblk1 V c 3 t) (iblk1 V c 4 t) (iblk1 V c 5 t) (iblk1 V c 2 t) : Vec Ideal S2000x64 .f32) (ix2 p q)
      = Spec.layerB (V c main_v34) (V c main_v36) (V c main_v39) (V c main_v32) (V c main_v26) (V c main_v26)
          (((cfg1.win 6).blk t).view.emb (ix2 p q)) := by
  obtain ⟨-, -, -, -, -, -, -, -, -, -, -, -, e60, e61⟩ := idx1 t
  refine (blockB_at (V c main_v34) (V c main_v36) (V c main_v39) (V c main_v32) (V c main_v26) (V c main_v26)
    (iblk1 V c 0 t) (iblk1 V c 1 t) (iblk1 V c 2 t) (iblk1 V c 3 t) (iblk1 V c 4 t) (iblk1 V c 5 t) (row1 t)
    (read1_0 V c t) (read1_1 V c t) (read1_2 V c t) (read1_3 V c t) (read1_4 V c t) (read1_5 V c t) p q).trans ?_
  refine congrArg _ (funext fun a => Fin.ext ?_)
  match a with
  | ⟨0, _⟩ => show t.val * 2000 + p.val = win1_6.index t (0 : Fin 2) * 2000 + 1 * p.val; omega
  | ⟨1, _⟩ => show q.val = win1_6.index t (1 : Fin 2) * 64 + 1 * q.val; omega

/-- What point t writes back is block t of the layer's function of the arrays the region is entered with. -/
theorem flushed1_eq (c : Dev nD) (t : Fin cfg1.N) :
    (dat1 (F := Ideal) V c).flushed 6 t = ((cfg1.win 6).blk t).view.read (Elt Ideal)
      (Spec.layerB (V c main_v34) (V c main_v36) (V c main_v39) (V c main_v32) (V c main_v26) (V c main_v26)) := by
  show (cfg1.win 6).cut (grid1.coords t) ((dat1 (F := Ideal) V c).after 6 t) = _
  rw [after1_6]
  unfold out1
  rw [View.canon_unit_zero zero2]
  simp only [View.ld_unit_zero (S := S2000x64) zero2, View.ld_unit_zero (S := S64x64) zero2, View.ld_unit_zero (S := S1x64) zero2]
  funext j
  have hj0 : (j 0).val < 2000 := (j 0).isLt
  have hj1 : (j 1).val < 64 := (j 1).isLt
  have hj : j = ix2 (⟨(j 0).val, hj0⟩ : Fin 2000) (⟨(j 1).val, hj1⟩ : Fin 64) := by
    funext a
    match a with
    | ⟨0, _⟩ => rfl
    | ⟨1, _⟩ => rfl
  rw [hj]
  exact block1_at V c t _ _

/-- An index of the result is in point t's block iff each coordinate is in the block's range on its axis. -/
theorem mem_blk1 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v40).slice (win1_6.rect t)).set ↔ _
  rw [View.set_slice_whole, Rect.mem_set_unit]
  exact Iff.rfl

/-- Row r of the result is in the block of point r / 2000. -/
theorem cover1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 50 := N_1
  refine ⟨⟨(i 0).val / 2000, by omega⟩, flush1_6 _, ?_⟩
  obtain ⟨-, -, -, -, -, -, -, -, -, -, -, -, e60, e61⟩ := idx1 ⟨(i 0).val / 2000, by omega⟩
  rw [mem_blk1]
  intro a
  match a with
  | ⟨0, _⟩ => show win1_6.index ⟨(i 0).val / 2000, _⟩ (0 : Fin 2) * 2000 ≤ (i 0).val ∧ (i 0).val < win1_6.index ⟨(i 0).val / 2000, _⟩ (0 : Fin 2) * 2000 + 2000; rw [e60]; show (i 0).val / 2000 * 2000 ≤ (i 0).val ∧ (i 0).val < (i 0).val / 2000 * 2000 + 2000; omega
  | ⟨1, _⟩ => show win1_6.index ⟨(i 0).val / 2000, _⟩ (1 : Fin 2) * 64 ≤ (i 1).val ∧ (i 1).val < win1_6.index ⟨(i 0).val / 2000, _⟩ (1 : Fin 2) * 64 + 64; rw [e61]; omega

/-- The result array after the run is the layer's function of the arrays the region is entered with. -/
theorem arrAt1 (V : (c : Dev nD) → (b : Ref sig .tc) → Buf (Elt Ideal) ((c : Thread nD τ).loc b)) (c : Dev nD) :
    ((dat1 (F := Ideal) V c).arrAt 6 cfg1.N : Spec.Feat) = Spec.layerB (V c main_v34) (V c main_v36) (V c main_v39) (V c main_v32) (V c main_v26) (V c main_v26) :=
  (dat1 (F := Ideal) V c).arrAt_eq_of_cover 6 _ (fun t _ => flushed1_eq V c t) cover1_6

end Cert.KernelIdeal.Hand

end
-- ==== Proof.KI.Block2.lean ====
/-
  What region 2 leaves in its result array, over the extended reals, as one function of the arrays it is entered with.
  At grid point t the body writes rows 2000·t … 2000·t + 1999 of the result; entry (n, j) of that block is the two
  matrix products' sums over the 64 channels plus the bias plus the residual, then the maximum with zero. The fifty blocks
  tile the 100000 rows, so the array after the run is that function at every index.
-/
import proofs.«406033_j21930103013914_1_alg».proof.Proof.KI.Body2
import proofs.«406033_j21930103013914_1_alg».proof.Proof.KI.BlockLib
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Where each window's block sits -/

/-- The index maps over the grid: the feature windows and the result's window sit at block row t, the weight
    and bias windows at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the block at point t is row 2000·t + p of the array. -/
def row2 (t : Fin cfg2.N) (p : Fin 2000) : Fin 100000 :=
  ⟨t.val * 2000 + p.val, by have ht := t.isLt; have hN : cfg2.N = 50 := N_2; have hp := p.isLt; omega⟩

variable (V : (c : Dev nD) → (b : Ref sig .tc) → Buf (Elt Ideal) ((c : Thread nD τ).loc b))

/-! ## Each input block, read off its array: a block's coordinate is its index times its size plus the coordinate inside it -/

theorem read2_0 (c : Dev nD) (t : Fin cfg2.N) (p : Fin 2000) (k : Fin 64) :
    (iblk2 V c 0 t : Vec Ideal S2000x64 .f32) (ix2 p k) = (V c main_v46 : Spec.Feat) (ix2 (row2 t p) k) := by
  obtain ⟨e00, e01, -⟩ := idx2 t
  show V c main_v46 (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * k.val = k.val; omega

theorem read2_1 (c : Dev nD) (t : Fin cfg2.N) (p : Fin 2000) (k : Fin 64) :
    (iblk2 V c 1 t : Vec Ideal S2000x64 .f32) (ix2 p k) = (V c main_v40 : Spec.Feat) (ix2 (row2 t p) k) := by
  obtain ⟨-, -, e10, e11, -⟩ := idx2 t
  show V c main_v40 (((cfg2.win 1).blk t).view.emb (ix2 p k)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 64 + 1 * k.val = k.val; omega

theorem read2_2 (c : Dev nD) (t : Fin cfg2.N) (p : Fin 2000) (k : Fin 64) :
    (iblk2 V c 2 t : Vec Ideal S2000x64 .f32) (ix2 p k) = (V c main_v40 : Spec.Feat) (ix2 (row2 t p) k) := by
  obtain ⟨-, -, -, -, e20, e21, -⟩ := idx2 t
  show V c main_v40 (((cfg2.win 2).blk t).view.emb (ix2 p k)) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 64 + 1 * k.val = k.val; omega

theorem read2_3 (c : Dev nD) (t : Fin cfg2.N) (k q : Fin 64) :
    (iblk2 V c 3 t : Vec Ideal S64x64 .f32) (ix2 k q) = (V c main_v48 : Spec.Mat) (ix2 k q) := by
  obtain ⟨-, -, -, -, -, -, e30, e31, -⟩ := idx2 t
  show V c main_v48 (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

theorem read2_4 (c : Dev nD) (t : Fin cfg2.N) (k q : Fin 64) :
    (iblk2 V c 4 t : Vec Ideal S64x64 .f32) (ix2 k q) = (V c main_v50 : Spec.Mat) (ix2 k q) := by
  obtain ⟨-, -, -, -, -, -, -, -, e40, e41, -⟩ := idx2 t
  show V c main_v50 (((cfg2.win 4).blk t).view.emb (ix2 k q)) = _
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

theorem read2_5 (c : Dev nD) (t : Fin cfg2.N) (q : Fin 64) :
    (iblk2 V c 5 t : Vec Ideal S1x64 .f32) (ix2 (0 : Fin 1) q) = (V c main_v53 : Spec.Row) (ix2 (0 : Fin 1) q) := by
  obtain ⟨-, -, -, -, -, -, -, -, -, -, e50, e51, -⟩ := idx2 t
  show V c main_v53 (((cfg2.win 5).blk t).view.emb (ix2 (0 : Fin 1) q)) = _
  refine congrArg _ (funext fun a => Fin.ext ?_)
  match a with
  | ⟨0, _⟩ => show win2_5.index t (0 : Fin 2) * 1 + 1 * (0 : Fin 1).val = (0 : Fin 1).val; omega
  | ⟨1, _⟩ => show win2_5.index t (1 : Fin 2) * 64 + 1 * q.val = q.val; omega

/-! ## The block a point writes back, and the cover -/

/-- The body's result at entry (p, q) of point t's block — the two products' sums, the bias and the residual, then the maximum with zero — is the layer's function of the
    arrays at the entry's place in the result, row 2000·t + p and channel q. -/
theorem block2_at (c : Dev nD) (t : Fin cfg2.N) (p : Fin 2000) (q : Fin 64) :
    (k2_pay1 (iblk2 V c 0 t) (iblk2 V c 1 t) (iblk2 V c 3 t) (iblk2 V c 4 t) (iblk2 V c 5 t) (iblk2 V c 2 t) : Vec Ideal S2000x64 .f32) (ix2 p q)
      = Spec.layerB (V c main_v48) (V c main_v50) (V c main_v53) (V c main_v46) (V c main_v40) (V c main_v40)
          (((cfg2.win 6).blk t).view.emb (ix2 p q)) := by
  obtain ⟨-, -, -, -, -, -, -, -, -, -, -, -, e60, e61⟩ := idx2 t
  refine ((congrFun (pay2_eq (iblk2 V c 0 t) (iblk2 V c 1 t) (iblk2 V c 2 t) (iblk2 V c 3 t) (iblk2 V c 4 t) (iblk2 V c 5 t)) (ix2 p q)).trans <| blockB_at (V c main_v48) (V c main_v50) (V c main_v53) (V c main_v46) (V c main_v40) (V c main_v40)
    (iblk2 V c 0 t) (iblk2 V c 1 t) (iblk2 V c 2 t) (iblk2 V c 3 t) (iblk2 V c 4 t) (iblk2 V c 5 t) (row2 t)
    (read2_0 V c t) (read2_1 V c t) (read2_2 V c t) (read2_3 V c t) (read2_4 V c t) (read2_5 V c t) p q).trans ?_
  refine congrArg _ (funext fun a => Fin.ext ?_)
  match a with
  | ⟨0, _⟩ => show t.val * 2000 + p.val = win2_6.index t (0 : Fin 2) * 2000 + 1 * p.val; omega
  | ⟨1, _⟩ => show q.val = win2_6.index t (1 : Fin 2) * 64 + 1 * q.val; omega

/-- What point t writes back is block t of the layer's function of the arrays the region is entered with. -/
theorem flushed2_eq (c : Dev nD) (t : Fin cfg2.N) :
    (dat2 (F := Ideal) V c).flushed 6 t = ((cfg2.win 6).blk t).view.read (Elt Ideal)
      (Spec.layerB (V c main_v48) (V c main_v50) (V c main_v53) (V c main_v46) (V c main_v40) (V c main_v40)) := by
  show (cfg2.win 6).cut (grid2.coords t) ((dat2 (F := Ideal) V c).after 6 t) = _
  rw [after2_6]
  unfold out2
  rw [View.canon_unit_zero zero2]
  simp only [View.ld_unit_zero (S := S2000x64) zero2, View.ld_unit_zero (S := S64x64) zero2, View.ld_unit_zero (S := S1x64) zero2]
  funext j
  have hj0 : (j 0).val < 2000 := (j 0).isLt
  have hj1 : (j 1).val < 64 := (j 1).isLt
  have hj : j = ix2 (⟨(j 0).val, hj0⟩ : Fin 2000) (⟨(j 1).val, hj1⟩ : Fin 64) := by
    funext a
    match a with
    | ⟨0, _⟩ => rfl
    | ⟨1, _⟩ => rfl
  rw [hj]
  exact block2_at V c t _ _

/-- An index of the result is in point t's block iff each coordinate is in the block's range on its axis. -/
theorem mem_blk2 (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v54).slice (win2_6.rect t)).set ↔ _
  rw [View.set_slice_whole, Rect.mem_set_unit]
  exact Iff.rfl

/-- Row r of the result is in the block of point r / 2000. -/
theorem cover2_6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 50 := N_2
  refine ⟨⟨(i 0).val / 2000, by omega⟩, flush2_6 _, ?_⟩
  obtain ⟨-, -, -, -, -, -, -, -, -, -, -, -, e60, e61⟩ := idx2 ⟨(i 0).val / 2000, by omega⟩
  rw [mem_blk2]
  intro a
  match a with
  | ⟨0, _⟩ => show win2_6.index ⟨(i 0).val / 2000, _⟩ (0 : Fin 2) * 2000 ≤ (i 0).val ∧ (i 0).val < win2_6.index ⟨(i 0).val / 2000, _⟩ (0 : Fin 2) * 2000 + 2000; rw [e60]; show (i 0).val / 2000 * 2000 ≤ (i 0).val ∧ (i 0).val < (i 0).val / 2000 * 2000 + 2000; omega
  | ⟨1, _⟩ => show win2_6.index ⟨(i 0).val / 2000, _⟩ (1 : Fin 2) * 64 ≤ (i 1).val ∧ (i 1).val < win2_6.index ⟨(i 0).val / 2000, _⟩ (1 : Fin 2) * 64 + 64; rw [e61]; omega

/-- The result array after the run is the layer's function of the arrays the region is entered with. -/
theorem arrAt2 (V : (c : Dev nD) → (b : Ref sig .tc) → Buf (Elt Ideal) ((c : Thread nD τ).loc b)) (c : Dev nD) :
    ((dat2 (F := Ideal) V c).arrAt 6 cfg2.N : Spec.Feat) = Spec.layerB (V c main_v48) (V c main_v50) (V c main_v53) (V c main_v46) (V c main_v40) (V c main_v40) :=
  (dat2 (F := Ideal) V c).arrAt_eq_of_cover 6 _ (fun t _ => flushed2_eq V c t) cover2_6

end Cert.KernelIdeal.Hand

end
-- ==== Proof.KI.Block3.lean ====
/-
  What region 3 leaves in its result array, over the extended reals, as one function of the arrays it is entered with.
  At grid point t the body writes rows 2000·t … 2000·t + 1999 of the result; entry (n, j) of that block is the two
  matrix products' sums over the 64 channels plus the bias plus the residual, then the maximum with zero. The fifty blocks
  tile the 100000 rows, so the array after the run is that function at every index.
-/
import proofs.«406033_j21930103013914_1_alg».proof.Proof.KI.Body3
import proofs.«406033_j21930103013914_1_alg».proof.Proof.KI.BlockLib
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Where each window's block sits -/

/-- The index maps over the grid: the feature windows and the result's window sit at block row t, the weight
    and bias windows at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of the block at point t is row 2000·t + p of the array. -/
def row3 (t : Fin cfg3.N) (p : Fin 2000) : Fin 100000 :=
  ⟨t.val * 2000 + p.val, by have ht := t.isLt; have hN : cfg3.N = 50 := N_3; have hp := p.isLt; omega⟩

variable (V : (c : Dev nD) → (b : Ref sig .tc) → Buf (Elt Ideal) ((c : Thread nD τ).loc b))

/-! ## Each input block, read off its array: a block's coordinate is its index times its size plus the coordinate inside it -/

theorem read3_0 (c : Dev nD) (t : Fin cfg3.N) (p : Fin 2000) (k : Fin 64) :
    (iblk3 V c 0 t : Vec Ideal S2000x64 .f32) (ix2 p k) = (V c main_v60 : Spec.Feat) (ix2 (row3 t p) k) := by
  obtain ⟨e00, e01, -⟩ := idx3 t
  show V c main_v60 (((cfg3.win 0).blk t).view.emb (ix2 p k)) = _
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 64 + 1 * k.val = k.val; omega

theorem read3_1 (c : Dev nD) (t : Fin cfg3.N) (p : Fin 2000) (k : Fin 64) :
    (iblk3 V c 1 t : Vec Ideal S2000x64 .f32) (ix2 p k) = (V c main_v54 : Spec.Feat) (ix2 (row3 t p) k) := by
  obtain ⟨-, -, e10, e11, -⟩ := idx3 t
  show V c main_v54 (((cfg3.win 1).blk t).view.emb (ix2 p k)) = _
  refine congrArg _ (funext fun a => Fin.ext ?_)
  match a with
  | ⟨0, _⟩ => show win3_1.index t (0 : Fin 2) * 2000 + 1 * p.val = t.val * 2000 + p.val; omega
  | ⟨1, _⟩ => show win3_1.index t (1 : Fin 2) * 64 + 1 * k.val = k.val; omega

theorem read3_2 (c : Dev nD) (t : Fin cfg3.N) (p : Fin 2000) (k : Fin 64) :
    (iblk3 V c 2 t : Vec Ideal S2000x64 .f32) (ix2 p k) = (V c main_v54 : Spec.Feat) (ix2 (row3 t p) k) := by
  obtain ⟨-, -, -, -, e20, e21, -⟩ := idx3 t
  show V c main_v54 (((cfg3.win 2).blk t).view.emb (ix2 p k)) = _
  refine congrArg _ (funext fun a => Fin.ext ?_)
  match a with
  | ⟨0, _⟩ => show win3_2.index t (0 : Fin 2) * 2000 + 1 * p.val = t.val * 2000 + p.val; omega
  | ⟨1, _⟩ => show win3_2.index t (1 : Fin 2) * 64 + 1 * k.val = k.val; omega

theorem read3_3 (c : Dev nD) (t : Fin cfg3.N) (k q : Fin 64) :
    (iblk3 V c 3 t : Vec Ideal S64x64 .f32) (ix2 k q) = (V c main_v62 : Spec.Mat) (ix2 k q) := by
  obtain ⟨-, -, -, -, -, -, e30, e31, -⟩ := idx3 t
  show V c main_v62 (((cfg3.win 3).blk t).view.emb (ix2 k q)) = _
  refine congrArg _ (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega

theorem read3_4 (c : Dev nD) (t : Fin cfg3.N) (k q : Fin 64) :
    (iblk3 V c 4 t : Vec Ideal S64x64 .f32) (ix2 k q) = (V c main_v64 : Spec.Mat) (ix2 k q) := by
  obtain ⟨-, -, -, -, -, -, -, -, e40, e41, -⟩ := idx3 t
  show V c main_v64 (((cfg3.win 4).blk t).view.emb (ix2 k q)) = _
  refine congrArg _ (funext fun a => Fin.ext ?_)
  match a with
  | ⟨0, _⟩ => show win3_4.index t (0 : Fin 2) * 64 + 1 * k.val = k.val; omega
  | ⟨1, _⟩ => show win3_4.index t (1 : Fin 2) * 64 + 1 * q.val = q.val; omega

theorem read3_5 (c : Dev nD) (t : Fin cfg3.N) (q : Fin 64) :
    (iblk3 V c 5 t : Vec Ideal S1x64 .f32) (ix2 (0 : Fin 1) q) = (V c main_v67 : Spec.Row) (ix2 (0 : Fin 1) q) := by
  obtain ⟨-, -, -, -, -, -, -, -, -, -, e50, e51, -⟩ := idx3 t
  show V c main_v67 (((cfg3.win 5).blk t).view.emb (ix2 (0 : Fin 1) q)) = _
  refine congrArg _ (funext fun a => Fin.ext ?_)
  match a with
  | ⟨0, _⟩ => show win3_5.index t (0 : Fin 2) * 1 + 1 * (0 : Fin 1).val = (0 : Fin 1).val; omega
  | ⟨1, _⟩ => show win3_5.index t (1 : Fin 2) * 64 + 1 * q.val = q.val; omega

/-! ## The block a point writes back, and the cover -/

/-- The body's result at entry (p, q) of point t's block — the two products' sums, the bias and the residual, then the maximum with zero — is the layer's function of the
    arrays at the entry's place in the result, row 2000·t + p and channel q. -/
theorem block3_at (c : Dev nD) (t : Fin cfg3.N) (p : Fin 2000) (q : Fin 64) :
    (k3_pay1 (iblk3 V c 0 t) (iblk3 V c 1 t) (iblk3 V c 3 t) (iblk3 V c 4 t) (iblk3 V c 5 t) (iblk3 V c 2 t) : Vec Ideal S2000x64 .f32) (ix2 p q)
      = Spec.layerB (V c main_v62) (V c main_v64) (V c main_v67) (V c main_v60) (V c main_v54) (V c main_v54)
          (((cfg3.win 6).blk t).view.emb (ix2 p q)) := by
  obtain ⟨-, -, -, -, -, -, -, -, -, -, -, -, e60, e61⟩ := idx3 t
  refine ((congrFun (pay3_eq (iblk3 V c 0 t) (iblk3 V c 1 t) (iblk3 V c 2 t) (iblk3 V c 3 t) (iblk3 V c 4 t) (iblk3 V c 5 t)) (ix2 p q)).trans <| blockB_at (V c main_v62) (V c main_v64) (V c main_v67) (V c main_v60) (V c main_v54) (V c main_v54)
    (iblk3 V c 0 t) (iblk3 V c 1 t) (iblk3 V c 2 t) (iblk3 V c 3 t) (iblk3 V c 4 t) (iblk3 V c 5 t) (row3 t)
    (read3_0 V c t) (read3_1 V c t) (read3_2 V c t) (read3_3 V c t) (read3_4 V c t) (read3_5 V c t) p q).trans ?_
  refine congrArg _ (funext fun a => Fin.ext ?_)
  match a with
  | ⟨0, _⟩ => show t.val * 2000 + p.val = win3_6.index t (0 : Fin 2) * 2000 + 1 * p.val; omega
  | ⟨1, _⟩ => show q.val = win3_6.index t (1 : Fin 2) * 64 + 1 * q.val; omega

/-- What point t writes back is block t of the layer's function of the arrays the region is entered with. -/
theorem flushed3_eq (c : Dev nD) (t : Fin cfg3.N) :
    (dat3 (F := Ideal) V c).flushed 6 t = ((cfg3.win 6).blk t).view.read (Elt Ideal)
      (Spec.layerB (V c main_v62) (V c main_v64) (V c main_v67) (V c main_v60) (V c main_v54) (V c main_v54)) := by
  show (cfg3.win 6).cut (grid3.coords t) ((dat3 (F := Ideal) V c).after 6 t) = _
  rw [after3_6]
  unfold out3
  rw [View.canon_unit_zero zero2]
  simp only [View.ld_unit_zero (S := S2000x64) zero2, View.ld_unit_zero (S := S64x64) zero2, View.ld_unit_zero (S := S1x64) zero2]
  funext j
  have hj0 : (j 0).val < 2000 := (j 0).isLt
  have hj1 : (j 1).val < 64 := (j 1).isLt
  have hj : j = ix2 (⟨(j 0).val, hj0⟩ : Fin 2000) (⟨(j 1).val, hj1⟩ : Fin 64) := by
    funext a
    match a with
    | ⟨0, _⟩ => rfl
    | ⟨1, _⟩ => rfl
  rw [hj]
  exact block3_at V c t _ _

/-- An index of the result is in point t's block iff each coordinate is in the block's range on its axis. -/
theorem mem_blk3 (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v68).slice (win3_6.rect t)).set ↔ _
  rw [View.set_slice_whole, Rect.mem_set_unit]
  exact Iff.rfl

/-- Row r of the result is in the block of point r / 2000. -/
theorem cover3_6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 50 := N_3
  refine ⟨⟨(i 0).val / 2000, by omega⟩, flush3_6 _, ?_⟩
  obtain ⟨-, -, -, -, -, -, -, -, -, -, -, -, e60, e61⟩ := idx3 ⟨(i 0).val / 2000, by omega⟩
  rw [mem_blk3]
  intro a
  match a with
  | ⟨0, _⟩ => show win3_6.index ⟨(i 0).val / 2000, _⟩ (0 : Fin 2) * 2000 ≤ (i 0).val ∧ (i 0).val < win3_6.index ⟨(i 0).val / 2000, _⟩ (0 : Fin 2) * 2000 + 2000; rw [e60]; show (i 0).val / 2000 * 2000 ≤ (i 0).val ∧ (i 0).val < (i 0).val / 2000 * 2000 + 2000; omega
  | ⟨1, _⟩ => show win3_6.index ⟨(i 0).val / 2000, _⟩ (1 : Fin 2) * 64 ≤ (i 1).val ∧ (i 1).val < win3_6.index ⟨(i 0).val / 2000, _⟩ (1 : Fin 2) * 64 + 64; rw [e61]; omega

/-- The result array after the run is the layer's function of the arrays the region is entered with. -/
theorem arrAt3 (V : (c : Dev nD) → (b : Ref sig .tc) → Buf (Elt Ideal) ((c : Thread nD τ).loc b)) (c : Dev nD) :
    ((dat3 (F := Ideal) V c).arrAt 6 cfg3.N : Spec.Feat) = Spec.layerB (V c main_v62) (V c main_v64) (V c main_v67) (V c main_v60) (V c main_v54) (V c main_v54) :=
  (dat3 (F := Ideal) V c).arrAt_eq_of_cover 6 _ (fun t _ => flushed3_eq V c t) cover3_6

end Cert.KernelIdeal.Hand

end
-- ==== Proof.KI.Block4.lean ====
/-
  What region 4 leaves in its result array, over the extended reals, as one function of the arrays it is entered with.
  At grid point t the body writes rows 2000·t … 2000·t + 1999 of the result; entry (n, j) of that block is the two
  matrix products' sums over the 64 channels plus the bias. The fifty blocks
  tile the 100000 rows, so the array after the run is that function at every index.
-/
import proofs.«406033_j21930103013914_1_alg».proof.Proof.KI.Body4
import proofs.«406033_j21930103013914_1_alg».proof.Proof.KI.BlockLib
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Where each window's block sits -/

/-- The index maps over the grid: the feature windows and the result's window sit at block row t, the weight
    and bias windows at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of the block at point t is row 2000·t + p of the array. -/
def row4 (t : Fin cfg4.N) (p : Fin 2000) : Fin 100000 :=
  ⟨t.val * 2000 + p.val, by have ht := t.isLt; have hN : cfg4.N = 50 := N_4; have hp := p.isLt; omega⟩

variable (V : (c : Dev nD) → (b : Ref sig .tc) → Buf (Elt Ideal) ((c : Thread nD τ).loc b))

/-! ## Each input block, read off its array: a block's coordinate is its index times its size plus the coordinate inside it -/

theorem read4_0 (c : Dev nD) (t : Fin cfg4.N) (p : Fin 2000) (k : Fin 64) :
    (iblk4 V c 0 t : Vec Ideal S2000x64 .f32) (ix2 p k) = (V c main_v74 : Spec.Feat) (ix2 (row4 t p) k) := by
  obtain ⟨e00, e01, -⟩ := idx4 t
  show V c main_v74 (((cfg4.win 0).blk t).view.emb (ix2 p k)) = _
  refine congrArg _ (funext fun a => Fin.ext ?_)
  match a with
  | ⟨0, _⟩ => show win4_0.index t (0 : Fin 2) * 2000 + 1 * p.val = t.val * 2000 + p.val; omega
  | ⟨1, _⟩ => show win4_0.index t (1 : Fin 2) * 64 + 1 * k.val = k.val; omega

theorem read4_1 (c : Dev nD) (t : Fin cfg4.N) (p : Fin 2000) (k : Fin 64) :
    (iblk4 V c 1 t : Vec Ideal S2000x64 .f32) (ix2 p k) = (V c main_v68 : Spec.Feat) (ix2 (row4 t p) k) := by
  obtain ⟨-, -, e10, e11, -⟩ := idx4 t
  show V c main_v68 (((cfg4.win 1).blk t).view.emb (ix2 p k)) = _
  refine congrArg _ (funext fun a => Fin.ext ?_)
  match a with
  | ⟨0, _⟩ => show win4_1.index t (0 : Fin 2) * 2000 + 1 * p.val = t.val * 2000 + p.val; omega
  | ⟨1, _⟩ => show win4_1.index t (1 : Fin 2) * 64 + 1 * k.val = k.val; omega

theorem read4_3 (c : Dev nD) (t : Fin cfg4.N) (k q : Fin 64) :
    (iblk4 V c 3 t : Vec Ideal S64x64 .f32) (ix2 k q) = (V c main_v76 : Spec.Mat) (ix2 k q) := by
  obtain ⟨-, -, -, -, -, -, e30, e31, -⟩ := idx4 t
  show V c main_v76 (((cfg4.win 3).blk t).view.emb (ix2 k q)) = _
  refine congrArg _ (funext fun a => Fin.ext ?_)
  match a with
  | ⟨0, _⟩ => show win4_3.index t (0 : Fin 2) * 64 + 1 * k.val = k.val; omega
  | ⟨1, _⟩ => show win4_3.index t (1 : Fin 2) * 64 + 1 * q.val = q.val; omega

theorem read4_4 (c : Dev nD) (t : Fin cfg4.N) (k q : Fin 64) :
    (iblk4 V c 4 t : Vec Ideal S64x64 .f32) (ix2 k q) = (V c main_v78 : Spec.Mat) (ix2 k q) := by
  obtain ⟨-, -, -, -, -, -, -, -, e40, e41, -⟩ := idx4 t
  show V c main_v78 (((cfg4.win 4).blk t).view.emb (ix2 k q)) = _
  refine congrArg _ (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

theorem read4_5 (c : Dev nD) (t : Fin cfg4.N) (q : Fin 64) :
    (iblk4 V c 5 t : Vec Ideal S1x64 .f32) (ix2 (0 : Fin 1) q) = (V c main_v81 : Spec.Row) (ix2 (0 : Fin 1) q) := by
  obtain ⟨-, -, -, -, -, -, -, -, -, -, e50, e51, -⟩ := idx4 t
  show V c main_v81 (((cfg4.win 5).blk t).view.emb (ix2 (0 : Fin 1) q)) = _
  refine congrArg _ (funext fun a => Fin.ext ?_)
  match a with
  | ⟨0, _⟩ => show win4_5.index t (0 : Fin 2) * 1 + 1 * (0 : Fin 1).val = (0 : Fin 1).val; omega
  | ⟨1, _⟩ => show win4_5.index t (1 : Fin 2) * 64 + 1 * q.val = q.val; omega

/-! ## The block a point writes back, and the cover -/

/-- The body's result at entry (p, q) of point t's block — the two products' sums and the bias — is the layer's function of the
    arrays at the entry's place in the result, row 2000·t + p and channel q. -/
theorem block4_at (c : Dev nD) (t : Fin cfg4.N) (p : Fin 2000) (q : Fin 64) :
    (k4_pay1 (iblk4 V c 0 t) (iblk4 V c 1 t) (iblk4 V c 3 t) (iblk4 V c 4 t) (iblk4 V c 5 t) : Vec Ideal S2000x64 .f32) (ix2 p q)
      = Spec.layerC (V c main_v76) (V c main_v78) (V c main_v81) (V c main_v74) (V c main_v68)
          (((cfg4.win 6).blk t).view.emb (ix2 p q)) := by
  obtain ⟨-, -, -, -, -, -, -, -, -, -, -, -, e60, e61⟩ := idx4 t
  refine (blockC_at (V c main_v76) (V c main_v78) (V c main_v81) (V c main_v74) (V c main_v68)
    (iblk4 V c 0 t) (iblk4 V c 1 t) (iblk4 V c 3 t) (iblk4 V c 4 t) (iblk4 V c 5 t) (row4 t)
    (read4_0 V c t) (read4_1 V c t) (read4_3 V c t) (read4_4 V c t) (read4_5 V c t) p q).trans ?_
  refine congrArg _ (funext fun a => Fin.ext ?_)
  match a with
  | ⟨0, _⟩ => show t.val * 2000 + p.val = win4_6.index t (0 : Fin 2) * 2000 + 1 * p.val; omega
  | ⟨1, _⟩ => show q.val = win4_6.index t (1 : Fin 2) * 64 + 1 * q.val; omega

/-- What point t writes back is block t of the layer's function of the arrays the region is entered with. -/
theorem flushed4_eq (c : Dev nD) (t : Fin cfg4.N) :
    (dat4 (F := Ideal) V c).flushed 6 t = ((cfg4.win 6).blk t).view.read (Elt Ideal)
      (Spec.layerC (V c main_v76) (V c main_v78) (V c main_v81) (V c main_v74) (V c main_v68)) := by
  show (cfg4.win 6).cut (grid4.coords t) ((dat4 (F := Ideal) V c).after 6 t) = _
  rw [after4_6]
  unfold out4
  rw [View.canon_unit_zero zero2]
  simp only [View.ld_unit_zero (S := S2000x64) zero2, View.ld_unit_zero (S := S64x64) zero2, View.ld_unit_zero (S := S1x64) zero2]
  funext j
  have hj0 : (j 0).val < 2000 := (j 0).isLt
  have hj1 : (j 1).val < 64 := (j 1).isLt
  have hj : j = ix2 (⟨(j 0).val, hj0⟩ : Fin 2000) (⟨(j 1).val, hj1⟩ : Fin 64) := by
    funext a
    match a with
    | ⟨0, _⟩ => rfl
    | ⟨1, _⟩ => rfl
  rw [hj]
  exact block4_at V c t _ _

/-- An index of the result is in point t's block iff each coordinate is in the block's range on its axis. -/
theorem mem_blk4 (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v82).slice (win4_6.rect t)).set ↔ _
  rw [View.set_slice_whole, Rect.mem_set_unit]
  exact Iff.rfl

/-- Row r of the result is in the block of point r / 2000. -/
theorem cover4_6 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 50 := N_4
  refine ⟨⟨(i 0).val / 2000, by omega⟩, flush4_6 _, ?_⟩
  obtain ⟨-, -, -, -, -, -, -, -, -, -, -, -, e60, e61⟩ := idx4 ⟨(i 0).val / 2000, by omega⟩
  rw [mem_blk4]
  intro a
  match a with
  | ⟨0, _⟩ => show win4_6.index ⟨(i 0).val / 2000, _⟩ (0 : Fin 2) * 2000 ≤ (i 0).val ∧ (i 0).val < win4_6.index ⟨(i 0).val / 2000, _⟩ (0 : Fin 2) * 2000 + 2000; rw [e60]; show (i 0).val / 2000 * 2000 ≤ (i 0).val ∧ (i 0).val < (i 0).val / 2000 * 2000 + 2000; omega
  | ⟨1, _⟩ => show win4_6.index ⟨(i 0).val / 2000, _⟩ (1 : Fin 2) * 64 ≤ (i 1).val ∧ (i 1).val < win4_6.index ⟨(i 0).val / 2000, _⟩ (1 : Fin 2) * 64 + 64; rw [e61]; omega

/-- The result array after the run is the layer's function of the arrays the region is entered with. -/
theorem arrAt4 (V : (c : Dev nD) → (b : Ref sig .tc) → Buf (Elt Ideal) ((c : Thread nD τ).loc b)) (c : Dev nD) :
    ((dat4 (F := Ideal) V c).arrAt 6 cfg4.N : Spec.Feat) = Spec.layerC (V c main_v76) (V c main_v78) (V c main_v81) (V c main_v74) (V c main_v68) :=
  (dat4 (F := Ideal) V c).arrAt_eq_of_cover 6 _ (fun t _ => flushed4_eq V c t) cover4_6

end Cert.KernelIdeal.Hand

end
-- ==== Proof.KI.Aggr.lean ====
/-
  The aggregation of node features over the graph's edges, as the program's host operations compute it: the mean of
  a node's in-neighbours' features. The edge list's first row holds each edge's source node, its second row the
  destination. The program masks a gathered row whose source index is out of range; where every source index is a
  valid row index the mask is all true and the masked gather is the plain gather.
-/
import proofs.«406033_j21930103013914_1_alg».proof.Proof.KI.Chain
import proofs.«406033_j21930103013914_1_alg».proof.Proof.Spec
import proofs.«406033_j21930103013914_1_alg».proof.Defs
import proofs.«406033_j21930103013914_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The source node of each edge (row 0 of the edge list) and its destination node (row 1). -/
def srcOf (ei : IVec S2x1600000 32) : IVec S1600000 32 :=
  shapeCast S1600000 ((extractStridedSlice S1x1600000 ![0, 0] · slices_S2x1600000_S1x1600000_0_0) ei) shapeCasts_S1x1600000_S1600000
def dstOf (ei : IVec S2x1600000 32) : IVec S1600000 32 :=
  shapeCast S1600000 ((extractStridedSlice S1x1600000 ![1, 0] · slices_S2x1600000_S1x1600000_1_0) ei) shapeCasts_S1x1600000_S1600000

/-- A source index counted from the end (negative) is moved into range by adding the number of nodes; the result as a
    column of start indices. -/
def wrapIdx (ei : IVec S2x1600000 32) : IVec S1600000x1 32 :=
  broadcastInDim S1600000x1 ![0] bcast_S1600000_S1600000x1_0
    (select (cmpi .slt (srcOf ei) (broadcastInDim S1600000 ![] bcast_S_S1600000 (constantI S_ 32 0#32)))
      (addi (srcOf ei) (broadcastInDim S1600000 ![] bcast_S_S1600000 (constantI S_ 32 100000#32)))
      (srcOf ei))

/-- One over each node's in-degree (at least one): the count of edges into the node, by a scatter-add of ones. -/
def invDeg (ei : IVec S2x1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 (dstOf ei))
          (broadcastInDim S1600000 ![] bcast_S_S1600000 (constant S_ .f32 0x3F800000#32)))
        (broadcastInDim S100000 ![] bcast_S_S100000 (constant S_ .f32 0x3F800000#32))))

/-- The mean of `h` over each node's in-neighbours: the rows of `h` at the edges' sources, summed into the edges'
    destinations, times one over the in-degree. -/
def aggr (ei : IVec S2x1600000 32) (h : FVec F S100000x64 .f32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstOf ei))
      (Host.gather gather_S100000x64_S1600000x1_S1600000x64_1_0_n_n_0_1_164 h (wrapIdx ei)))
    (broadcastInDim S100000x64 ![0, 1] bcast_S100000x1_S100000x64_0_1 (invDeg ei))

/-- The gathered rows as the program computes them: a row whose source index is outside the nodes is replaced by
    the fill value. -/
def gatherMasked (ei : IVec S2x1600000 32) (h : FVec F S100000x64 .f32) : FVec F S1600000x64 .f32 :=
  select
    (broadcastInDim S1600000x64 ![0] bcast_S1600000_S1600000x64_0
      ((fun x v => Host.reduce IntOp.andi x v reducesTo_S1600000x1_S1600000_d1 h_S_)
        (andi (cmpi .sge (wrapIdx ei) (broadcastInDim S1600000x1 ![] bcast_S_S1600000x1 (constantI S_ 32 0#32)))
          (cmpi .sle (wrapIdx ei) (broadcastInDim S1600000x1 ![0, 1] bcast_S1x1_S1600000x1_0_1 (broadcastInDim S1x1 ![1] bcast_S1_S1x1_1 (constantI S1 32 99999#32)))))
        (constantI S_ 1 1#1)))
    (Host.gather gather_S100000x64_S1600000x1_S1600000x64_1_0_n_n_0_1_164 h (wrapIdx ei))
    (broadcastInDim S1600000x64 ![] bcast_S_S1600000x64 (constant S_ .f32 0x7FC00000#32))

/-! ### Every source index is a valid row index

The precondition's last conjunct says of every edge that its source index is at least -100000 and below 100000, as
signed words. Such a word, moved up by 100000 when it is negative, lies in [0, 99999]: so every start index passes the
program's range test, the reduction of the tests over the unit axis is 1 at every edge, and the selection keeps every
gathered row. -/

namespace GatherMask

theorem toInt_lo : (4294867296#32 : BitVec 32).toInt = -100000 := by decide
theorem toInt_hi : (100000#32 : BitVec 32).toInt = 100000 := by decide
theorem toInt_top : (99999#32 : BitVec 32).toInt = 99999 := by decide
theorem toInt_zero32 : (0#32 : BitVec 32).toInt = 0 := by decide

/-- The precondition read at one edge: its source index, as a signed word, is in [-100000, 100000). -/
theorem src_range (m : (ℓ : Loc nD τ sig) → Buf (Elt Ideal) ℓ) (hpre : Cert.Pre_KernelIdeal m) (c : Dev nD)
    (e : S1600000.Idx) :
    (-100000 : ℤ) ≤ (srcOf (m ((c.tc : Thread nD τ).loc main_arg1)) e).toInt
      ∧ (srcOf (m ((c.tc : Thread nD τ).loc main_arg1)) e).toInt < 100000 := by
  haveI : Subsingleton Cert.Pre_finite_inputs.S_.Idx := ⟨fun a b => funext fun d => d.elim0⟩
  have h0 := congrFun (hpre c) ValueIdx.ix0
  dsimp only [Cert.Pre_finite_inputs.fn, Cert.Pre_finite_inputs.fn_part1] at h0
  -- the last conjunct is the conjunction over all edges; at edge e it is the conjunction of the two comparisons
  have h1 := (IntOp.andi_eq_one.1 h0).2
  have h2 := Host.reduce_andi_all _ _ _ _ _ h1 e
  obtain ⟨hge, hlt⟩ := IntOp.andi_eq_one.1 h2
  have hge' : (4294867296#32 : BitVec 32).toInt ≤ (srcOf (m ((c.tc : Thread nD τ).loc main_arg1)) e).toInt :=
    IntOp.cmpi_sge.1 hge
  have hlt' : (srcOf (m ((c.tc : Thread nD τ).loc main_arg1)) e).toInt < (100000#32 : BitVec 32).toInt :=
    IntOp.cmpi_slt.1 hlt
  rw [toInt_lo] at hge'
  rw [toInt_hi] at hlt'
  exact ⟨hge', hlt'⟩

/-- A signed word in [-100000, 100000), moved up by 100000 when it is negative, is in [0, 99999]: the sum does not
    wrap. -/
theorem wrap_range (s : BitVec 32) (h1 : (-100000 : ℤ) ≤ s.toInt) (h2 : s.toInt < 100000) :
    (0 : ℤ) ≤ (Scalar.select (IntOp.cmpi .slt s 0#32) (IntOp.addi s 100000#32) s).toInt
      ∧ (Scalar.select (IntOp.cmpi .slt s 0#32) (IntOp.addi s 100000#32) s).toInt ≤ 99999 := by
  by_cases hs : IntOp.cmpi .slt s 0#32 = 1#1
  · have hneg : s.toInt < 0 := by have := IntOp.cmpi_slt.1 hs; rwa [toInt_zero32] at this
    rw [hs, ValueIdx.select_one]
    show (0 : ℤ) ≤ (s + 100000#32).toInt ∧ (s + 100000#32).toInt ≤ 99999
    rw [BitVec.toInt_add, toInt_hi, Int.bmod_def]
    omega
  · have hnn : ¬ s.toInt < 0 := fun h => hs (IntOp.cmpi_slt.2 (by rw [toInt_zero32]; exact h))
    rw [ValueIdx.eq_zero_of_ne_one hs, ValueIdx.select_zero]
    omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1) (1#1) = 1#1 := by decide
    rw [List.foldl_cons, hf a, h11]
    exact foldl_andi_ones f hf l

/-- A reduction by `and` from 1 of an array of ones is 1 at every result index. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- Each start index is the wrapped source index of some edge, so it passes the range test 0 ≤ · ≤ 99999. -/
theorem wrapIdx_inRange (ei : IVec S2x1600000 32)
    (hsrc : ∀ e : S1600000.Idx, (-100000 : ℤ) ≤ (srcOf ei e).toInt ∧ (srcOf ei e).toInt < 100000)
    (j : S1600000x1.Idx) :
    (andi (cmpi .sge (wrapIdx ei) (broadcastInDim S1600000x1 ![] bcast_S_S1600000x1 (constantI S_ 32 0#32)))
        (cmpi .sle (wrapIdx ei) (broadcastInDim S1600000x1 ![0, 1] bcast_S1x1_S1600000x1_0_1 (broadcastInDim S1x1 ![1] bcast_S1_S1x1_1 (constantI S1 32 99999#32))))) j
      = 1#1 := by
  obtain ⟨e, he⟩ : ∃ e, wrapIdx ei j
      = Scalar.select (IntOp.cmpi .slt (srcOf ei e) 0#32) (IntOp.addi (srcOf ei e) 100000#32) (srcOf ei e) := ⟨_, rfl⟩
  show IntOp.andi (IntOp.cmpi .sge (wrapIdx ei j) 0#32) (IntOp.cmpi .sle (wrapIdx ei j) 99999#32) = 1#1
  rw [he, IntOp.andi_eq_one, IntOp.cmpi_sge, IntOp.cmpi_sle, toInt_zero32, toInt_top]
  exact wrap_range _ (hsrc e).1 (hsrc e).2

end GatherMask

/-- Under the precondition every source index is a valid row index, so no gathered row is masked. -/
theorem gatherMasked_eq (m : (ℓ : Loc nD τ sig) → Buf (Elt Ideal) ℓ) (hpre : Cert.Pre_KernelIdeal m) (c : Dev nD)
    (h : FVec Ideal S100000x64 .f32) :
    gatherMasked (F := Ideal) (m ((c.tc : Thread nD τ).loc main_arg1)) h
      = Host.gather gather_S100000x64_S1600000x1_S1600000x64_1_0_n_n_0_1_164 h (wrapIdx (m ((c.tc : Thread nD τ).loc main_arg1))) := by
  funext i
  unfold gatherMasked
  rw [ValueIdx.select_apply]
  -- the mask is 1 at every edge: every start index passes the range test
  have hmask := GatherMask.reduce_andi_ones _
    (GatherMask.wrapIdx_inRange (m ((c.tc : Thread nD τ).loc main_arg1)) (GatherMask.src_range m hpre c))
    reducesTo_S1600000x1_S1600000_d1 (u := S_) h_S_
  have hc : broadcastInDim S1600000x64 ![0] bcast_S1600000_S1600000x64_0
      ((fun x v => Host.reduce IntOp.andi x v reducesTo_S1600000x1_S1600000_d1 h_S_)
        (andi (cmpi .sge (wrapIdx (m ((c.tc : Thread nD τ).loc main_arg1))) (broadcastInDim S1600000x1 ![] bcast_S_S1600000x1 (constantI S_ 32 0#32)))
          (cmpi .sle (wrapIdx (m ((c.tc : Thread nD τ).loc main_arg1))) (broadcastInDim S1600000x1 ![0, 1] bcast_S1x1_S1600000x1_0_1 (broadcastInDim S1x1 ![1] bcast_S1_S1x1_1 (constantI S1 32 99999#32)))))
        (constantI S_ 1 1#1)) i = 1#1 := hmask _
  rw [hc, ValueIdx.select_one]

end Cert.KernelIdeal.Hand

end
-- ==== Proof.KI.Host0.lean ====
/-
  The arrays region 0 is entered with, read back through the host operations before it: the aggregated features
  (the mean over in-neighbours of the features the region reads), the features themselves (the program's first argument),
  layer 0's two weight matrices and its bias row out of the stacked arguments.

  Each stretch of host operations is first read over arbitrary contents `W` of the buffers before it: the value an
  operation list leaves in one buffer is a term over `W` at the buffers the list reads. The stretches are then
  chained: a buffer no later operation writes, and no region may change, still holds what the earlier stretch left.
-/
import proofs.«406033_j21930103013914_1_alg».proof.Proof.KI.Aggr
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The stacked weights and biases read at one layer -/

/-- The slice of layer `l`'s matrix out of the stack, its unit axis dropped, is the stack's matrix `l`: entry
    `(i0, i1)` of the result is entry `(0, i0, i1)` of the slice, which is entry `(l, i0, i1)` of the stack. -/
private theorem wSlice_read (l : Fin 5) (w : Spec.Wts) (hs : (⟨3, ![5, 64, 64]⟩ : Shape).Slices ![l.val, 0, 0] ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) ![l.val, 0, 0] w hs) hc = Spec.wSlice l w := by
  funext j
  obtain ⟨i0, i1, rfl⟩ : ∃ (i0 i1 : Fin 64), j = ix2 i0 i1 := ⟨j 0, j 1, eq_ix2 j⟩
  rw [shapeCast_1ab_ab_apply]
  unfold Spec.wSlice
  refine extractStridedSlice_apply _ w hs _ _ fun a => ?_
  match a with
  | ⟨0, _⟩ => show l.val = l.val + 0; omega
  | ⟨1, _⟩ => show i0.val = 0 + i0.val; omega
  | ⟨2, _⟩ => show i1.val = 0 + i1.val; omega

/-- The slice of layer `l`'s bias out of the stack, flattened and set again as a row, is the stack's row `l`. -/
private theorem bRow_read (l : Fin 5) (b : Spec.Bias) (hs : (⟨2, ![5, 64]⟩ : Shape).Slices ![l.val, 0] ⟨2, ![1, 64]⟩)
    (hc : (⟨2, ![1, 64]⟩ : Shape).ShapeCasts ⟨1, ![64]⟩) (hc' : (⟨1, ![64]⟩ : Shape).ShapeCasts ⟨2, ![1, 64]⟩) :
    shapeCast (⟨2, ![1, 64]⟩ : Shape) (shapeCast (⟨1, ![64]⟩ : Shape) (extractStridedSlice (⟨2, ![1, 64]⟩ : Shape) ![l.val, 0] b hs) hc) hc'
      = Spec.bRow l b := by
  funext j
  obtain ⟨i0, i1, rfl⟩ : ∃ (i0 : Fin 1) (i1 : Fin 64), j = ix2 i0 i1 := ⟨j 0, j 1, eq_ix2 j⟩
  rw [shapeCast_a_1a_apply, shapeCast_1a_a_apply]
  unfold Spec.bRow
  refine extractStridedSlice_apply _ b hs _ _ fun a => ?_
  match a with
  | ⟨0, _⟩ => show l.val = l.val + 0; omega
  | ⟨1, _⟩ => show i1.val = 0 + i1.val; omega

/-! ## The first host operations over any contents: the edge list's two rows and one over the in-degree -/

private theorem src_of (W : Valuation τ sig (Elt Ideal)) :
    (StableHlo.after hostOps0 W (Proc.devRef .tc main_v1) : IVec S1600000 32) = srcOf (W (Proc.devRef .tc main_arg1)) := by
  dsimp only [hostOps0]
  after_results
  rfl

private theorem dst_of (W : Valuation τ sig (Elt Ideal)) :
    (StableHlo.after hostOps0 W (Proc.devRef .tc main_v3) : IVec S1600000 32) = dstOf (W (Proc.devRef .tc main_arg1)) := by
  dsimp only [hostOps0]
  after_results
  rfl

private theorem invDeg_of (W : Valuation τ sig (Elt Ideal)) :
    (StableHlo.after hostOps0 W (Proc.devRef .tc main_v12) : FVec Ideal S100000x1 .f32)
      = invDeg (F := Ideal) (W (Proc.devRef .tc main_arg1)) := by
  dsimp only [hostOps0]
  after_results
  rfl

/-! ## The gather's operations over any contents whose source row is the edge list's first row -/

/-- Contents moved to a typed buffer's own type and back are unchanged. -/
private theorem ofBuf_toBuf {T : BufTy} (x : StableHlo.TRef sig T) (v : T.Contents (Elt Ideal)) :
    x.ofBuf (x.toBuf v) = v := by
  obtain ⟨r, rfl, _, _⟩ := x
  rfl

/-- The gather's operations are written over buffers that carry their tensor types; at a literal buffer the passage
    between the carried type and the buffer's own is the identity (`e1`, `e0`, `e13`), and between two operations it
    cancels (`ofBuf_toBuf`). What is left is the masked gather's chain, operation for operation. -/
private theorem take_of (W : Valuation τ sig (Elt Ideal)) (ei : IVec S2x1600000 32)
    (hs : (W (Proc.devRef .tc main_v1) : IVec S1600000 32) = srcOf ei) :
    (StableHlo.after hostOps0_1 W (Proc.devRef .tc main_v13) : FVec Ideal S1600000x64 .f32)
      = gatherMasked (F := Ideal) ei (W (Proc.devRef .tc main_arg0)) := by
  have e1 : ∀ p1 p2 p3, (StableHlo.TRef.of (T := ⟨S1600000, .i32⟩) main_v1 p1 p2 p3).ofBuf (Val := Elt Ideal) (W (Proc.devRef .tc main_v1))
      = W (Proc.devRef .tc main_v1) := fun _ _ _ => rfl
  have e0 : ∀ p1 p2 p3, (StableHlo.TRef.of (T := ⟨S100000x64, .f32⟩) main_arg0 p1 p2 p3).ofBuf (Val := Elt Ideal) (W (Proc.devRef .tc main_arg0))
      = W (Proc.devRef .tc main_arg0) := fun _ _ _ => rfl
  have e13 : ∀ p1 p2 p3 (v : FVec Ideal S1600000x64 .f32),
      (StableHlo.TRef.of (T := ⟨S1600000x64, .f32⟩) main_v13 p1 p2 p3).toBuf (Val := Elt Ideal) v = v := fun _ _ _ _ => rfl
  unfold gatherMasked wrapIdx
  rw [← hs]
  dsimp only [hostOps0_1]
  after_results_simp
  simp only [e1, e0, ofBuf_toBuf]
  exact e13 _ _ _ _

/-! ## The operations after the gather over any contents: the scatter-add of the gathered rows into the edges'
    destinations times one over the in-degree, and the layer's slices of the stacked weights and biases -/

private theorem agg_of (W : Valuation τ sig (Elt Ideal)) :
    (StableHlo.after hostOps0_2 W (Proc.devRef .tc main_v18) : FVec Ideal S100000x64 .f32)
      = mulf
          (Host.scatterAdd scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W (Proc.devRef .tc main_v3) : IVec S1600000 32))
            (W (Proc.devRef .tc main_v13) : FVec Ideal S1600000x64 .f32))
          (broadcastInDim S100000x64 ![0, 1] bcast_S100000x1_S100000x64_0_1 (W (Proc.devRef .tc main_v12) : FVec Ideal S100000x1 .f32)) := by
  dsimp only [hostOps0_2]
  after_results

private theorem wl_of (W : Valuation τ sig (Elt Ideal)) :
    (StableHlo.after hostOps0_2 W (Proc.devRef .tc main_v20) : Spec.Mat) = Spec.wSlice 0 (W (Proc.devRef .tc main_arg2)) := by
  dsimp only [hostOps0_2]
  after_results
  exact wSlice_read 0 (W (Proc.devRef .tc main_arg2)) slices_S5x64x64_S1x64x64_0_0_0 shapeCasts_S1x64x64_S64x64

private theorem wr_of (W : Valuation τ sig (Elt Ideal)) :
    (StableHlo.after hostOps0_2 W (Proc.devRef .tc main_v22) : Spec.Mat) = Spec.wSlice 0 (W (Proc.devRef .tc main_arg3)) := by
  dsimp only [hostOps0_2]
  after_results
  exact wSlice_read 0 (W (Proc.devRef .tc main_arg3)) slices_S5x64x64_S1x64x64_0_0_0 shapeCasts_S1x64x64_S64x64

private theorem b_of (W : Valuation τ sig (Elt Ideal)) :
    (StableHlo.after hostOps0_2 W (Proc.devRef .tc main_v25) : Spec.Row) = Spec.bRow 0 (W (Proc.devRef .tc main_arg4)) := by
  dsimp only [hostOps0_2]
  after_results
  exact bRow_read 0 (W (Proc.devRef .tc main_arg4)) slices_S5x64_S1x64_0_0 shapeCasts_S1x64_S64 shapeCasts_S64_S1x64

/-! ## The stretches chained -/

theorem E0_h (c : Dev nD) : E0 (F := Ideal) m c main_arg0 = m ((c.tc : Thread nD τ).loc main_arg0) := by
  unfold E0
  exact (V3_of m c main_arg0 (by decide)).trans <| (V2_of m c main_arg0 (by decide)).trans <| (V1_of m c main_arg0 (by decide))

theorem E0_agg (hpre : Cert.Pre_KernelIdeal m) (c : Dev nD) :
    E0 (F := Ideal) m c main_v18 = aggr (F := Ideal) (m ((c.tc : Thread nD τ).loc main_arg1)) (m ((c.tc : Thread nD τ).loc main_arg0)) := by
  have h1 : (V1 m c main_v1 : IVec S1600000 32) = srcOf (m ((c.tc : Thread nD τ).loc main_arg1)) :=
    src_of (V0 m c)
  have h3 : (V2 m c main_v3 : IVec S1600000 32) = dstOf (m ((c.tc : Thread nD τ).loc main_arg1)) :=
    (V2_of m c main_v3 (by decide)).trans <| dst_of (V0 m c)
  have h12 : (V2 m c main_v12 : FVec Ideal S100000x1 .f32) = invDeg (F := Ideal) (m ((c.tc : Thread nD τ).loc main_arg1)) :=
    (V2_of m c main_v12 (by decide)).trans <| invDeg_of (V0 m c)
  have hg : (V2 m c main_v13 : FVec Ideal S1600000x64 .f32)
      = gatherMasked (F := Ideal) (m ((c.tc : Thread nD τ).loc main_arg1)) (m ((c.tc : Thread nD τ).loc main_arg0)) :=
    (take_of (V1 m c) (m ((c.tc : Thread nD τ).loc main_arg1)) h1).trans
      (congrArg (gatherMasked (F := Ideal) (m ((c.tc : Thread nD τ).loc main_arg1))) ((V1_of m c main_arg0 (by decide))))
  unfold E0
  refine (agg_of (V2 m c)).trans ?_
  rw [h3, h12, hg, gatherMasked_eq m hpre c]
  rfl

theorem E0_wl (c : Dev nD) : (E0 (F := Ideal) m c main_v20 : Spec.Mat) = Spec.wSlice 0 (m ((c.tc : Thread nD τ).loc main_arg2)) := by
  unfold E0
  exact (wl_of (V2 m c)).trans (congrArg (Spec.wSlice 0) ((V2_of m c main_arg2 (by decide)).trans <| (V1_of m c main_arg2 (by decide))))

theorem E0_wr (c : Dev nD) : (E0 (F := Ideal) m c main_v22 : Spec.Mat) = Spec.wSlice 0 (m ((c.tc : Thread nD τ).loc main_arg3)) := by
  unfold E0
  exact (wr_of (V2 m c)).trans (congrArg (Spec.wSlice 0) ((V2_of m c main_arg3 (by decide)).trans <| (V1_of m c main_arg3 (by decide))))

theorem E0_b (c : Dev nD) : (E0 (F := Ideal) m c main_v25 : Spec.Row) = Spec.bRow 0 (m ((c.tc : Thread nD τ).loc main_arg4)) := by
  unfold E0
  exact (b_of (V2 m c)).trans (congrArg (Spec.bRow 0) ((V2_of m c main_arg4 (by decide)).trans <| (V1_of m c main_arg4 (by decide))))

end Cert.KernelIdeal.Hand

end
-- ==== Proof.KI.Host1.lean ====
/-
  The arrays region 1 is entered with, read back through the host operations before it: the aggregated features
  (the mean over in-neighbours of the features the region reads), the features themselves (the previous region's result),
  layer 1's two weight matrices and its bias row out of the stacked arguments.

  Each stretch of host operations is first read over arbitrary contents `W` of the buffers before it: the value an
  operation list leaves in one buffer is a term over `W` at the buffers the list reads. The stretches are then
  chained: a buffer no later operation writes, and no region may change, still holds what the earlier stretch left.
-/
import proofs.«406033_j21930103013914_1_alg».proof.Proof.KI.Aggr
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The stacked weights and biases read at one layer -/

/-- The slice of layer `l`'s matrix out of the stack, its unit axis dropped, is the stack's matrix `l`: entry
    `(i0, i1)` of the result is entry `(0, i0, i1)` of the slice, which is entry `(l, i0, i1)` of the stack. -/
private theorem wSlice_read (l : Fin 5) (w : Spec.Wts) (hs : (⟨3, ![5, 64, 64]⟩ : Shape).Slices ![l.val, 0, 0] ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) ![l.val, 0, 0] w hs) hc = Spec.wSlice l w := by
  funext j
  obtain ⟨i0, i1, rfl⟩ : ∃ (i0 i1 : Fin 64), j = ix2 i0 i1 := ⟨j 0, j 1, eq_ix2 j⟩
  rw [shapeCast_1ab_ab_apply]
  unfold Spec.wSlice
  refine extractStridedSlice_apply _ w hs _ _ fun a => ?_
  match a with
  | ⟨0, _⟩ => show l.val = l.val + 0; omega
  | ⟨1, _⟩ => show i0.val = 0 + i0.val; omega
  | ⟨2, _⟩ => show i1.val = 0 + i1.val; omega

/-- The slice of layer `l`'s bias out of the stack, flattened and set again as a row, is the stack's row `l`. -/
private theorem bRow_read (l : Fin 5) (b : Spec.Bias) (hs : (⟨2, ![5, 64]⟩ : Shape).Slices ![l.val, 0] ⟨2, ![1, 64]⟩)
    (hc : (⟨2, ![1, 64]⟩ : Shape).ShapeCasts ⟨1, ![64]⟩) (hc' : (⟨1, ![64]⟩ : Shape).ShapeCasts ⟨2, ![1, 64]⟩) :
    shapeCast (⟨2, ![1, 64]⟩ : Shape) (shapeCast (⟨1, ![64]⟩ : Shape) (extractStridedSlice (⟨2, ![1, 64]⟩ : Shape) ![l.val, 0] b hs) hc) hc'
      = Spec.bRow l b := by
  funext j
  obtain ⟨i0, i1, rfl⟩ : ∃ (i0 : Fin 1) (i1 : Fin 64), j = ix2 i0 i1 := ⟨j 0, j 1, eq_ix2 j⟩
  rw [shapeCast_a_1a_apply, shapeCast_1a_a_apply]
  unfold Spec.bRow
  refine extractStridedSlice_apply _ b hs _ _ fun a => ?_
  match a with
  | ⟨0, _⟩ => show l.val = l.val + 0; omega
  | ⟨1, _⟩ => show i1.val = 0 + i1.val; omega

/-! ## The first host operations over any contents: the edge list's two rows and one over the in-degree -/

private theorem src_of (W : Valuation τ sig (Elt Ideal)) :
    (StableHlo.after hostOps0 W (Proc.devRef .tc main_v1) : IVec S1600000 32) = srcOf (W (Proc.devRef .tc main_arg1)) := by
  dsimp only [hostOps0]
  after_results
  rfl

private theorem dst_of (W : Valuation τ sig (Elt Ideal)) :
    (StableHlo.after hostOps0 W (Proc.devRef .tc main_v3) : IVec S1600000 32) = dstOf (W (Proc.devRef .tc main_arg1)) := by
  dsimp only [hostOps0]
  after_results
  rfl

private theorem invDeg_of (W : Valuation τ sig (Elt Ideal)) :
    (StableHlo.after hostOps0 W (Proc.devRef .tc main_v12) : FVec Ideal S100000x1 .f32)
      = invDeg (F := Ideal) (W (Proc.devRef .tc main_arg1)) := by
  dsimp only [hostOps0]
  after_results
  rfl

/-! ## The gather's operations over any contents whose source row is the edge list's first row -/

/-- Contents moved to a typed buffer's own type and back are unchanged. -/
private theorem ofBuf_toBuf {T : BufTy} (x : StableHlo.TRef sig T) (v : T.Contents (Elt Ideal)) :
    x.ofBuf (x.toBuf v) = v := by
  obtain ⟨r, rfl, _, _⟩ := x
  rfl

/-- The gather's operations are written over buffers that carry their tensor types; at a literal buffer the passage
    between the carried type and the buffer's own is the identity (`e1`, `e0`, `e13`), and between two operations it
    cancels (`ofBuf_toBuf`). What is left is the masked gather's chain, operation for operation. -/
private theorem take_of (W : Valuation τ sig (Elt Ideal)) (ei : IVec S2x1600000 32)
    (hs : (W (Proc.devRef .tc main_v1) : IVec S1600000 32) = srcOf ei) :
    (StableHlo.after hostOps1 W (Proc.devRef .tc main_v27) : FVec Ideal S1600000x64 .f32)
      = gatherMasked (F := Ideal) ei (W (Proc.devRef .tc main_v26)) := by
  have e1 : ∀ p1 p2 p3, (StableHlo.TRef.of (T := ⟨S1600000, .i32⟩) main_v1 p1 p2 p3).ofBuf (Val := Elt Ideal) (W (Proc.devRef .tc main_v1))
      = W (Proc.devRef .tc main_v1) := fun _ _ _ => rfl
  have e0 : ∀ p1 p2 p3, (StableHlo.TRef.of (T := ⟨S100000x64, .f32⟩) main_v26 p1 p2 p3).ofBuf (Val := Elt Ideal) (W (Proc.devRef .tc main_v26))
      = W (Proc.devRef .tc main_v26) := fun _ _ _ => rfl
  have e13 : ∀ p1 p2 p3 (v : FVec Ideal S1600000x64 .f32),
      (StableHlo.TRef.of (T := ⟨S1600000x64, .f32⟩) main_v27 p1 p2 p3).toBuf (Val := Elt Ideal) v = v := fun _ _ _ _ => rfl
  unfold gatherMasked wrapIdx
  rw [← hs]
  dsimp only [hostOps1]
  after_results_simp
  simp only [e1, e0, ofBuf_toBuf]
  exact e13 _ _ _ _

/-! ## The operations after the gather over any contents: the scatter-add of the gathered rows into the edges'
    destinations times one over the in-degree, and the layer's slices of the stacked weights and biases -/

private theorem agg_of (W : Valuation τ sig (Elt Ideal)) :
    (StableHlo.after hostOps1_1 W (Proc.devRef .tc main_v32) : FVec Ideal S100000x64 .f32)
      = mulf
          (Host.scatterAdd scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W (Proc.devRef .tc main_v3) : IVec S1600000 32))
            (W (Proc.devRef .tc main_v27) : FVec Ideal S1600000x64 .f32))
          (broadcastInDim S100000x64 ![0, 1] bcast_S100000x1_S100000x64_0_1 (W (Proc.devRef .tc main_v12) : FVec Ideal S100000x1 .f32)) := by
  dsimp only [hostOps1_1]
  after_results

private theorem wl_of (W : Valuation τ sig (Elt Ideal)) :
    (StableHlo.after hostOps1_1 W (Proc.devRef .tc main_v34) : Spec.Mat) = Spec.wSlice 1 (W (Proc.devRef .tc main_arg2)) := by
  dsimp only [hostOps1_1]
  after_results
  exact wSlice_read 1 (W (Proc.devRef .tc main_arg2)) slices_S5x64x64_S1x64x64_1_0_0 shapeCasts_S1x64x64_S64x64

private theorem wr_of (W : Valuation τ sig (Elt Ideal)) :
    (StableHlo.after hostOps1_1 W (Proc.devRef .tc main_v36) : Spec.Mat) = Spec.wSlice 1 (W (Proc.devRef .tc main_arg3)) := by
  dsimp only [hostOps1_1]
  after_results
  exact wSlice_read 1 (W (Proc.devRef .tc main_arg3)) slices_S5x64x64_S1x64x64_1_0_0 shapeCasts_S1x64x64_S64x64

private theorem b_of (W : Valuation τ sig (Elt Ideal)) :
    (StableHlo.after hostOps1_1 W (Proc.devRef .tc main_v39) : Spec.Row) = Spec.bRow 1 (W (Proc.devRef .tc main_arg4)) := by
  dsimp only [hostOps1_1]
  after_results
  exact bRow_read 1 (W (Proc.devRef .tc main_arg4)) slices_S5x64_S1x64_1_0 shapeCasts_S1x64_S64 shapeCasts_S64_S1x64

/-! ## The stretches chained -/

/-- Region 0's result is what the features array holds when the gather's operations start: the region may change
    that array alone, and leaves its result there. -/
private theorem prev_of (c : Dev nD) : V4 m (outs1 m) c main_v26 = o4 m c := by
  simp only [V4, Function.update_self]
  unfold outs1
  rw [dif_pos rfl]

theorem E1_h (c : Dev nD) : E1 (F := Ideal) m c main_v26 = o4 m c := by
  unfold E1
  exact (V6_of m (outs1 m) c main_v26 (by decide)).trans <| (V5_of m (outs1 m) c main_v26 (by decide)).trans <| prev_of m c

theorem E1_agg (hpre : Cert.Pre_KernelIdeal m) (c : Dev nD) :
    E1 (F := Ideal) m c main_v32 = aggr (F := Ideal) (m ((c.tc : Thread nD τ).loc main_arg1)) (o4 m c) := by
  have h1 : (V4 m (outs1 m) c main_v1 : IVec S1600000 32) = srcOf (m ((c.tc : Thread nD τ).loc main_arg1)) :=
    (V4_of m (outs1 m) c main_v1 (by decide)).trans <| (V3_of m c main_v1 (by decide)).trans <| (V2_of m c main_v1 (by decide)).trans <| src_of (V0 m c)
  have h3 : (V5 m (outs1 m) c main_v3 : IVec S1600000 32) = dstOf (m ((c.tc : Thread nD τ).loc main_arg1)) :=
    (V5_of m (outs1 m) c main_v3 (by decide)).trans <| (V4_of m (outs1 m) c main_v3 (by decide)).trans <| (V3_of m c main_v3 (by decide)).trans <| (V2_of m c main_v3 (by decide)).trans <| dst_of (V0 m c)
  have h12 : (V5 m (outs1 m) c main_v12 : FVec Ideal S100000x1 .f32) = invDeg (F := Ideal) (m ((c.tc : Thread nD τ).loc main_arg1)) :=
    (V5_of m (outs1 m) c main_v12 (by decide)).trans <| (V4_of m (outs1 m) c main_v12 (by decide)).trans <| (V3_of m c main_v12 (by decide)).trans <| (V2_of m c main_v12 (by decide)).trans <| invDeg_of (V0 m c)
  have hg : (V5 m (outs1 m) c main_v27 : FVec Ideal S1600000x64 .f32)
      = gatherMasked (F := Ideal) (m ((c.tc : Thread nD τ).loc main_arg1)) (o4 m c) :=
    (take_of (V4 m (outs1 m) c) (m ((c.tc : Thread nD τ).loc main_arg1)) h1).trans
      (congrArg (gatherMasked (F := Ideal) (m ((c.tc : Thread nD τ).loc main_arg1))) (prev_of m c))
  unfold E1
  refine (agg_of (V5 m (outs1 m) c)).trans ?_
  rw [h3, h12, hg, gatherMasked_eq m hpre c]
  rfl

theorem E1_wl (c : Dev nD) : (E1 (F := Ideal) m c main_v34 : Spec.Mat) = Spec.wSlice 1 (m ((c.tc : Thread nD τ).loc main_arg2)) := by
  unfold E1
  exact (wl_of (V5 m (outs1 m) c)).trans (congrArg (Spec.wSlice 1) ((V5_of m (outs1 m) c main_arg2 (by decide)).trans <| (V4_of m (outs1 m) c main_arg2 (by decide)).trans <| (V3_of m c main_arg2 (by decide)).trans <| (V2_of m c main_arg2 (by decide)).trans <| (V1_of m c main_arg2 (by decide))))

theorem E1_wr (c : Dev nD) : (E1 (F := Ideal) m c main_v36 : Spec.Mat) = Spec.wSlice 1 (m ((c.tc : Thread nD τ).loc main_arg3)) := by
  unfold E1
  exact (wr_of (V5 m (outs1 m) c)).trans (congrArg (Spec.wSlice 1) ((V5_of m (outs1 m) c main_arg3 (by decide)).trans <| (V4_of m (outs1 m) c main_arg3 (by decide)).trans <| (V3_of m c main_arg3 (by decide)).trans <| (V2_of m c main_arg3 (by decide)).trans <| (V1_of m c main_arg3 (by decide))))

theorem E1_b (c : Dev nD) : (E1 (F := Ideal) m c main_v39 : Spec.Row) = Spec.bRow 1 (m ((c.tc : Thread nD τ).loc main_arg4)) := by
  unfold E1
  exact (b_of (V5 m (outs1 m) c)).trans (congrArg (Spec.bRow 1) ((V5_of m (outs1 m) c main_arg4 (by decide)).trans <| (V4_of m (outs1 m) c main_arg4 (by decide)).trans <| (V3_of m c main_arg4 (by decide)).trans <| (V2_of m c main_arg4 (by decide)).trans <| (V1_of m c main_arg4 (by decide))))

end Cert.KernelIdeal.Hand

end
-- ==== Proof.KI.Host2.lean ====
/-
  The arrays region 2 is entered with, read back through the host operations before it: the aggregated features
  (the mean over in-neighbours of the features the region reads), the features themselves (the previous region's result),
  layer 2's two weight matrices and its bias row out of the stacked arguments.

  Each stretch of host operations is first read over arbitrary contents `W` of the buffers before it: the value an
  operation list leaves in one buffer is a term over `W` at the buffers the list reads. The stretches are then
  chained: a buffer no later operation writes, and no region may change, still holds what the earlier stretch left.
-/
import proofs.«406033_j21930103013914_1_alg».proof.Proof.KI.Aggr
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The stacked weights and biases read at one layer -/

/-- The slice of layer `l`'s matrix out of the stack, its unit axis dropped, is the stack's matrix `l`: entry
    `(i0, i1)` of the result is entry `(0, i0, i1)` of the slice, which is entry `(l, i0, i1)` of the stack. -/
private theorem wSlice_read (l : Fin 5) (w : Spec.Wts) (hs : (⟨3, ![5, 64, 64]⟩ : Shape).Slices ![l.val, 0, 0] ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) ![l.val, 0, 0] w hs) hc = Spec.wSlice l w := by
  funext j
  obtain ⟨i0, i1, rfl⟩ : ∃ (i0 i1 : Fin 64), j = ix2 i0 i1 := ⟨j 0, j 1, eq_ix2 j⟩
  rw [shapeCast_1ab_ab_apply]
  unfold Spec.wSlice
  refine extractStridedSlice_apply _ w hs _ _ fun a => ?_
  match a with
  | ⟨0, _⟩ => show l.val = l.val + 0; omega
  | ⟨1, _⟩ => show i0.val = 0 + i0.val; omega
  | ⟨2, _⟩ => show i1.val = 0 + i1.val; omega

/-- The slice of layer `l`'s bias out of the stack, flattened and set again as a row, is the stack's row `l`. -/
private theorem bRow_read (l : Fin 5) (b : Spec.Bias) (hs : (⟨2, ![5, 64]⟩ : Shape).Slices ![l.val, 0] ⟨2, ![1, 64]⟩)
    (hc : (⟨2, ![1, 64]⟩ : Shape).ShapeCasts ⟨1, ![64]⟩) (hc' : (⟨1, ![64]⟩ : Shape).ShapeCasts ⟨2, ![1, 64]⟩) :
    shapeCast (⟨2, ![1, 64]⟩ : Shape) (shapeCast (⟨1, ![64]⟩ : Shape) (extractStridedSlice (⟨2, ![1, 64]⟩ : Shape) ![l.val, 0] b hs) hc) hc'
      = Spec.bRow l b := by
  funext j
  obtain ⟨i0, i1, rfl⟩ : ∃ (i0 : Fin 1) (i1 : Fin 64), j = ix2 i0 i1 := ⟨j 0, j 1, eq_ix2 j⟩
  rw [shapeCast_a_1a_apply, shapeCast_1a_a_apply]
  unfold Spec.bRow
  refine extractStridedSlice_apply _ b hs _ _ fun a => ?_
  match a with
  | ⟨0, _⟩ => show l.val = l.val + 0; omega
  | ⟨1, _⟩ => show i1.val = 0 + i1.val; omega

/-! ## The first host operations over any contents: the edge list's two rows and one over the in-degree -/

private theorem src_of (W : Valuation τ sig (Elt Ideal)) :
    (StableHlo.after hostOps0 W (Proc.devRef .tc main_v1) : IVec S1600000 32) = srcOf (W (Proc.devRef .tc main_arg1)) := by
  dsimp only [hostOps0]
  after_results
  rfl

private theorem dst_of (W : Valuation τ sig (Elt Ideal)) :
    (StableHlo.after hostOps0 W (Proc.devRef .tc main_v3) : IVec S1600000 32) = dstOf (W (Proc.devRef .tc main_arg1)) := by
  dsimp only [hostOps0]
  after_results
  rfl

private theorem invDeg_of (W : Valuation τ sig (Elt Ideal)) :
    (StableHlo.after hostOps0 W (Proc.devRef .tc main_v12) : FVec Ideal S100000x1 .f32)
      = invDeg (F := Ideal) (W (Proc.devRef .tc main_arg1)) := by
  dsimp only [hostOps0]
  after_results
  rfl

/-! ## The gather's operations over any contents whose source row is the edge list's first row -/

/-- Contents moved to a typed buffer's own type and back are unchanged. -/
private theorem ofBuf_toBuf {T : BufTy} (x : StableHlo.TRef sig T) (v : T.Contents (Elt Ideal)) :
    x.ofBuf (x.toBuf v) = v := by
  obtain ⟨r, rfl, _, _⟩ := x
  rfl

/-- The gather's operations are written over buffers that carry their tensor types; at a literal buffer the passage
    between the carried type and the buffer's own is the identity (`e1`, `e0`, `e13`), and between two operations it
    cancels (`ofBuf_toBuf`). What is left is the masked gather's chain, operation for operation. -/
private theorem take_of (W : Valuation τ sig (Elt Ideal)) (ei : IVec S2x1600000 32)
    (hs : (W (Proc.devRef .tc main_v1) : IVec S1600000 32) = srcOf ei) :
    (StableHlo.after hostOps2 W (Proc.devRef .tc main_v41) : FVec Ideal S1600000x64 .f32)
      = gatherMasked (F := Ideal) ei (W (Proc.devRef .tc main_v40)) := by
  have e1 : ∀ p1 p2 p3, (StableHlo.TRef.of (T := ⟨S1600000, .i32⟩) main_v1 p1 p2 p3).ofBuf (Val := Elt Ideal) (W (Proc.devRef .tc main_v1))
      = W (Proc.devRef .tc main_v1) := fun _ _ _ => rfl
  have e0 : ∀ p1 p2 p3, (StableHlo.TRef.of (T := ⟨S100000x64, .f32⟩) main_v40 p1 p2 p3).ofBuf (Val := Elt Ideal) (W (Proc.devRef .tc main_v40))
      = W (Proc.devRef .tc main_v40) := fun _ _ _ => rfl
  have e13 : ∀ p1 p2 p3 (v : FVec Ideal S1600000x64 .f32),
      (StableHlo.TRef.of (T := ⟨S1600000x64, .f32⟩) main_v41 p1 p2 p3).toBuf (Val := Elt Ideal) v = v := fun _ _ _ _ => rfl
  unfold gatherMasked wrapIdx
  rw [← hs]
  dsimp only [hostOps2]
  after_results_simp
  simp only [e1, e0, ofBuf_toBuf]
  exact e13 _ _ _ _

/-! ## The operations after the gather over any contents: the scatter-add of the gathered rows into the edges'
    destinations times one over the in-degree, and the layer's slices of the stacked weights and biases -/

private theorem agg_of (W : Valuation τ sig (Elt Ideal)) :
    (StableHlo.after hostOps2_1 W (Proc.devRef .tc main_v46) : FVec Ideal S100000x64 .f32)
      = mulf
          (Host.scatterAdd scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W (Proc.devRef .tc main_v3) : IVec S1600000 32))
            (W (Proc.devRef .tc main_v41) : FVec Ideal S1600000x64 .f32))
          (broadcastInDim S100000x64 ![0, 1] bcast_S100000x1_S100000x64_0_1 (W (Proc.devRef .tc main_v12) : FVec Ideal S100000x1 .f32)) := by
  dsimp only [hostOps2_1]
  after_results

private theorem wl_of (W : Valuation τ sig (Elt Ideal)) :
    (StableHlo.after hostOps2_1 W (Proc.devRef .tc main_v48) : Spec.Mat) = Spec.wSlice 2 (W (Proc.devRef .tc main_arg2)) := by
  dsimp only [hostOps2_1]
  after_results
  exact wSlice_read 2 (W (Proc.devRef .tc main_arg2)) slices_S5x64x64_S1x64x64_2_0_0 shapeCasts_S1x64x64_S64x64

private theorem wr_of (W : Valuation τ sig (Elt Ideal)) :
    (StableHlo.after hostOps2_1 W (Proc.devRef .tc main_v50) : Spec.Mat) = Spec.wSlice 2 (W (Proc.devRef .tc main_arg3)) := by
  dsimp only [hostOps2_1]
  after_results
  exact wSlice_read 2 (W (Proc.devRef .tc main_arg3)) slices_S5x64x64_S1x64x64_2_0_0 shapeCasts_S1x64x64_S64x64

private theorem b_of (W : Valuation τ sig (Elt Ideal)) :
    (StableHlo.after hostOps2_1 W (Proc.devRef .tc main_v53) : Spec.Row) = Spec.bRow 2 (W (Proc.devRef .tc main_arg4)) := by
  dsimp only [hostOps2_1]
  after_results
  exact bRow_read 2 (W (Proc.devRef .tc main_arg4)) slices_S5x64_S1x64_2_0 shapeCasts_S1x64_S64 shapeCasts_S64_S1x64

/-! ## The stretches chained -/

/-- Region 1's result is what the features array holds when the gather's operations start: the region may change
    that array alone, and leaves its result there. -/
private theorem prev_of (c : Dev nD) : V7 m (outs2 m) c main_v40 = o7 m c := by
  simp only [V7, Function.update_self]
  unfold outs2
  rw [dif_neg (by decide : ¬ main_v40 = main_v26), dif_pos rfl]

theorem E2_h (c : Dev nD) : E2 (F := Ideal) m c main_v40 = o7 m c := by
  unfold E2
  exact (V9_of m (outs2 m) c main_v40 (by decide)).trans <| (V8_of m (outs2 m) c main_v40 (by decide)).trans <| prev_of m c

theorem E2_agg (hpre : Cert.Pre_KernelIdeal m) (c : Dev nD) :
    E2 (F := Ideal) m c main_v46 = aggr (F := Ideal) (m ((c.tc : Thread nD τ).loc main_arg1)) (o7 m c) := by
  have h1 : (V7 m (outs2 m) c main_v1 : IVec S1600000 32) = srcOf (m ((c.tc : Thread nD τ).loc main_arg1)) :=
    (V7_of m (outs2 m) c main_v1 (by decide)).trans <| (V6_of m (outs2 m) c main_v1 (by decide)).trans <| (V5_of m (outs2 m) c main_v1 (by decide)).trans <| (V4_of m (outs2 m) c main_v1 (by decide)).trans <| (V3_of m c main_v1 (by decide)).trans <| (V2_of m c main_v1 (by decide)).trans <| src_of (V0 m c)
  have h3 : (V8 m (outs2 m) c main_v3 : IVec S1600000 32) = dstOf (m ((c.tc : Thread nD τ).loc main_arg1)) :=
    (V8_of m (outs2 m) c main_v3 (by decide)).trans <| (V7_of m (outs2 m) c main_v3 (by decide)).trans <| (V6_of m (outs2 m) c main_v3 (by decide)).trans <| (V5_of m (outs2 m) c main_v3 (by decide)).trans <| (V4_of m (outs2 m) c main_v3 (by decide)).trans <| (V3_of m c main_v3 (by decide)).trans <| (V2_of m c main_v3 (by decide)).trans <| dst_of (V0 m c)
  have h12 : (V8 m (outs2 m) c main_v12 : FVec Ideal S100000x1 .f32) = invDeg (F := Ideal) (m ((c.tc : Thread nD τ).loc main_arg1)) :=
    (V8_of m (outs2 m) c main_v12 (by decide)).trans <| (V7_of m (outs2 m) c main_v12 (by decide)).trans <| (V6_of m (outs2 m) c main_v12 (by decide)).trans <| (V5_of m (outs2 m) c main_v12 (by decide)).trans <| (V4_of m (outs2 m) c main_v12 (by decide)).trans <| (V3_of m c main_v12 (by decide)).trans <| (V2_of m c main_v12 (by decide)).trans <| invDeg_of (V0 m c)
  have hg : (V8 m (outs2 m) c main_v41 : FVec Ideal S1600000x64 .f32)
      = gatherMasked (F := Ideal) (m ((c.tc : Thread nD τ).loc main_arg1)) (o7 m c) :=
    (take_of (V7 m (outs2 m) c) (m ((c.tc : Thread nD τ).loc main_arg1)) h1).trans
      (congrArg (gatherMasked (F := Ideal) (m ((c.tc : Thread nD τ).loc main_arg1))) (prev_of m c))
  unfold E2
  refine (agg_of (V8 m (outs2 m) c)).trans ?_
  rw [h3, h12, hg, gatherMasked_eq m hpre c]
  rfl

theorem E2_wl (c : Dev nD) : (E2 (F := Ideal) m c main_v48 : Spec.Mat) = Spec.wSlice 2 (m ((c.tc : Thread nD τ).loc main_arg2)) := by
  unfold E2
  exact (wl_of (V8 m (outs2 m) c)).trans (congrArg (Spec.wSlice 2) ((V8_of m (outs2 m) c main_arg2 (by decide)).trans <| (V7_of m (outs2 m) c main_arg2 (by decide)).trans <| (V6_of m (outs2 m) c main_arg2 (by decide)).trans <| (V5_of m (outs2 m) c main_arg2 (by decide)).trans <| (V4_of m (outs2 m) c main_arg2 (by decide)).trans <| (V3_of m c main_arg2 (by decide)).trans <| (V2_of m c main_arg2 (by decide)).trans <| (V1_of m c main_arg2 (by decide))))

theorem E2_wr (c : Dev nD) : (E2 (F := Ideal) m c main_v50 : Spec.Mat) = Spec.wSlice 2 (m ((c.tc : Thread nD τ).loc main_arg3)) := by
  unfold E2
  exact (wr_of (V8 m (outs2 m) c)).trans (congrArg (Spec.wSlice 2) ((V8_of m (outs2 m) c main_arg3 (by decide)).trans <| (V7_of m (outs2 m) c main_arg3 (by decide)).trans <| (V6_of m (outs2 m) c main_arg3 (by decide)).trans <| (V5_of m (outs2 m) c main_arg3 (by decide)).trans <| (V4_of m (outs2 m) c main_arg3 (by decide)).trans <| (V3_of m c main_arg3 (by decide)).trans <| (V2_of m c main_arg3 (by decide)).trans <| (V1_of m c main_arg3 (by decide))))

theorem E2_b (c : Dev nD) : (E2 (F := Ideal) m c main_v53 : Spec.Row) = Spec.bRow 2 (m ((c.tc : Thread nD τ).loc main_arg4)) := by
  unfold E2
  exact (b_of (V8 m (outs2 m) c)).trans (congrArg (Spec.bRow 2) ((V8_of m (outs2 m) c main_arg4 (by decide)).trans <| (V7_of m (outs2 m) c main_arg4 (by decide)).trans <| (V6_of m (outs2 m) c main_arg4 (by decide)).trans <| (V5_of m (outs2 m) c main_arg4 (by decide)).trans <| (V4_of m (outs2 m) c main_arg4 (by decide)).trans <| (V3_of m c main_arg4 (by decide)).trans <| (V2_of m c main_arg4 (by decide)).trans <| (V1_of m c main_arg4 (by decide))))

end Cert.KernelIdeal.Hand

end
-- ==== Proof.KI.Host3.lean ====
/-
  The arrays region 3 is entered with, read back through the host operations before it: the aggregated features
  (the mean over in-neighbours of the features the region reads), the features themselves (the previous region's result),
  layer 3's two weight matrices and its bias row out of the stacked arguments.

  Each stretch of host operations is first read over arbitrary contents `W` of the buffers before it: the value an
  operation list leaves in one buffer is a term over `W` at the buffers the list reads. The stretches are then
  chained: a buffer no later operation writes, and no region may change, still holds what the earlier stretch left.
-/
import proofs.«406033_j21930103013914_1_alg».proof.Proof.KI.Aggr
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The stacked weights and biases read at one layer -/

/-- The slice of layer `l`'s matrix out of the stack, its unit axis dropped, is the stack's matrix `l`: entry
    `(i0, i1)` of the result is entry `(0, i0, i1)` of the slice, which is entry `(l, i0, i1)` of the stack. -/
private theorem wSlice_read (l : Fin 5) (w : Spec.Wts) (hs : (⟨3, ![5, 64, 64]⟩ : Shape).Slices ![l.val, 0, 0] ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) ![l.val, 0, 0] w hs) hc = Spec.wSlice l w := by
  funext j
  obtain ⟨i0, i1, rfl⟩ : ∃ (i0 i1 : Fin 64), j = ix2 i0 i1 := ⟨j 0, j 1, eq_ix2 j⟩
  rw [shapeCast_1ab_ab_apply]
  unfold Spec.wSlice
  refine extractStridedSlice_apply _ w hs _ _ fun a => ?_
  match a with
  | ⟨0, _⟩ => show l.val = l.val + 0; omega
  | ⟨1, _⟩ => show i0.val = 0 + i0.val; omega
  | ⟨2, _⟩ => show i1.val = 0 + i1.val; omega

/-- The slice of layer `l`'s bias out of the stack, flattened and set again as a row, is the stack's row `l`. -/
private theorem bRow_read (l : Fin 5) (b : Spec.Bias) (hs : (⟨2, ![5, 64]⟩ : Shape).Slices ![l.val, 0] ⟨2, ![1, 64]⟩)
    (hc : (⟨2, ![1, 64]⟩ : Shape).ShapeCasts ⟨1, ![64]⟩) (hc' : (⟨1, ![64]⟩ : Shape).ShapeCasts ⟨2, ![1, 64]⟩) :
    shapeCast (⟨2, ![1, 64]⟩ : Shape) (shapeCast (⟨1, ![64]⟩ : Shape) (extractStridedSlice (⟨2, ![1, 64]⟩ : Shape) ![l.val, 0] b hs) hc) hc'
      = Spec.bRow l b := by
  funext j
  obtain ⟨i0, i1, rfl⟩ : ∃ (i0 : Fin 1) (i1 : Fin 64), j = ix2 i0 i1 := ⟨j 0, j 1, eq_ix2 j⟩
  rw [shapeCast_a_1a_apply, shapeCast_1a_a_apply]
  unfold Spec.bRow
  refine extractStridedSlice_apply _ b hs _ _ fun a => ?_
  match a with
  | ⟨0, _⟩ => show l.val = l.val + 0; omega
  | ⟨1, _⟩ => show i1.val = 0 + i1.val; omega

/-! ## The first host operations over any contents: the edge list's two rows and one over the in-degree -/

private theorem src_of (W : Valuation τ sig (Elt Ideal)) :
    (StableHlo.after hostOps0 W (Proc.devRef .tc main_v1) : IVec S1600000 32) = srcOf (W (Proc.devRef .tc main_arg1)) := by
  dsimp only [hostOps0]
  after_results
  rfl

private theorem dst_of (W : Valuation τ sig (Elt Ideal)) :
    (StableHlo.after hostOps0 W (Proc.devRef .tc main_v3) : IVec S1600000 32) = dstOf (W (Proc.devRef .tc main_arg1)) := by
  dsimp only [hostOps0]
  after_results
  rfl

private theorem invDeg_of (W : Valuation τ sig (Elt Ideal)) :
    (StableHlo.after hostOps0 W (Proc.devRef .tc main_v12) : FVec Ideal S100000x1 .f32)
      = invDeg (F := Ideal) (W (Proc.devRef .tc main_arg1)) := by
  dsimp only [hostOps0]
  after_results
  rfl

/-! ## The gather's operations over any contents whose source row is the edge list's first row -/

/-- Contents moved to a typed buffer's own type and back are unchanged. -/
private theorem ofBuf_toBuf {T : BufTy} (x : StableHlo.TRef sig T) (v : T.Contents (Elt Ideal)) :
    x.ofBuf (x.toBuf v) = v := by
  obtain ⟨r, rfl, _, _⟩ := x
  rfl

/-- The gather's operations are written over buffers that carry their tensor types; at a literal buffer the passage
    between the carried type and the buffer's own is the identity (`e1`, `e0`, `e13`), and between two operations it
    cancels (`ofBuf_toBuf`). What is left is the masked gather's chain, operation for operation. -/
private theorem take_of (W : Valuation τ sig (Elt Ideal)) (ei : IVec S2x1600000 32)
    (hs : (W (Proc.devRef .tc main_v1) : IVec S1600000 32) = srcOf ei) :
    (StableHlo.after hostOps3 W (Proc.devRef .tc main_v55) : FVec Ideal S1600000x64 .f32)
      = gatherMasked (F := Ideal) ei (W (Proc.devRef .tc main_v54)) := by
  have e1 : ∀ p1 p2 p3, (StableHlo.TRef.of (T := ⟨S1600000, .i32⟩) main_v1 p1 p2 p3).ofBuf (Val := Elt Ideal) (W (Proc.devRef .tc main_v1))
      = W (Proc.devRef .tc main_v1) := fun _ _ _ => rfl
  have e0 : ∀ p1 p2 p3, (StableHlo.TRef.of (T := ⟨S100000x64, .f32⟩) main_v54 p1 p2 p3).ofBuf (Val := Elt Ideal) (W (Proc.devRef .tc main_v54))
      = W (Proc.devRef .tc main_v54) := fun _ _ _ => rfl
  have e13 : ∀ p1 p2 p3 (v : FVec Ideal S1600000x64 .f32),
      (StableHlo.TRef.of (T := ⟨S1600000x64, .f32⟩) main_v55 p1 p2 p3).toBuf (Val := Elt Ideal) v = v := fun _ _ _ _ => rfl
  unfold gatherMasked wrapIdx
  rw [← hs]
  dsimp only [hostOps3]
  after_results_simp
  simp only [e1, e0, ofBuf_toBuf]
  exact e13 _ _ _ _

/-! ## The operations after the gather over any contents: the scatter-add of the gathered rows into the edges'
    destinations times one over the in-degree, and the layer's slices of the stacked weights and biases -/

private theorem agg_of (W : Valuation τ sig (Elt Ideal)) :
    (StableHlo.after hostOps3_1 W (Proc.devRef .tc main_v60) : FVec Ideal S100000x64 .f32)
      = mulf
          (Host.scatterAdd scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W (Proc.devRef .tc main_v3) : IVec S1600000 32))
            (W (Proc.devRef .tc main_v55) : FVec Ideal S1600000x64 .f32))
          (broadcastInDim S100000x64 ![0, 1] bcast_S100000x1_S100000x64_0_1 (W (Proc.devRef .tc main_v12) : FVec Ideal S100000x1 .f32)) := by
  dsimp only [hostOps3_1]
  after_results

private theorem wl_of (W : Valuation τ sig (Elt Ideal)) :
    (StableHlo.after hostOps3_1 W (Proc.devRef .tc main_v62) : Spec.Mat) = Spec.wSlice 3 (W (Proc.devRef .tc main_arg2)) := by
  dsimp only [hostOps3_1]
  after_results
  exact wSlice_read 3 (W (Proc.devRef .tc main_arg2)) slices_S5x64x64_S1x64x64_3_0_0 shapeCasts_S1x64x64_S64x64

private theorem wr_of (W : Valuation τ sig (Elt Ideal)) :
    (StableHlo.after hostOps3_1 W (Proc.devRef .tc main_v64) : Spec.Mat) = Spec.wSlice 3 (W (Proc.devRef .tc main_arg3)) := by
  dsimp only [hostOps3_1]
  after_results
  exact wSlice_read 3 (W (Proc.devRef .tc main_arg3)) slices_S5x64x64_S1x64x64_3_0_0 shapeCasts_S1x64x64_S64x64

private theorem b_of (W : Valuation τ sig (Elt Ideal)) :
    (StableHlo.after hostOps3_1 W (Proc.devRef .tc main_v67) : Spec.Row) = Spec.bRow 3 (W (Proc.devRef .tc main_arg4)) := by
  dsimp only [hostOps3_1]
  after_results
  exact bRow_read 3 (W (Proc.devRef .tc main_arg4)) slices_S5x64_S1x64_3_0 shapeCasts_S1x64_S64 shapeCasts_S64_S1x64

/-! ## The stretches chained -/

/-- Region 2's result is what the features array holds when the gather's operations start: the region may change
    that array alone, and leaves its result there. -/
private theorem prev_of (c : Dev nD) : V10 m (outs3 m) c main_v54 = o10 m c := by
  simp only [V10, Function.update_self]
  unfold outs3
  rw [dif_neg (by decide : ¬ main_v54 = main_v26), dif_neg (by decide : ¬ main_v54 = main_v40), dif_pos rfl]

theorem E3_h (c : Dev nD) : E3 (F := Ideal) m c main_v54 = o10 m c := by
  unfold E3
  exact (V12_of m (outs3 m) c main_v54 (by decide)).trans <| (V11_of m (outs3 m) c main_v54 (by decide)).trans <| prev_of m c

theorem E3_agg (hpre : Cert.Pre_KernelIdeal m) (c : Dev nD) :
    E3 (F := Ideal) m c main_v60 = aggr (F := Ideal) (m ((c.tc : Thread nD τ).loc main_arg1)) (o10 m c) := by
  have h1 : (V10 m (outs3 m) c main_v1 : IVec S1600000 32) = srcOf (m ((c.tc : Thread nD τ).loc main_arg1)) :=
    (V10_of m (outs3 m) c main_v1 (by decide)).trans <| (V9_of m (outs3 m) c main_v1 (by decide)).trans <| (V8_of m (outs3 m) c main_v1 (by decide)).trans <| (V7_of m (outs3 m) c main_v1 (by decide)).trans <| (V6_of m (outs3 m) c main_v1 (by decide)).trans <| (V5_of m (outs3 m) c main_v1 (by decide)).trans <| (V4_of m (outs3 m) c main_v1 (by decide)).trans <| (V3_of m c main_v1 (by decide)).trans <| (V2_of m c main_v1 (by decide)).trans <| src_of (V0 m c)
  have h3 : (V11 m (outs3 m) c main_v3 : IVec S1600000 32) = dstOf (m ((c.tc : Thread nD τ).loc main_arg1)) :=
    (V11_of m (outs3 m) c main_v3 (by decide)).trans <| (V10_of m (outs3 m) c main_v3 (by decide)).trans <| (V9_of m (outs3 m) c main_v3 (by decide)).trans <| (V8_of m (outs3 m) c main_v3 (by decide)).trans <| (V7_of m (outs3 m) c main_v3 (by decide)).trans <| (V6_of m (outs3 m) c main_v3 (by decide)).trans <| (V5_of m (outs3 m) c main_v3 (by decide)).trans <| (V4_of m (outs3 m) c main_v3 (by decide)).trans <| (V3_of m c main_v3 (by decide)).trans <| (V2_of m c main_v3 (by decide)).trans <| dst_of (V0 m c)
  have h12 : (V11 m (outs3 m) c main_v12 : FVec Ideal S100000x1 .f32) = invDeg (F := Ideal) (m ((c.tc : Thread nD τ).loc main_arg1)) :=
    (V11_of m (outs3 m) c main_v12 (by decide)).trans <| (V10_of m (outs3 m) c main_v12 (by decide)).trans <| (V9_of m (outs3 m) c main_v12 (by decide)).trans <| (V8_of m (outs3 m) c main_v12 (by decide)).trans <| (V7_of m (outs3 m) c main_v12 (by decide)).trans <| (V6_of m (outs3 m) c main_v12 (by decide)).trans <| (V5_of m (outs3 m) c main_v12 (by decide)).trans <| (V4_of m (outs3 m) c main_v12 (by decide)).trans <| (V3_of m c main_v12 (by decide)).trans <| (V2_of m c main_v12 (by decide)).trans <| invDeg_of (V0 m c)
  have hg : (V11 m (outs3 m) c main_v55 : FVec Ideal S1600000x64 .f32)
      = gatherMasked (F := Ideal) (m ((c.tc : Thread nD τ).loc main_arg1)) (o10 m c) :=
    (take_of (V10 m (outs3 m) c) (m ((c.tc : Thread nD τ).loc main_arg1)) h1).trans
      (congrArg (gatherMasked (F := Ideal) (m ((c.tc : Thread nD τ).loc main_arg1))) (prev_of m c))
  unfold E3
  refine (agg_of (V11 m (outs3 m) c)).trans ?_
  rw [h3, h12, hg, gatherMasked_eq m hpre c]
  rfl

theorem E3_wl (c : Dev nD) : (E3 (F := Ideal) m c main_v62 : Spec.Mat) = Spec.wSlice 3 (m ((c.tc : Thread nD τ).loc main_arg2)) := by
  unfold E3
  exact (wl_of (V11 m (outs3 m) c)).trans (congrArg (Spec.wSlice 3) ((V11_of m (outs3 m) c main_arg2 (by decide)).trans <| (V10_of m (outs3 m) c main_arg2 (by decide)).trans <| (V9_of m (outs3 m) c main_arg2 (by decide)).trans <| (V8_of m (outs3 m) c main_arg2 (by decide)).trans <| (V7_of m (outs3 m) c main_arg2 (by decide)).trans <| (V6_of m (outs3 m) c main_arg2 (by decide)).trans <| (V5_of m (outs3 m) c main_arg2 (by decide)).trans <| (V4_of m (outs3 m) c main_arg2 (by decide)).trans <| (V3_of m c main_arg2 (by decide)).trans <| (V2_of m c main_arg2 (by decide)).trans <| (V1_of m c main_arg2 (by decide))))

theorem E3_wr (c : Dev nD) : (E3 (F := Ideal) m c main_v64 : Spec.Mat) = Spec.wSlice 3 (m ((c.tc : Thread nD τ).loc main_arg3)) := by
  unfold E3
  exact (wr_of (V11 m (outs3 m) c)).trans (congrArg (Spec.wSlice 3) ((V11_of m (outs3 m) c main_arg3 (by decide)).trans <| (V10_of m (outs3 m) c main_arg3 (by decide)).trans <| (V9_of m (outs3 m) c main_arg3 (by decide)).trans <| (V8_of m (outs3 m) c main_arg3 (by decide)).trans <| (V7_of m (outs3 m) c main_arg3 (by decide)).trans <| (V6_of m (outs3 m) c main_arg3 (by decide)).trans <| (V5_of m (outs3 m) c main_arg3 (by decide)).trans <| (V4_of m (outs3 m) c main_arg3 (by decide)).trans <| (V3_of m c main_arg3 (by decide)).trans <| (V2_of m c main_arg3 (by decide)).trans <| (V1_of m c main_arg3 (by decide))))

theorem E3_b (c : Dev nD) : (E3 (F := Ideal) m c main_v67 : Spec.Row) = Spec.bRow 3 (m ((c.tc : Thread nD τ).loc main_arg4)) := by
  unfold E3
  exact (b_of (V11 m (outs3 m) c)).trans (congrArg (Spec.bRow 3) ((V11_of m (outs3 m) c main_arg4 (by decide)).trans <| (V10_of m (outs3 m) c main_arg4 (by decide)).trans <| (V9_of m (outs3 m) c main_arg4 (by decide)).trans <| (V8_of m (outs3 m) c main_arg4 (by decide)).trans <| (V7_of m (outs3 m) c main_arg4 (by decide)).trans <| (V6_of m (outs3 m) c main_arg4 (by decide)).trans <| (V5_of m (outs3 m) c main_arg4 (by decide)).trans <| (V4_of m (outs3 m) c main_arg4 (by decide)).trans <| (V3_of m c main_arg4 (by decide)).trans <| (V2_of m c main_arg4 (by decide)).trans <| (V1_of m c main_arg4 (by decide))))

end Cert.KernelIdeal.Hand

end
-- ==== Proof.KI.Host4.lean ====
/-
  The arrays region 4 is entered with, read back through the host operations before it: the aggregated features
  (the mean over in-neighbours of the features the region reads), the features themselves (the previous region's result),
  layer 4's two weight matrices and its bias row out of the stacked arguments.

  Each stretch of host operations is first read over arbitrary contents `W` of the buffers before it: the value an
  operation list leaves in one buffer is a term over `W` at the buffers the list reads. The stretches are then
  chained: a buffer no later operation writes, and no region may change, still holds what the earlier stretch left.
-/
import proofs.«406033_j21930103013914_1_alg».proof.Proof.KI.Aggr
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The stacked weights and biases read at one layer -/

/-- The slice of layer `l`'s matrix out of the stack, its unit axis dropped, is the stack's matrix `l`: entry
    `(i0, i1)` of the result is entry `(0, i0, i1)` of the slice, which is entry `(l, i0, i1)` of the stack. -/
private theorem wSlice_read (l : Fin 5) (w : Spec.Wts) (hs : (⟨3, ![5, 64, 64]⟩ : Shape).Slices ![l.val, 0, 0] ⟨3, ![1, 64, 64]⟩)
    (hc : (⟨3, ![1, 64, 64]⟩ : Shape).ShapeCasts ⟨2, ![64, 64]⟩) :
    shapeCast (⟨2, ![64, 64]⟩ : Shape) (extractStridedSlice (⟨3, ![1, 64, 64]⟩ : Shape) ![l.val, 0, 0] w hs) hc = Spec.wSlice l w := by
  funext j
  obtain ⟨i0, i1, rfl⟩ : ∃ (i0 i1 : Fin 64), j = ix2 i0 i1 := ⟨j 0, j 1, eq_ix2 j⟩
  rw [shapeCast_1ab_ab_apply]
  unfold Spec.wSlice
  refine extractStridedSlice_apply _ w hs _ _ fun a => ?_
  match a with
  | ⟨0, _⟩ => show l.val = l.val + 0; omega
  | ⟨1, _⟩ => show i0.val = 0 + i0.val; omega
  | ⟨2, _⟩ => show i1.val = 0 + i1.val; omega

/-- The slice of layer `l`'s bias out of the stack, flattened and set again as a row, is the stack's row `l`. -/
private theorem bRow_read (l : Fin 5) (b : Spec.Bias) (hs : (⟨2, ![5, 64]⟩ : Shape).Slices ![l.val, 0] ⟨2, ![1, 64]⟩)
    (hc : (⟨2, ![1, 64]⟩ : Shape).ShapeCasts ⟨1, ![64]⟩) (hc' : (⟨1, ![64]⟩ : Shape).ShapeCasts ⟨2, ![1, 64]⟩) :
    shapeCast (⟨2, ![1, 64]⟩ : Shape) (shapeCast (⟨1, ![64]⟩ : Shape) (extractStridedSlice (⟨2, ![1, 64]⟩ : Shape) ![l.val, 0] b hs) hc) hc'
      = Spec.bRow l b := by
  funext j
  obtain ⟨i0, i1, rfl⟩ : ∃ (i0 : Fin 1) (i1 : Fin 64), j = ix2 i0 i1 := ⟨j 0, j 1, eq_ix2 j⟩
  rw [shapeCast_a_1a_apply, shapeCast_1a_a_apply]
  unfold Spec.bRow
  refine extractStridedSlice_apply _ b hs _ _ fun a => ?_
  match a with
  | ⟨0, _⟩ => show l.val = l.val + 0; omega
  | ⟨1, _⟩ => show i1.val = 0 + i1.val; omega

/-! ## The first host operations over any contents: the edge list's two rows and one over the in-degree -/

private theorem src_of (W : Valuation τ sig (Elt Ideal)) :
    (StableHlo.after hostOps0 W (Proc.devRef .tc main_v1) : IVec S1600000 32) = srcOf (W (Proc.devRef .tc main_arg1)) := by
  dsimp only [hostOps0]
  after_results
  rfl

private theorem dst_of (W : Valuation τ sig (Elt Ideal)) :
    (StableHlo.after hostOps0 W (Proc.devRef .tc main_v3) : IVec S1600000 32) = dstOf (W (Proc.devRef .tc main_arg1)) := by
  dsimp only [hostOps0]
  after_results
  rfl

private theorem invDeg_of (W : Valuation τ sig (Elt Ideal)) :
    (StableHlo.after hostOps0 W (Proc.devRef .tc main_v12) : FVec Ideal S100000x1 .f32)
      = invDeg (F := Ideal) (W (Proc.devRef .tc main_arg1)) := by
  dsimp only [hostOps0]
  after_results
  rfl

/-! ## The gather's operations over any contents whose source row is the edge list's first row -/

/-- Contents moved to a typed buffer's own type and back are unchanged. -/
private theorem ofBuf_toBuf {T : BufTy} (x : StableHlo.TRef sig T) (v : T.Contents (Elt Ideal)) :
    x.ofBuf (x.toBuf v) = v := by
  obtain ⟨r, rfl, _, _⟩ := x
  rfl

/-- The gather's operations are written over buffers that carry their tensor types; at a literal buffer the passage
    between the carried type and the buffer's own is the identity (`e1`, `e0`, `e13`), and between two operations it
    cancels (`ofBuf_toBuf`). What is left is the masked gather's chain, operation for operation. -/
private theorem take_of (W : Valuation τ sig (Elt Ideal)) (ei : IVec S2x1600000 32)
    (hs : (W (Proc.devRef .tc main_v1) : IVec S1600000 32) = srcOf ei) :
    (StableHlo.after hostOps4 W (Proc.devRef .tc main_v69) : FVec Ideal S1600000x64 .f32)
      = gatherMasked (F := Ideal) ei (W (Proc.devRef .tc main_v68)) := by
  have e1 : ∀ p1 p2 p3, (StableHlo.TRef.of (T := ⟨S1600000, .i32⟩) main_v1 p1 p2 p3).ofBuf (Val := Elt Ideal) (W (Proc.devRef .tc main_v1))
      = W (Proc.devRef .tc main_v1) := fun _ _ _ => rfl
  have e0 : ∀ p1 p2 p3, (StableHlo.TRef.of (T := ⟨S100000x64, .f32⟩) main_v68 p1 p2 p3).ofBuf (Val := Elt Ideal) (W (Proc.devRef .tc main_v68))
      = W (Proc.devRef .tc main_v68) := fun _ _ _ => rfl
  have e13 : ∀ p1 p2 p3 (v : FVec Ideal S1600000x64 .f32),
      (StableHlo.TRef.of (T := ⟨S1600000x64, .f32⟩) main_v69 p1 p2 p3).toBuf (Val := Elt Ideal) v = v := fun _ _ _ _ => rfl
  unfold gatherMasked wrapIdx
  rw [← hs]
  dsimp only [hostOps4]
  after_results_simp
  simp only [e1, e0, ofBuf_toBuf]
  exact e13 _ _ _ _

/-! ## The operations after the gather over any contents: the scatter-add of the gathered rows into the edges'
    destinations times one over the in-degree, and the layer's slices of the stacked weights and biases -/

private theorem agg_of (W : Valuation τ sig (Elt Ideal)) :
    (StableHlo.after hostOps4_1 W (Proc.devRef .tc main_v74) : FVec Ideal S100000x64 .f32)
      = mulf
          (Host.scatterAdd scatter_S100000x64_S1600000x1_S1600000x64_1_0_0_1
            (broadcastInDim S100000x64 ![] bcast_S_S100000x64 (constant (F := Ideal) S_ .f32 0x00000000#32))
            (broadcastInDim S1600000x1 ![0] bcast_S1600000_S1600000x1_0 (W (Proc.devRef .tc main_v3) : IVec S1600000 32))
            (W (Proc.devRef .tc main_v69) : FVec Ideal S1600000x64 .f32))
          (broadcastInDim S100000x64 ![0, 1] bcast_S100000x1_S100000x64_0_1 (W (Proc.devRef .tc main_v12) : FVec Ideal S100000x1 .f32)) := by
  dsimp only [hostOps4_1]
  after_results

private theorem wl_of (W : Valuation τ sig (Elt Ideal)) :
    (StableHlo.after hostOps4_1 W (Proc.devRef .tc main_v76) : Spec.Mat) = Spec.wSlice 4 (W (Proc.devRef .tc main_arg2)) := by
  dsimp only [hostOps4_1]
  after_results
  exact wSlice_read 4 (W (Proc.devRef .tc main_arg2)) slices_S5x64x64_S1x64x64_4_0_0 shapeCasts_S1x64x64_S64x64

private theorem wr_of (W : Valuation τ sig (Elt Ideal)) :
    (StableHlo.after hostOps4_1 W (Proc.devRef .tc main_v78) : Spec.Mat) = Spec.wSlice 4 (W (Proc.devRef .tc main_arg3)) := by
  dsimp only [hostOps4_1]
  after_results
  exact wSlice_read 4 (W (Proc.devRef .tc main_arg3)) slices_S5x64x64_S1x64x64_4_0_0 shapeCasts_S1x64x64_S64x64

private theorem b_of (W : Valuation τ sig (Elt Ideal)) :
    (StableHlo.after hostOps4_1 W (Proc.devRef .tc main_v81) : Spec.Row) = Spec.bRow 4 (W (Proc.devRef .tc main_arg4)) := by
  dsimp only [hostOps4_1]
  after_results
  exact bRow_read 4 (W (Proc.devRef .tc main_arg4)) slices_S5x64_S1x64_4_0 shapeCasts_S1x64_S64 shapeCasts_S64_S1x64

/-! ## The stretches chained -/

/-- Region 3's result is what the features array holds when the gather's operations start: the region may change
    that array alone, and leaves its result there. -/
private theorem prev_of (c : Dev nD) : V13 m (outs4 m) c main_v68 = o13 m c := by
  simp only [V13, Function.update_self]
  unfold outs4
  rw [dif_neg (by decide : ¬ main_v68 = main_v26), dif_neg (by decide : ¬ main_v68 = main_v40), dif_neg (by decide : ¬ main_v68 = main_v54), dif_pos rfl]

theorem E4_h (c : Dev nD) : E4 (F := Ideal) m c main_v68 = o13 m c := by
  unfold E4
  exact (V15_of m (outs4 m) c main_v68 (by decide)).trans <| (V14_of m (outs4 m) c main_v68 (by decide)).trans <| prev_of m c

theorem E4_agg (hpre : Cert.Pre_KernelIdeal m) (c : Dev nD) :
    E4 (F := Ideal) m c main_v74 = aggr (F := Ideal) (m ((c.tc : Thread nD τ).loc main_arg1)) (o13 m c) := by
  have h1 : (V13 m (outs4 m) c main_v1 : IVec S1600000 32) = srcOf (m ((c.tc : Thread nD τ).loc main_arg1)) :=
    (V13_of m (outs4 m) c main_v1 (by decide)).trans <| (V12_of m (outs4 m) c main_v1 (by decide)).trans <| (V11_of m (outs4 m) c main_v1 (by decide)).trans <| (V10_of m (outs4 m) c main_v1 (by decide)).trans <| (V9_of m (outs4 m) c main_v1 (by decide)).trans <| (V8_of m (outs4 m) c main_v1 (by decide)).trans <| (V7_of m (outs4 m) c main_v1 (by decide)).trans <| (V6_of m (outs4 m) c main_v1 (by decide)).trans <| (V5_of m (outs4 m) c main_v1 (by decide)).trans <| (V4_of m (outs4 m) c main_v1 (by decide)).trans <| (V3_of m c main_v1 (by decide)).trans <| (V2_of m c main_v1 (by decide)).trans <| src_of (V0 m c)
  have h3 : (V14 m (outs4 m) c main_v3 : IVec S1600000 32) = dstOf (m ((c.tc : Thread nD τ).loc main_arg1)) :=
    (V14_of m (outs4 m) c main_v3 (by decide)).trans <| (V13_of m (outs4 m) c main_v3 (by decide)).trans <| (V12_of m (outs4 m) c main_v3 (by decide)).trans <| (V11_of m (outs4 m) c main_v3 (by decide)).trans <| (V10_of m (outs4 m) c main_v3 (by decide)).trans <| (V9_of m (outs4 m) c main_v3 (by decide)).trans <| (V8_of m (outs4 m) c main_v3 (by decide)).trans <| (V7_of m (outs4 m) c main_v3 (by decide)).trans <| (V6_of m (outs4 m) c main_v3 (by decide)).trans <| (V5_of m (outs4 m) c main_v3 (by decide)).trans <| (V4_of m (outs4 m) c main_v3 (by decide)).trans <| (V3_of m c main_v3 (by decide)).trans <| (V2_of m c main_v3 (by decide)).trans <| dst_of (V0 m c)
  have h12 : (V14 m (outs4 m) c main_v12 : FVec Ideal S100000x1 .f32) = invDeg (F := Ideal) (m ((c.tc : Thread nD τ).loc main_arg1)) :=
    (V14_of m (outs4 m) c main_v12 (by decide)).trans <| (V13_of m (outs4 m) c main_v12 (by decide)).trans <| (V12_of m (outs4 m) c main_v12 (by decide)).trans <| (V11_of m (outs4 m) c main_v12 (by decide)).trans <| (V10_of m (outs4 m) c main_v12 (by decide)).trans <| (V9_of m (outs4 m) c main_v12 (by decide)).trans <| (V8_of m (outs4 m) c main_v12 (by decide)).trans <| (V7_of m (outs4 m) c main_v12 (by decide)).trans <| (V6_of m (outs4 m) c main_v12 (by decide)).trans <| (V5_of m (outs4 m) c main_v12 (by decide)).trans <| (V4_of m (outs4 m) c main_v12 (by decide)).trans <| (V3_of m c main_v12 (by decide)).trans <| (V2_of m c main_v12 (by decide)).trans <| invDeg_of (V0 m c)
  have hg : (V14 m (outs4 m) c main_v69 : FVec Ideal S1600000x64 .f32)
      = gatherMasked (F := Ideal) (m ((c.tc : Thread nD τ).loc main_arg1)) (o13 m c) :=
    (take_of (V13 m (outs4 m) c) (m ((c.tc : Thread nD τ).loc main_arg1)) h1).trans
      (congrArg (gatherMasked (F := Ideal) (m ((c.tc : Thread nD τ).loc main_arg1))) (prev_of m c))
  unfold E4
  refine (agg_of (V14 m (outs4 m) c)).trans ?_
  rw [h3, h12, hg, gatherMasked_eq m hpre c]
  rfl

theorem E4_wl (c : Dev nD) : (E4 (F := Ideal) m c main_v76 : Spec.Mat) = Spec.wSlice 4 (m ((c.tc : Thread nD τ).loc main_arg2)) := by
  unfold E4
  exact (wl_of (V14 m (outs4 m) c)).trans (congrArg (Spec.wSlice 4) ((V14_of m (outs4 m) c main_arg2 (by decide)).trans <| (V13_of m (outs4 m) c main_arg2 (by decide)).trans <| (V12_of m (outs4 m) c main_arg2 (by decide)).trans <| (V11_of m (outs4 m) c main_arg2 (by decide)).trans <| (V10_of m (outs4 m) c main_arg2 (by decide)).trans <| (V9_of m (outs4 m) c main_arg2 (by decide)).trans <| (V8_of m (outs4 m) c main_arg2 (by decide)).trans <| (V7_of m (outs4 m) c main_arg2 (by decide)).trans <| (V6_of m (outs4 m) c main_arg2 (by decide)).trans <| (V5_of m (outs4 m) c main_arg2 (by decide)).trans <| (V4_of m (outs4 m) c main_arg2 (by decide)).trans <| (V3_of m c main_arg2 (by decide)).trans <| (V2_of m c main_arg2 (by decide)).trans <| (V1_of m c main_arg2 (by decide))))

theorem E4_wr (c : Dev nD) : (E4 (F := Ideal) m c main_v78 : Spec.Mat) = Spec.wSlice 4 (m ((c.tc : Thread nD τ).loc main_arg3)) := by
  unfold E4
  exact (wr_of (V14 m (outs4 m) c)).trans (congrArg (Spec.wSlice 4) ((V14_of m (outs4 m) c main_arg3 (by decide)).trans <| (V13_of m (outs4 m) c main_arg3 (by decide)).trans <| (V12_of m (outs4 m) c main_arg3 (by decide)).trans <| (V11_of m (outs4 m) c main_arg3 (by decide)).trans <| (V10_of m (outs4 m) c main_arg3 (by decide)).trans <| (V9_of m (outs4 m) c main_arg3 (by decide)).trans <| (V8_of m (outs4 m) c main_arg3 (by decide)).trans <| (V7_of m (outs4 m) c main_arg3 (by decide)).trans <| (V6_of m (outs4 m) c main_arg3 (by decide)).trans <| (V5_of m (outs4 m) c main_arg3 (by decide)).trans <| (V4_of m (outs4 m) c main_arg3 (by decide)).trans <| (V3_of m c main_arg3 (by decide)).trans <| (V2_of m c main_arg3 (by decide)).trans <| (V1_of m c main_arg3 (by decide))))

theorem E4_b (c : Dev nD) : (E4 (F := Ideal) m c main_v81 : Spec.Row) = Spec.bRow 4 (m ((c.tc : Thread nD τ).loc main_arg4)) := by
  unfold E4
  exact (b_of (V14 m (outs4 m) c)).trans (congrArg (Spec.bRow 4) ((V14_of m (outs4 m) c main_arg4 (by decide)).trans <| (V13_of m (outs4 m) c main_arg4 (by decide)).trans <| (V12_of m (outs4 m) c main_arg4 (by decide)).trans <| (V11_of m (outs4 m) c main_arg4 (by decide)).trans <| (V10_of m (outs4 m) c main_arg4 (by decide)).trans <| (V9_of m (outs4 m) c main_arg4 (by decide)).trans <| (V8_of m (outs4 m) c main_arg4 (by decide)).trans <| (V7_of m (outs4 m) c main_arg4 (by decide)).trans <| (V6_of m (outs4 m) c main_arg4 (by decide)).trans <| (V5_of m (outs4 m) c main_arg4 (by decide)).trans <| (V4_of m (outs4 m) c main_arg4 (by decide)).trans <| (V3_of m c main_arg4 (by decide)).trans <| (V2_of m c main_arg4 (by decide)).trans <| (V1_of m c main_arg4 (by decide))))

end Cert.KernelIdeal.Hand

end
-- ==== Proof.KI.Value.lean ====
/-
  The idealized kernel's result as one function of its arguments. Region 0 leaves the first layer of the launch
  features; each later region leaves its layer of what the region before it left, the aggregation between them being
  the mean over in-neighbours; the last region's result is the network of the specification.
-/
import proofs.«406033_j21930103013914_1_alg».proof.Proof.KI.Block0
import proofs.«406033_j21930103013914_1_alg».proof.Proof.KI.Block1
import proofs.«406033_j21930103013914_1_alg».proof.Proof.KI.Block2
import proofs.«406033_j21930103013914_1_alg».proof.Proof.KI.Block3
import proofs.«406033_j21930103013914_1_alg».proof.Proof.KI.Block4
import proofs.«406033_j21930103013914_1_alg».proof.Proof.KI.Host0
import proofs.«406033_j21930103013914_1_alg».proof.Proof.KI.Host1
import proofs.«406033_j21930103013914_1_alg».proof.Proof.KI.Host2
import proofs.«406033_j21930103013914_1_alg».proof.Proof.KI.Host3
import proofs.«406033_j21930103013914_1_alg».proof.Proof.KI.Host4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The program's aggregation at the launch edge list. -/
abbrev aggrOf (c : Dev nD) : Spec.Feat → Spec.Feat := aggr (F := Ideal) (m ((c.tc : Thread nD τ).loc main_arg1))

/-- After region 0: the first layer of the launch features. -/
theorem o4_eq (hpre : Cert.Pre_KernelIdeal m) (c : Dev nD) :
    (o4 (F := Ideal) m c : Spec.Feat)
      = Spec.h1 (aggrOf m c) (m ((c.tc : Thread nD τ).loc main_arg2)) (m ((c.tc : Thread nD τ).loc main_arg3))
          (m ((c.tc : Thread nD τ).loc main_arg4)) (m ((c.tc : Thread nD τ).loc main_arg0)) := by
  unfold o4
  rw [arrAt0 (E0 m) c, E0_agg m hpre c, E0_h m c, E0_wl m c, E0_wr m c, E0_b m c]
  rfl

/-- After region 1: the second layer of what region 0 left. -/
theorem o7_eq (hpre : Cert.Pre_KernelIdeal m) (c : Dev nD) :
    (o7 (F := Ideal) m c : Spec.Feat)
      = Spec.hNext 1 (aggrOf m c) (m ((c.tc : Thread nD τ).loc main_arg2)) (m ((c.tc : Thread nD τ).loc main_arg3))
          (m ((c.tc : Thread nD τ).loc main_arg4)) (o4 (F := Ideal) m c) := by
  unfold o7
  rw [arrAt1 (E1 m) c, E1_agg m hpre c, E1_h m c, E1_wl m c, E1_wr m c, E1_b m c]
  rfl

/-- After region 2: the third layer of what region 1 left. -/
theorem o10_eq (hpre : Cert.Pre_KernelIdeal m) (c : Dev nD) :
    (o10 (F := Ideal) m c : Spec.Feat)
      = Spec.hNext 2 (aggrOf m c) (m ((c.tc : Thread nD τ).loc main_arg2)) (m ((c.tc : Thread nD τ).loc main_arg3))
          (m ((c.tc : Thread nD τ).loc main_arg4)) (o7 (F := Ideal) m c) := by
  unfold o10
  rw [arrAt2 (E2 m) c, E2_agg m hpre c, E2_h m c, E2_wl m c, E2_wr m c, E2_b m c]
  rfl

/-- After region 3: the fourth layer of what region 2 left. -/
theorem o13_eq (hpre : Cert.Pre_KernelIdeal m) (c : Dev nD) :
    (o13 (F := Ideal) m c : Spec.Feat)
      = Spec.hNext 3 (aggrOf m c) (m ((c.tc : Thread nD τ).loc main_arg2)) (m ((c.tc : Thread nD τ).loc main_arg3))
          (m ((c.tc : Thread nD τ).loc main_arg4)) (o10 (F := Ideal) m c) := by
  unfold o13
  rw [arrAt3 (E3 m) c, E3_agg m hpre c, E3_h m c, E3_wl m c, E3_wr m c, E3_b m c]
  rfl

/-- After region 4: the last layer of what region 3 left, which is the whole network of the launch features. -/
theorem kernel_value (hpre : Cert.Pre_KernelIdeal m) (c : Dev nD) :
    (o16 (F := Ideal) m c : Spec.Feat)
      = Spec.net (aggr (F := Ideal) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg0)) := by
  unfold o16
  rw [arrAt4 (E4 m) c, E4_agg m hpre c, E4_h m c, E4_wl m c, E4_wr m c, E4_b m c,
    o13_eq m hpre c, o10_eq m hpre c, o7_eq m hpre c, o4_eq m hpre c]
  rfl

end Cert.KernelIdeal.Hand

end
-- ==== Proof.RI.Ref.lean ====
/-
  The idealized reference's result as one function of its arguments. Its layers compute
  (agg · Wl + b) + h · Wr (+ the residual) where the specification has (agg · Wl + h · Wr) + b (+ the residual):
  addition of extended reals is commutative and associative, so the two agree entry by entry; each matrix product
  is the sum over the 64 contracted channels.
-/
import proofs.«406033_j21930103013914_1_alg».proof.Proof.Gen.ReferenceIdeal.Run
import proofs.«406033_j21930103013914_1_alg».proof.Proof.Gen.ReferenceIdeal.Read
import proofs.«406033_j21930103013914_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.ReferenceIdeal.Read
open scoped BigOperators

variable {F : FTy → Type} [FloatOps F]

/-- The source node of each edge (row 0 of the edge list) and its destination node (row 1). -/
def srcOf (ei : IVec S2x1600000 32) : IVec S1600000 32 :=
  shapeCast S1600000 ((extractStridedSlice S1x1600000 ![0, 0] · slices_S2x1600000_S1x1600000_0_0) ei) shapeCasts_S1x1600000_S1600000
def dstOf (ei : IVec S2x1600000 32) : IVec S1600000 32 :=
  shapeCast S1600000 ((extractStridedSlice S1x1600000 ![1, 0] · slices_S2x1600000_S1x1600000_1_0) ei) shapeCasts_S1x1600000_S1600000

/-- A source index counted from the end (negative) is moved into range by adding the number of nodes; the result as a
    column of start indices. -/
def wrapIdx (ei : IVec S2x1600000 32) : IVec S1600000x1 32 :=
  broadcastInDim S1600000x1 ![0] bcast_S1600000_S1600000x1_0
    (select (cmpi .slt (srcOf ei) (broadcastInDim S1600000 ![] bcast_S_S1600000 (constantI S_ 32 0#32)))
      (addi (srcOf ei) (broadcastInDim S1600000 ![] bcast_S_S1600000 (constantI S_ 32 100000#32)))
      (srcOf ei))

/-- One over each node's in-degree (at least one): the count of edges into the node, by a scatter-add of ones. -/
def invDeg (ei : IVec S2x1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 (dstOf ei))
          (broadcastInDim S1600000 ![] bcast_S_S1600000 (constant S_ .f32 0x3F800000#32)))
        (broadcastInDim S100000 ![] bcast_S_S100000 (constant S_ .f32 0x3F800000#32))))

/-- The mean of `h` over each node's in-neighbours: the rows of `h` at the edges' sources, summed into the edges'
    destinations, times one over the in-degree. -/
def aggr (ei : IVec S2x1600000 32) (h : FVec F S100000x64 .f32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstOf ei))
      (Host.gather gather_S100000x64_S1600000x1_S1600000x64_1_0_n_n_0_1_164 h (wrapIdx ei)))
    (broadcastInDim S100000x64 ![0, 1] bcast_S100000x1_S100000x64_0_1 (invDeg ei))

/-! ## One layer's arithmetic, over any aggregate and features -/

/-- A matrix product at an index: the sum over the 64 contracted channels. -/
theorem dot_apply (a : FVec Ideal S100000x64 .f32) (w : FVec Ideal S64x64 .f32) (i : S100000x64.Idx) :
    Host.dotGeneral (F := Ideal) dot_S100000x64_S64x64_S100000x64_1_0_0_1_n_n none a w i
      = ∑ k : Fin 64, a (ix2 (i 0) k) * w (ix2 k (i 1)) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k := funext fun a => Fin.ext (by
    match a with
    | ⟨0, _⟩ => exact lhs_main_v35_0 _ _
    | ⟨1, _⟩ => exact (lhs_main_v35_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) := funext fun a => Fin.ext (by
    match a with
    | ⟨0, _⟩ => exact (rhs_main_v35_0 _ _).trans hk
    | ⟨1, _⟩ => exact rhs_main_v35_1 _ _)
  rw [el, er]
  rfl

/-- The reference's affine part, (agg · wl + b) + h · wr, is the specification's (agg · wl + h · wr) + b. -/
theorem lin_eq (agg h : FVec Ideal S100000x64 .f32) (wl wr : FVec Ideal S64x64 .f32) (bf : FVec Ideal S100000x64 .f32)
    (b : Spec.Row) (hb : ∀ i : S100000x64.Idx, bf i = b (ix2 0 (i 1))) :
    (addf (addf (Host.dotGeneral (F := Ideal) dot_S100000x64_S64x64_S100000x64_1_0_0_1_n_n none agg wl) bf)
      (Host.dotGeneral (F := Ideal) dot_S100000x64_S64x64_S100000x64_1_0_0_1_n_n none h wr) : Spec.Feat)
      = Spec.linR wl wr b agg h := by
  funext i
  rw [addf_apply, addf_apply, dot_apply, dot_apply, hb i]
  unfold Spec.linR
  exact add_right_comm _ _ _

/-- Layer `l`'s matrix: the slice of the stack at `l`, with its unit axis dropped, read at an index. -/
theorem wslice_eq (l : Fin 5) (w : FVec Ideal S5x64x64 .f32) (hs : S5x64x64.Slices ![l.val, 0, 0] S1x64x64) :
    (shapeCast S64x64 (extractStridedSlice S1x64x64 ![l.val, 0, 0] w hs) shapeCasts_S1x64x64_S64x64 : Spec.Mat)
      = Spec.wSlice l w := by
  funext j
  rw [shapeCast_apply _ shapeCasts_S1x64x64_S64x64 j (ix3 0 (j 0) (j 1))
    (by rewrite [Shape.rowMajor_val_three, Shape.rowMajor_val_two]; show (0 * 64 + (j 0).val) * 64 + (j 1).val = (j 0).val * 64 + (j 1).val; omega)]
  exact extractStridedSlice_apply _ w hs _ (ix3 l (j 0) (j 1)) (fun a => match a with
    | ⟨0, _⟩ => by show l.val = l.val + 0; omega
    | ⟨1, _⟩ => by show (j 0).val = 0 + (j 0).val; omega
    | ⟨2, _⟩ => by show (j 1).val = 0 + (j 1).val; omega)

/-- Layer `l`'s bias, spread over the nodes, read at an index: the stack's entry at `l` and the channel. -/
theorem bias_apply (l : Fin 5) (b : FVec Ideal S5x64 .f32) (hs : S5x64.Slices ![l.val, 0] S1x64) (i : S100000x64.Idx) :
    broadcastInDim S100000x64 ![0, 1] bcast_S1x64_S100000x64_0_1
      (broadcastInDim S1x64 ![1] bcast_S64_S1x64_1
        (shapeCast S64 (extractStridedSlice S1x64 ![l.val, 0] b hs) shapeCasts_S1x64_S64)) i
      = Spec.bRow l b (ix2 0 (i 1)) := by
  rw [broadcastInDim_apply _ bcast_S1x64_S100000x64_0_1 _ i (ix2 0 (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ bcast_S64_S1x64_1 _ (ix2 0 (i 1)) (ix1 (i 1)) (fun a => match a with
      | ⟨0, _⟩ => by show (i 1).val = if (64 : Nat) = 1 then 0 else (i 1).val; rw [if_neg (by decide)]),
    shapeCast_apply _ shapeCasts_S1x64_S64 (ix1 (i 1)) (ix2 0 (i 1))
      (by rewrite [Shape.rowMajor_val_two, Shape.rowMajor_val_one]; show 0 * 64 + (i 1).val = (i 1).val; omega)]
  exact extractStridedSlice_apply _ b hs _ (ix2 l (i 1)) (fun a => match a with
    | ⟨0, _⟩ => by show l.val = l.val + 0; omega
    | ⟨1, _⟩ => by show (i 1).val = 0 + (i 1).val; omega)

/-- The array of zeros the reference takes its maximum with, read at an index. -/
theorem zeros_apply (i : S100000x64.Idx) : (broadcastInDim S100000x64 ![] bcast_S_S100000x64 (constant (F := Ideal) S_ .f32 0x00000000#32)) i = 0 := by
  rw [broadcastInDim_apply _ bcast_S_S100000x64 _ i ix0 (fun a => a.elim0), constant_apply, Ideal.ofBits_zero_f32]

/-- The first layer: the affine part, then the maximum with zero. -/
theorem layerA_eq (agg h : FVec Ideal S100000x64 .f32) (wl wr : FVec Ideal S64x64 .f32) (bf : FVec Ideal S100000x64 .f32)
    (b : Spec.Row) (hb : ∀ i : S100000x64.Idx, bf i = b (ix2 0 (i 1))) :
    (maximumf (addf (addf (Host.dotGeneral (F := Ideal) dot_S100000x64_S64x64_S100000x64_1_0_0_1_n_n none agg wl) bf) (Host.dotGeneral (F := Ideal) dot_S100000x64_S64x64_S100000x64_1_0_0_1_n_n none h wr)) (broadcastInDim S100000x64 ![] bcast_S_S100000x64 (constant (F := Ideal) S_ .f32 0x00000000#32)) : Spec.Feat)
      = Spec.layerA wl wr b agg h := by
  funext i
  rw [maximumf_apply, zeros_apply, lin_eq agg h wl wr bf b hb]
  rfl

/-- A middle layer: the affine part plus the residual, then the maximum with zero. -/
theorem layerB_eq (agg h prev : FVec Ideal S100000x64 .f32) (wl wr : FVec Ideal S64x64 .f32) (bf : FVec Ideal S100000x64 .f32)
    (b : Spec.Row) (hb : ∀ i : S100000x64.Idx, bf i = b (ix2 0 (i 1))) :
    (maximumf (addf (addf (addf (Host.dotGeneral (F := Ideal) dot_S100000x64_S64x64_S100000x64_1_0_0_1_n_n none agg wl) bf) (Host.dotGeneral (F := Ideal) dot_S100000x64_S64x64_S100000x64_1_0_0_1_n_n none h wr)) prev) (broadcastInDim S100000x64 ![] bcast_S_S100000x64 (constant (F := Ideal) S_ .f32 0x00000000#32)) : Spec.Feat)
      = Spec.layerB wl wr b agg h prev := by
  funext i
  rw [maximumf_apply, zeros_apply, addf_apply, lin_eq agg h wl wr bf b hb]
  rfl

/-- The last layer: the affine part alone. -/
theorem layerC_eq (agg h : FVec Ideal S100000x64 .f32) (wl wr : FVec Ideal S64x64 .f32) (bf : FVec Ideal S100000x64 .f32)
    (b : Spec.Row) (hb : ∀ i : S100000x64.Idx, bf i = b (ix2 0 (i 1))) :
    (addf (addf (Host.dotGeneral (F := Ideal) dot_S100000x64_S64x64_S100000x64_1_0_0_1_n_n none agg wl) bf) (Host.dotGeneral (F := Ideal) dot_S100000x64_S64x64_S100000x64_1_0_0_1_n_n none h wr) : Spec.Feat) = Spec.layerC wl wr b agg h :=
  lin_eq agg h wl wr bf b hb

/-! ## The aggregation, layer by layer: the same chain of the edge list applied to each layer's features -/

/-- The aggregation from its four edge-list ingredients: the zero start, the destinations, the wrapped sources and one over
    the in-degree. -/
theorem aggr_congr (ei : IVec S2x1600000 32) (h : FVec Ideal S100000x64 .f32)
    (z : FVec Ideal S100000x64 .f32) (d w : IVec S1600000x1 32) (iv : FVec Ideal S100000x64 .f32)
    (hz : z = broadcastInDim S100000x64 ![] bcast_S_S100000x64 (constant (F := Ideal) S_ .f32 0x00000000#32))
    (hd : d = broadcastInDim S1600000x1 ![0] bcast_S1600000_S1600000x1_0 (dstOf ei))
    (hw : w = wrapIdx ei)
    (hiv : iv = broadcastInDim S100000x64 ![0, 1] bcast_S100000x1_S100000x64_0_1 (invDeg (F := Ideal) ei)) :
    mulf (Host.scatterAdd scatter_S100000x64_S1600000x1_S1600000x64_1_0_0_1 z d
      (Host.gather gather_S100000x64_S1600000x1_S1600000x64_1_0_n_n_0_1_164 h w)) iv = aggr (F := Ideal) ei h := by
  subst hz hd hw hiv
  rfl

/-- The reference's edge-list stages are the named ones: sources, destinations, one over the in-degree; and, for each layer, the
    wrapped sources, the zero start, the destinations as a column and the in-degree factor spread over the channels. -/
theorem src_eq (x1 : IVec S2x1600000 32) : val_main_v1 (F := Ideal) x1 = srcOf x1 := by
  unfold val_main_v1 val_main_v0 srcOf
  rfl
theorem dst_eq (x1 : IVec S2x1600000 32) : val_main_v3 (F := Ideal) x1 = dstOf x1 := by
  unfold val_main_v3 val_main_v2 dstOf
  rfl
theorem inv_eq (x1 : IVec S2x1600000 32) : val_main_v12 (F := Ideal) x1 = invDeg (F := Ideal) x1 := by
  unfold val_main_v12 val_main_v11 val_main_v10 val_main_cst_2 val_main_v9 val_main_v8 val_main_cst_1 val_main_v7
    val_main_v6 val_main_v5 val_main_cst_0 val_main_v4 val_main_cst invDeg
  rw [dst_eq]

theorem wrap0_eq (x1 : IVec S2x1600000 32) : val_main_v18 (F := Ideal) x1 = wrapIdx x1 := by
  unfold val_main_v18 val_main_v17 val_main_v16 val_main_v15 val_main_c_3 val_main_v14 val_main_v13 val_main_c wrapIdx
  rw [src_eq]
theorem zero0_eq : val_main_v20 (F := Ideal) = broadcastInDim S100000x64 ![] bcast_S_S100000x64 (constant (F := Ideal) S_ .f32 0x00000000#32) := by
  unfold val_main_v20 val_main_cst_4
  rfl
theorem dstc0_eq (x1 : IVec S2x1600000 32) :
    val_main_v21 (F := Ideal) x1 = broadcastInDim S1600000x1 ![0] bcast_S1600000_S1600000x1_0 (dstOf x1) := by
  unfold val_main_v21
  rw [dst_eq]
theorem invc0_eq (x1 : IVec S2x1600000 32) :
    val_main_v23 (F := Ideal) x1 = broadcastInDim S100000x64 ![0, 1] bcast_S100000x1_S100000x64_0_1 (invDeg (F := Ideal) x1) := by
  unfold val_main_v23
  rw [inv_eq]
theorem agg0_eq (x0 : FVec Ideal S100000x64 .f32) (x1 : IVec S2x1600000 32) :
    val_main_v24 (F := Ideal) x0 x1 = aggr (F := Ideal) x1 x0 := by
  unfold val_main_v24 val_main_v22 val_main_v19
  exact aggr_congr x1 _ _ _ _ _ zero0_eq (dstc0_eq x1) (wrap0_eq x1) (invc0_eq x1)

theorem wrap1_eq (x1 : IVec S2x1600000 32) : val_main_v43 (F := Ideal) x1 = wrapIdx x1 := by
  unfold val_main_v43 val_main_v42 val_main_v41 val_main_v40 val_main_c_6 val_main_v39 val_main_v38 val_main_c_5 wrapIdx
  rw [src_eq]
theorem zero1_eq : val_main_v45 (F := Ideal) = broadcastInDim S100000x64 ![] bcast_S_S100000x64 (constant (F := Ideal) S_ .f32 0x00000000#32) := by
  unfold val_main_v45 val_main_cst_7
  rfl
theorem dstc1_eq (x1 : IVec S2x1600000 32) :
    val_main_v46 (F := Ideal) x1 = broadcastInDim S1600000x1 ![0] bcast_S1600000_S1600000x1_0 (dstOf x1) := by
  unfold val_main_v46
  rw [dst_eq]
theorem invc1_eq (x1 : IVec S2x1600000 32) :
    val_main_v48 (F := Ideal) x1 = broadcastInDim S100000x64 ![0, 1] bcast_S100000x1_S100000x64_0_1 (invDeg (F := Ideal) x1) := by
  unfold val_main_v48
  rw [inv_eq]
theorem agg1_eq (x0 : FVec Ideal S100000x64 .f32) (x1 : IVec S2x1600000 32) (x2 x3 : FVec Ideal S5x64x64 .f32) (x4 : FVec Ideal S5x64 .f32) :
    val_main_v49 (F := Ideal) x0 x1 x2 x3 x4 = aggr (F := Ideal) x1 (val_main_v37 (F := Ideal) x0 x1 x2 x3 x4) := by
  unfold val_main_v49 val_main_v47 val_main_v44
  exact aggr_congr x1 _ _ _ _ _ zero1_eq (dstc1_eq x1) (wrap1_eq x1) (invc1_eq x1)

theorem wrap2_eq (x1 : IVec S2x1600000 32) : val_main_v69 (F := Ideal) x1 = wrapIdx x1 := by
  unfold val_main_v69 val_main_v68 val_main_v67 val_main_v66 val_main_c_9 val_main_v65 val_main_v64 val_main_c_8 wrapIdx
  rw [src_eq]
theorem zero2_eq : val_main_v71 (F := Ideal) = broadcastInDim S100000x64 ![] bcast_S_S100000x64 (constant (F := Ideal) S_ .f32 0x00000000#32) := by
  unfold val_main_v71 val_main_cst_10
  rfl
theorem dstc2_eq (x1 : IVec S2x1600000 32) :
    val_main_v72 (F := Ideal) x1 = broadcastInDim S1600000x1 ![0] bcast_S1600000_S1600000x1_0 (dstOf x1) := by
  unfold val_main_v72
  rw [dst_eq]
theorem invc2_eq (x1 : IVec S2x1600000 32) :
    val_main_v74 (F := Ideal) x1 = broadcastInDim S100000x64 ![0, 1] bcast_S100000x1_S100000x64_0_1 (invDeg (F := Ideal) x1) := by
  unfold val_main_v74
  rw [inv_eq]
theorem agg2_eq (x0 : FVec Ideal S100000x64 .f32) (x1 : IVec S2x1600000 32) (x2 x3 : FVec Ideal S5x64x64 .f32) (x4 : FVec Ideal S5x64 .f32) :
    val_main_v75 (F := Ideal) x0 x1 x2 x3 x4 = aggr (F := Ideal) x1 (val_main_v63 (F := Ideal) x0 x1 x2 x3 x4) := by
  unfold val_main_v75 val_main_v73 val_main_v70
  exact aggr_congr x1 _ _ _ _ _ zero2_eq (dstc2_eq x1) (wrap2_eq x1) (invc2_eq x1)

theorem wrap3_eq (x1 : IVec S2x1600000 32) : val_main_v95 (F := Ideal) x1 = wrapIdx x1 := by
  unfold val_main_v95 val_main_v94 val_main_v93 val_main_v92 val_main_c_12 val_main_v91 val_main_v90 val_main_c_11 wrapIdx
  rw [src_eq]
theorem zero3_eq : val_main_v97 (F := Ideal) = broadcastInDim S100000x64 ![] bcast_S_S100000x64 (constant (F := Ideal) S_ .f32 0x00000000#32) := by
  unfold val_main_v97 val_main_cst_13
  rfl
theorem dstc3_eq (x1 : IVec S2x1600000 32) :
    val_main_v98 (F := Ideal) x1 = broadcastInDim S1600000x1 ![0] bcast_S1600000_S1600000x1_0 (dstOf x1) := by
  unfold val_main_v98
  rw [dst_eq]
theorem invc3_eq (x1 : IVec S2x1600000 32) :
    val_main_v100 (F := Ideal) x1 = broadcastInDim S100000x64 ![0, 1] bcast_S100000x1_S100000x64_0_1 (invDeg (F := Ideal) x1) := by
  unfold val_main_v100
  rw [inv_eq]
theorem agg3_eq (x0 : FVec Ideal S100000x64 .f32) (x1 : IVec S2x1600000 32) (x2 x3 : FVec Ideal S5x64x64 .f32) (x4 : FVec Ideal S5x64 .f32) :
    val_main_v101 (F := Ideal) x0 x1 x2 x3 x4 = aggr (F := Ideal) x1 (val_main_v89 (F := Ideal) x0 x1 x2 x3 x4) := by
  unfold val_main_v101 val_main_v99 val_main_v96
  exact aggr_congr x1 _ _ _ _ _ zero3_eq (dstc3_eq x1) (wrap3_eq x1) (invc3_eq x1)

theorem wrap4_eq (x1 : IVec S2x1600000 32) : val_main_v121 (F := Ideal) x1 = wrapIdx x1 := by
  unfold val_main_v121 val_main_v120 val_main_v119 val_main_v118 val_main_c_15 val_main_v117 val_main_v116 val_main_c_14 wrapIdx
  rw [src_eq]
theorem zero4_eq : val_main_v123 (F := Ideal) = broadcastInDim S100000x64 ![] bcast_S_S100000x64 (constant (F := Ideal) S_ .f32 0x00000000#32) := by
  unfold val_main_v123 val_main_cst_16
  rfl
theorem dstc4_eq (x1 : IVec S2x1600000 32) :
    val_main_v124 (F := Ideal) x1 = broadcastInDim S1600000x1 ![0] bcast_S1600000_S1600000x1_0 (dstOf x1) := by
  unfold val_main_v124
  rw [dst_eq]
theorem invc4_eq (x1 : IVec S2x1600000 32) :
    val_main_v126 (F := Ideal) x1 = broadcastInDim S100000x64 ![0, 1] bcast_S100000x1_S100000x64_0_1 (invDeg (F := Ideal) x1) := by
  unfold val_main_v126
  rw [inv_eq]
theorem agg4_eq (x0 : FVec Ideal S100000x64 .f32) (x1 : IVec S2x1600000 32) (x2 x3 : FVec Ideal S5x64x64 .f32) (x4 : FVec Ideal S5x64 .f32) :
    val_main_v127 (F := Ideal) x0 x1 x2 x3 x4 = aggr (F := Ideal) x1 (val_main_v115 (F := Ideal) x0 x1 x2 x3 x4) := by
  unfold val_main_v127 val_main_v125 val_main_v122
  exact aggr_congr x1 _ _ _ _ _ zero4_eq (dstc4_eq x1) (wrap4_eq x1) (invc4_eq x1)

/-! ## The layers' weights and the layers -/
theorem wl0_eq (x2 : FVec Ideal S5x64x64 .f32) : (val_main_v26 (F := Ideal) x2 : Spec.Mat) = Spec.wSlice 0 x2 :=
  wslice_eq 0 x2 slices_S5x64x64_S1x64x64_0_0_0
theorem wr0_eq (x3 : FVec Ideal S5x64x64 .f32) : (val_main_v34 (F := Ideal) x3 : Spec.Mat) = Spec.wSlice 0 x3 :=
  wslice_eq 0 x3 slices_S5x64x64_S1x64x64_0_0_0
theorem wl1_eq (x2 : FVec Ideal S5x64x64 .f32) : (val_main_v51 (F := Ideal) x2 : Spec.Mat) = Spec.wSlice 1 x2 :=
  wslice_eq 1 x2 slices_S5x64x64_S1x64x64_1_0_0
theorem wr1_eq (x3 : FVec Ideal S5x64x64 .f32) : (val_main_v59 (F := Ideal) x3 : Spec.Mat) = Spec.wSlice 1 x3 :=
  wslice_eq 1 x3 slices_S5x64x64_S1x64x64_1_0_0
theorem wl2_eq (x2 : FVec Ideal S5x64x64 .f32) : (val_main_v77 (F := Ideal) x2 : Spec.Mat) = Spec.wSlice 2 x2 :=
  wslice_eq 2 x2 slices_S5x64x64_S1x64x64_2_0_0
theorem wr2_eq (x3 : FVec Ideal S5x64x64 .f32) : (val_main_v85 (F := Ideal) x3 : Spec.Mat) = Spec.wSlice 2 x3 :=
  wslice_eq 2 x3 slices_S5x64x64_S1x64x64_2_0_0
theorem wl3_eq (x2 : FVec Ideal S5x64x64 .f32) : (val_main_v103 (F := Ideal) x2 : Spec.Mat) = Spec.wSlice 3 x2 :=
  wslice_eq 3 x2 slices_S5x64x64_S1x64x64_3_0_0
theorem wr3_eq (x3 : FVec Ideal S5x64x64 .f32) : (val_main_v111 (F := Ideal) x3 : Spec.Mat) = Spec.wSlice 3 x3 :=
  wslice_eq 3 x3 slices_S5x64x64_S1x64x64_3_0_0
theorem wl4_eq (x2 : FVec Ideal S5x64x64 .f32) : (val_main_v129 (F := Ideal) x2 : Spec.Mat) = Spec.wSlice 4 x2 :=
  wslice_eq 4 x2 slices_S5x64x64_S1x64x64_4_0_0
theorem wr4_eq (x3 : FVec Ideal S5x64x64 .f32) : (val_main_v137 (F := Ideal) x3 : Spec.Mat) = Spec.wSlice 4 x3 :=
  wslice_eq 4 x3 slices_S5x64x64_S1x64x64_4_0_0

/-- The features after the first layer. -/
theorem h1_eq (x0 : FVec Ideal S100000x64 .f32) (x1 : IVec S2x1600000 32) (x2 x3 : FVec Ideal S5x64x64 .f32) (x4 : FVec Ideal S5x64 .f32) :
    (val_main_v37 (F := Ideal) x0 x1 x2 x3 x4 : Spec.Feat) = Spec.h1 (aggr (F := Ideal) x1) x2 x3 x4 x0 := by
  unfold val_main_v37 val_main_v36 val_main_v32 val_main_v35 val_main_v27 val_main_v31 val_main_v30 val_main_v29 val_main_v28
    val_main_call0_v0 val_main_call0_cst
  rw [agg0_eq, wl0_eq, wr0_eq]
  exact layerA_eq _ _ _ _ _ _ (bias_apply 0 x4 slices_S5x64_S1x64_0_0)

/-- The features after middle layer 1, from those before it. -/
theorem h2_eq (x0 : FVec Ideal S100000x64 .f32) (x1 : IVec S2x1600000 32) (x2 x3 : FVec Ideal S5x64x64 .f32) (x4 : FVec Ideal S5x64 .f32) :
    (val_main_v63 (F := Ideal) x0 x1 x2 x3 x4 : Spec.Feat)
      = Spec.hNext 1 (aggr (F := Ideal) x1) x2 x3 x4 (val_main_v37 (F := Ideal) x0 x1 x2 x3 x4) := by
  unfold val_main_v63 val_main_v62 val_main_v61 val_main_v57 val_main_v60 val_main_v52 val_main_v56 val_main_v55 val_main_v54 val_main_v53
    val_main_call1_v0 val_main_call1_cst
  rw [agg1_eq, wl1_eq, wr1_eq]
  exact layerB_eq _ _ _ _ _ _ _ (bias_apply 1 x4 slices_S5x64_S1x64_1_0)

/-- The features after middle layer 2, from those before it. -/
theorem h3_eq (x0 : FVec Ideal S100000x64 .f32) (x1 : IVec S2x1600000 32) (x2 x3 : FVec Ideal S5x64x64 .f32) (x4 : FVec Ideal S5x64 .f32) :
    (val_main_v89 (F := Ideal) x0 x1 x2 x3 x4 : Spec.Feat)
      = Spec.hNext 2 (aggr (F := Ideal) x1) x2 x3 x4 (val_main_v63 (F := Ideal) x0 x1 x2 x3 x4) := by
  unfold val_main_v89 val_main_v88 val_main_v87 val_main_v83 val_main_v86 val_main_v78 val_main_v82 val_main_v81 val_main_v80 val_main_v79
    val_main_call2_v0 val_main_call2_cst
  rw [agg2_eq, wl2_eq, wr2_eq]
  exact layerB_eq _ _ _ _ _ _ _ (bias_apply 2 x4 slices_S5x64_S1x64_2_0)

/-- The features after middle layer 3, from those before it. -/
theorem h4_eq (x0 : FVec Ideal S100000x64 .f32) (x1 : IVec S2x1600000 32) (x2 x3 : FVec Ideal S5x64x64 .f32) (x4 : FVec Ideal S5x64 .f32) :
    (val_main_v115 (F := Ideal) x0 x1 x2 x3 x4 : Spec.Feat)
      = Spec.hNext 3 (aggr (F := Ideal) x1) x2 x3 x4 (val_main_v89 (F := Ideal) x0 x1 x2 x3 x4) := by
  unfold val_main_v115 val_main_v114 val_main_v113 val_main_v109 val_main_v112 val_main_v104 val_main_v108 val_main_v107 val_main_v106 val_main_v105
    val_main_call3_v0 val_main_call3_cst
  rw [agg3_eq, wl3_eq, wr3_eq]
  exact layerB_eq _ _ _ _ _ _ _ (bias_apply 3 x4 slices_S5x64_S1x64_3_0)

/-- The last layer, from the features before it. -/
theorem out_eq (x0 : FVec Ideal S100000x64 .f32) (x1 : IVec S2x1600000 32) (x2 x3 : FVec Ideal S5x64x64 .f32) (x4 : FVec Ideal S5x64 .f32) :
    (val_main_v139 (F := Ideal) x0 x1 x2 x3 x4 : Spec.Feat)
      = Spec.layerC (Spec.wSlice 4 x2) (Spec.wSlice 4 x3) (Spec.bRow 4 x4)
          (aggr (F := Ideal) x1 (val_main_v115 (F := Ideal) x0 x1 x2 x3 x4)) (val_main_v115 (F := Ideal) x0 x1 x2 x3 x4) := by
  unfold val_main_v139 val_main_v135 val_main_v138 val_main_v130 val_main_v134 val_main_v133 val_main_v132 val_main_v131
  rw [agg4_eq, wl4_eq, wr4_eq]
  exact layerC_eq _ _ _ _ _ _ (bias_apply 4 x4 slices_S5x64_S1x64_4_0)

/-- The reference's result is the specification's network of the arguments, with the aggregation read off the edge list. -/
theorem ref_value (m : (ℓ : Loc nD τ sig) → Buf (Elt Ideal) ℓ) (c : Dev nD) :
    (Cert.ReferenceIdeal.Value.res_out0 (F := Ideal) m c : Spec.Feat)
      = Spec.net (aggr (F := Ideal) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg0)) := by
  refine (val_main_v139_eq (F := Ideal) m c).trans ?_
  rw [out_eq, h4_eq, h3_eq, h2_eq, h1_eq]
  rfl

end Cert.ReferenceIdeal.Hand

end
-- ==== Proof.Bridge.lean ====
/-
  The two programs aggregate node features over the edges by the same operations: the rows at the edges' sources are
  gathered, summed into the edges' destinations and divided by the in-degree. The two readings are one function.
-/
import proofs.«406033_j21930103013914_1_alg».proof.Proof.KI.Aggr
import proofs.«406033_j21930103013914_1_alg».proof.Proof.RI.Ref

noncomputable section

namespace Cert.Bridge

open Idealize.ShloMosaic

set_option maxHeartbeats 400000 in
/-- The kernel's aggregation and the reference's are the same chain of operations on the edge list and the features. -/
theorem aggr_eq (ei : IVec Cert.KernelIdeal.S2x1600000 32) :
    Cert.KernelIdeal.Hand.aggr (F := Ideal) ei = Cert.ReferenceIdeal.Hand.aggr (F := Ideal) ei := rfl

end Cert.Bridge

end
-- ==== Proof.lean ====
/-
  The certificate of the five-layer graph encoder against its reference: both programs run to the end from any
  admissible memory leaving their arguments unchanged, the idealized kernel is the kernel's own text read over the
  extended reals (nothing was rewritten), and the idealized kernel and the idealized reference end with equal results.

  Each of the kernel's five regions computes, block of 2000 nodes by block, one layer
    out = agg · Wl + h · Wr + b  (+ the residual)  (then the maximum with zero),
  where agg is the mean of h over each node's in-neighbours, computed between the regions. The reference computes
  (agg · Wl + b) + h · Wr (+ the residual) on whole arrays. Over the extended reals addition is commutative and
  associative and a matrix product is a finite sum, so the two agree entry by entry whatever the values are. The
  kernel masks a gathered row whose source index is out of range where the reference does not; under the
  precondition every source index is a valid row index and the mask is all true.
-/
import proofs.«406033_j21930103013914_1_alg».proof.Defs
import proofs.«406033_j21930103013914_1_alg».proof.Proof.Gen.Kernel
import proofs.«406033_j21930103013914_1_alg».proof.Proof.Gen.KernelIdeal
import proofs.«406033_j21930103013914_1_alg».proof.Proof.Gen.ReferenceIdeal
import proofs.«406033_j21930103013914_1_alg».proof.Proof.Gen.ReferenceIdeal.Run
import proofs.«406033_j21930103013914_1_alg».proof.Proof.Gen.ReferenceIdeal.Read
import proofs.«406033_j21930103013914_1_alg».proof.Proof.Gen.Pre_finite_inputs
import proofs.«406033_j21930103013914_1_alg».proof.Proof.K.Run
import proofs.«406033_j21930103013914_1_alg».proof.Proof.KI.Run
import proofs.«406033_j21930103013914_1_alg».proof.Proof.KI.Value
import proofs.«406033_j21930103013914_1_alg».proof.Proof.RI.Ref
import proofs.«406033_j21930103013914_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ =>
  (θ_run Cert.Kernel.defs _ _).mono (fun _ h c => (h c).2) (Cert.Kernel.Hand.run_main (F := Bits) m ρ)

/-- So does the kernel read over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run ends with every argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the network of the specification of their (agreeing) arguments. -/
theorem algebraic : Cert.algebraic_KernelIdeal_ReferenceIdeal := by
  intro m ρ m' ρ' hpre hagree
  refine ⟨fun c => Cert.KernelIdeal.Hand.o16 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Hand.ref_value m' c).trans ?_
  rw [(hagree c).1, (hagree c).2.1, (hagree c).2.2.1, (hagree c).2.2.2.1, (hagree c).2.2.2.2]
  exact (Cert.Bridge.aggr_eq _) ▸ (Cert.KernelIdeal.Hand.kernel_value m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
